-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part2 {F : FTy → Type} [FloatOps F] (main_arg1 : FVec F S10000x10000 .f32) (main_arg7 : FVec F S128 .f32) (main_arg8 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_cst_16 : FVec F S_ .f32 := constant S_ .f32 0x00000000#32
  let main_v44 : FVec F S10000 .f32 := (fun x v => Host.reduceAdd x v reducesTo_S10000x10000_S10000_d1 h_S_) main_arg1 main_cst_16
  let main_cst_17 : FVec F S_ .f32 := constant S_ .f32 0x00000000#32
  let main_v45 : FVec F S10000 .f32 := broadcastInDim S10000 ![] bcast_S_S10000 main_cst_17
  let main_v46 : IVec S10000 1 := cmpf .une main_v44 main_v45
  let main_c_18 : IVec S_ 1 := constantI S_ 1 1#1
  let main_v47 : IVec S_ 1 := (fun x v => Host.reduce IntOp.andi x v reducesTo_S10000_S_d0 h_S_) main_v46 main_c_18
  let main_v48 : IVec S_ 1 := andi main_v43 main_v47
  main_v48

def fn_part1 {F : FTy → Type} [FloatOps F] (main_arg1 : FVec F S10000x10000 .f32) (main_arg4 : FVec F S128x128 .f32) (main_arg5 : FVec F S128 .f32) (main_arg6 : FVec F S128 .f32) (main_arg7 : FVec F S128 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg7 main_arg8 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S1x1 : Shape := ⟨2, ![1, 1]⟩
abbrev S1000x128 : Shape := ⟨2, ![1000, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 21
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S1x128, .f32⟩
  | .hbm, ⟨20, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S400x128, .f32⟩
  | .local _ .vmem, ⟨10, _⟩ => ⟨S400x128, .f32⟩
  | .local _ .vmem, ⟨11, _⟩ => ⟨S1x1, .f32⟩
  | .local _ .vmem, ⟨12, _⟩ => ⟨S400x128, .f32⟩
  | .local _ .vmem, ⟨13, _⟩ => ⟨S400x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1000x128, .f32⟩
  | .local _ .vmem, ⟨25, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_12 : BitVec 32 := 0#32
  let v23 : BitVec 1 := Scalar.cmpi .ne v22 c0_i32_12
  v23

def k1_cond2 (i : grid1.Coords) : BitVec 1 :=
  let arg0 : BitVec 32 := BitVec.ofNat 32 (i 0).val
  let c0_i32_13 : BitVec 32 := 0#32
  let v24 : BitVec 1 := Scalar.cmpi .sgt arg0 c0_i32_13
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S128x128_S128x128_1_0 : S128x128.Transposes [1, 0] S128x128
  shapeCasts_S128_S1x128 : S128.ShapeCasts S1x128
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S400x10000_S400 : S400x10000.Reduces [1] S400
  shapeCasts_S400_S400x1 : S400.ShapeCasts S400x1
  broadcasts_S400x1_S400x128 : S400x1.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  shapeCasts_S400x128_S400x128 : S400x128.ShapeCasts S400x128
  reduces_S400x128_S128 : S400x128.Reduces [0] S128
  shapeCasts_S1000x128_S1000x128 : S1000x128.ShapeCasts S1000x128
  dot_S1000x128_S128x128_S1000x128_1_0_0_1_n_n_wf : DotDims.WF S1000x128 S128x128 S1000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S10000x128.size a
  hwx2_0 : ∀ i : grid2.Coords, EltTy.bits .f32 = 32 ∨ (Rect.block (s := S10000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x128.size a ≤ S10000x128.size a
  hwx2_7 : ∀ i : grid2.Coords, EltTy.bits .f32 = 32 ∨ (Rect.block (s := S10000x128) S1000x128.size (cc2_transform_7 i) (hinb2_7 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond1 i == 1#1) && !(k1_cond2 i == 1#1) | 6 => fun i => !(k1_cond1 i == 1#1) && !(k1_cond2 i == 1#1) | ⟨_ + 7, h⟩ => absurd h (Nat.not_lt.2 (Nat.le_add_left _ _))

abbrev win2_0 : Pipeline.Window sig grid2 :=
  Pipeline.Window.ofSpec (Memref.whole main_v8_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S1000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S_ : Shape := ⟨0, ![]⟩
abbrev S10000x1 : Shape := ⟨2, ![10000, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1, .f32⟩
  | .hbm, ⟨9, _⟩ => ⟨S128x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S10000x128, .f32⟩
  | .hbm, ⟨19, _⟩ => ⟨S10000x128, .f32⟩
  | .hbm, ⟨20, _⟩ => ⟨S1x1, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S10000x128, .f32⟩
  | .hbm, ⟨61, _⟩ => ⟨S10000x128, .f32⟩
  | .hbm, ⟨62, _⟩ => ⟨S1x128, .f32⟩
  | .hbm, ⟨63, _⟩ => ⟨S10000x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S128x128, .f32⟩
  | .hbm, ⟨69, _⟩ => ⟨S10000x128, .f32⟩
  | .hbm, ⟨70, _⟩ => ⟨S1x128, .f32⟩
  | .hbm, ⟨71, _⟩ => ⟨S10000x128, .f32⟩
  | .hbm, ⟨72, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_cst_3 : Ref sig .tc := ⟨.hbm, 46, rfl⟩
abbrev main_call0_v12 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S1_S1x1_1 : S1.BroadcastsInDim S1x1 (![1] : Fin 1 → Fin S1x1.rank)
  bcast_S1x1_S10000x128_0_1 : S1x1.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x10000_S10000x1_S10000x1_1_0_0_1_n_n_wf : DotDims.WF S10000x10000 S10000x1 S10000x1 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf

class Facts : Prop extends Facts₀ where

variable [Facts]
-- ==== Proof.K.Region0.lean ====
/-
  The first dense layer's region (ten row tiles of 1000 nodes): what each window's staging buffer holds at a
  grid point, what the body leaves in the output tile — the tile of x times the whole weight plus the bias
  row, one store of the whole tile —, the proof data saying so, and the body's obligation at every point.
-/
import proofs.«111429_g56848187130529_cont_sun_m_287_2_alg».proof.Proof.Gen.Kernel.Launch
import proofs.«111429_g56848187130529_cont_sun_m_287_2_alg».proof.Proof.Gen.Kernel.Skeleton
import proofs.«111429_g56848187130529_cont_sun_m_287_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store take the whole buffer -/

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output tile after the body, from the three input blocks: its one store as a piece. -/
def out0_3 (x0 : Vec F S1000x128 .f32) (x1 : Vec F S128x128 .f32) (x2 : Vec F S1x128 .f32) : Vec F S1000x128 .f32 :=
  View.canon [⟨r0_x, k0_pay1 (View.ld x0 r0_x) (View.ld x1 r0_w) (View.ld x2 r0_b)⟩]

/-! ## The proof data -/

/-- The arrays as the region finds them; after the body each input's buffer at its block and the output's at
    `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Each input's buffer holds its block -/

/-- Input window 0's current staging buffer holds the window's block at every point, whether or not the block
    was brought in there: where it was not, the block index has not moved since the point before, so the block
    already in the buffer is this point's. For any proof data over the region's arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds the window's block at every point, whether or not the block
    was brought in there: where it was not, the block index has not moved since the point before, so the block
    already in the buffer is this point's. For any proof data over the region's arrays whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds the window's block at every point, whether or not the block
    was brought in there: where it was not, the block index has not moved since the point before, so the block
    already in the buffer is this point's. For any proof data over the region's arrays whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-! ## The one store covers the output tile -/

/-- The store's rectangle is the whole tile, so every index of the tile lies in it. -/
theorem cover0_3 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-! ## The body's triple -/

set_option maxHeartbeats 1000000 in
/-- The body on whole buffers — the three inputs' reading `x0`, `x1`, `x2`, the output's holding anything — runs
    to the continuation with the inputs' as they were and the output's at `out0_3 x0 x1 x2`: it loads the three
    inputs whole, loads the output tile once without using what it read, and stores the tile of `x0` times `x1`
    plus the row `x2` over the whole output tile. The grid coordinate is not read. -/
theorem sound_kernel0 (c : Dev nD) (E : Set ℕ) (i : grid0.Coords)
    (arg0 : Memref sig .tc .vmem S1000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1000x128 .f32) (harg3 : arg3.IsWhole)
    (x0 : Vec F S1000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__lin1_kernel i arg0 harg0 arg1 harg1 arg2 harg2 arg3 harg3) K := by
  simp only [cc0__lin1_kernel_eq_skeleton]; unfold cc0__lin1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation -/

/-- What the body is given at point `t`: the invariant, what the core owes, and each window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies at the blocks; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  The aggregation region (25 row tiles of 400 nodes). At every point the body reads the tile's rows of the
  adjacency, the whole first-layer output, the tile's rows of it again and the self weight, and stores the
  aggregated tile whole. The two moment rows are carried from point to point: at the first point the body
  stores the tile's column sums and column sums of squares; at every later point it loads what the point
  before left, adds the tile's, and stores the sum. The first-layer output reaches the body through two
  windows on ONE array (whole, and by tile): each holds half of the array's share.
-/
import proofs.«111429_g56848187130529_cont_sun_m_287_2_alg».proof.Proof.Gen.Kernel.Launch
import proofs.«111429_g56848187130529_cont_sun_m_287_2_alg».proof.Proof.Gen.Kernel.Skeleton
import proofs.«111429_g56848187130529_cont_sun_m_287_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store takes the whole buffer -/

abbrev r1_a : Rect S400x10000 := Rect.unit (s := S400x10000) ![0, 0] S400x10000.size inb_S400x10000_S400x10000_0_0
abbrev r1_h : Rect S10000x128 := Rect.unit (s := S10000x128) ![0, 0] S10000x128.size inb_S10000x128_S10000x128_0_0
abbrev r1_t : Rect S400x128 := Rect.unit (s := S400x128) ![0, 0] S400x128.size inb_S400x128_S400x128_0_0
abbrev r1_e : Rect S1x1 := Rect.unit (s := S1x1) ![0, 0] S1x1.size inb_S1x1_S1x1_0_0
abbrev r1_s : Rect S1x128 := Rect.unit (s := S1x128) ![0, 0] S1x128.size inb_S1x128_S1x128_0_0

/-! ## What the body leaves in each output buffer (x0 the adjacency rows, x1 the whole first-layer output,
    x2 its tile, x3 the self weight; `prev` what the point before left in the row) -/

/-- The aggregated tile: one store, at every point. -/
def out1_4 (x0 : Vec F S400x10000 .f32) (x1 : Vec F S10000x128 .f32) (x2 : Vec F S400x128 .f32) (x3 : Vec F S1x1 .f32) : Vec F S400x128 .f32 :=
  View.canon [⟨r1_t, k1_pay1 (View.ld x0 r1_a) (View.ld x1 r1_h) (View.ld x3 r1_e) (View.ld x2 r1_t)⟩]
/-- The sum row at the first point: the tile's column sums. -/
def outA1_5 (x0 : Vec F S400x10000 .f32) (x1 : Vec F S10000x128 .f32) (x2 : Vec F S400x128 .f32) (x3 : Vec F S1x1 .f32) : Vec F S1x128 .f32 :=
  View.canon [⟨r1_s, k1_pay2 (View.ld x0 r1_a) (View.ld x1 r1_h) (View.ld x3 r1_e) (View.ld x2 r1_t)⟩]
/-- The sum-of-squares row at the first point. -/
def outA1_6 (x0 : Vec F S400x10000 .f32) (x1 : Vec F S10000x128 .f32) (x2 : Vec F S400x128 .f32) (x3 : Vec F S1x1 .f32) : Vec F S1x128 .f32 :=
  View.canon [⟨r1_s, k1_pay3 (View.ld x0 r1_a) (View.ld x1 r1_h) (View.ld x3 r1_e) (View.ld x2 r1_t)⟩]
/-- The sum row at a later point: what the point before left plus the tile's column sums. -/
def outB1_5 (x0 : Vec F S400x10000 .f32) (x1 : Vec F S10000x128 .f32) (x2 : Vec F S400x128 .f32) (x3 : Vec F S1x1 .f32) (prev : Vec F S1x128 .f32) : Vec F S1x128 .f32 :=
  View.canon [⟨r1_s, k1_pay4 (View.ld x0 r1_a) (View.ld x1 r1_h) (View.ld x3 r1_e) (View.ld x2 r1_t) (View.ld prev r1_s)⟩]
/-- The sum-of-squares row at a later point. -/
def outB1_6 (x0 : Vec F S400x10000 .f32) (x1 : Vec F S10000x128 .f32) (x2 : Vec F S400x128 .f32) (x3 : Vec F S1x1 .f32) (prev : Vec F S1x128 .f32) : Vec F S1x128 .f32 :=
  View.canon [⟨r1_s, k1_pay5 (View.ld x0 r1_a) (View.ld x1 r1_h) (View.ld x3 r1_e) (View.ld x2 r1_t) (View.ld prev r1_s)⟩]

/-- THE ACCUMULATION: what the two moment rows hold after the body at position `n` (sum row, sum-of-squares row). -/
def outsAt1 (c : Dev nD) : (n : ℕ) → n < cfg1.N → Vec F S1x128 .f32 × Vec F S1x128 .f32
  | 0, hn =>
    (outA1_5 (iblk1 V c 0 ⟨0, hn⟩) (iblk1 V c 1 ⟨0, hn⟩) (iblk1 V c 2 ⟨0, hn⟩) (iblk1 V c 3 ⟨0, hn⟩),
     outA1_6 (iblk1 V c 0 ⟨0, hn⟩) (iblk1 V c 1 ⟨0, hn⟩) (iblk1 V c 2 ⟨0, hn⟩) (iblk1 V c 3 ⟨0, hn⟩))
  | n + 1, hn =>
    (outB1_5 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1,
     outB1_6 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_zero (c : Dev nD) (hn : 0 < cfg1.N) :
    outsAt1 V c 0 hn =
      (outA1_5 (iblk1 V c 0 ⟨0, hn⟩) (iblk1 V c 1 ⟨0, hn⟩) (iblk1 V c 2 ⟨0, hn⟩) (iblk1 V c 3 ⟨0, hn⟩),
       outA1_6 (iblk1 V c 0 ⟨0, hn⟩) (iblk1 V c 1 ⟨0, hn⟩) (iblk1 V c 2 ⟨0, hn⟩) (iblk1 V c 3 ⟨0, hn⟩)) := rfl
theorem outsAt1_succ (c : Dev nD) (n : ℕ) (hn : n + 1 < cfg1.N) :
    outsAt1 V c (n + 1) hn =
      (outB1_5 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).1,
       outB1_6 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2) := rfl

/-! ## The proof data -/

/-- The arrays as the region finds them; after the body each input's buffer at its block, the aggregated tile
    at `out1_4`, the moment rows at `outsAt1`; nothing owed; the two windows on the first-layer output hold half
    of its share each, every other input the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => (outsAt1 V c t.val t.isLt).1
    | ⟨6, _⟩ => (outsAt1 V c t.val t.isLt).2
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]
theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]

/-! ## Which case a point is in -/

/-- The first condition compares the point's coordinate with zero: it holds at the first point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- The second asks whether the coordinate is positive: it holds at every later point. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- A coordinate is zero or positive, so one of the two conditions holds at every coordinate: the body stores
    into each moment row everywhere. -/
theorem live1_5 : ∀ i : cfg1.grid.Coords, cfg1.idle 5 i = false := by decide +kernel
theorem live1_6 : ∀ i : cfg1.grid.Coords, cfg1.idle 6 i = false := by decide +kernel

/-! ## One store of the whole shape covers it -/

theorem cover1_t (p : Vec F S400x128 .f32) (y : S400x128.Idx) :
    ∃ pc ∈ ([⟨r1_t, p⟩] : List (View.Piece (Elt F) S400x128 .f32)), y ∈ pc.1.set :=
  View.cover_of_tiled [⟨r1_t, p⟩] S400x128.size (by rfl) y
theorem cover1_s (p : Vec F S1x128 .f32) (y : S1x128.Idx) :
    ∃ pc ∈ ([⟨r1_s, p⟩] : List (View.Piece (Elt F) S1x128 .f32)), y ∈ pc.1.set :=
  View.cover_of_tiled [⟨r1_s, p⟩] S1x128.size (by rfl) y

/-! ## The body's triple, case by case -/

set_option maxHeartbeats 1000000 in
/-- AT THE FIRST POINT (the first condition holds, the second fails). On whole buffers, the four inputs' at contents
    `x0 … x3` and the three outputs' at anything, the body runs to the continuation holding the inputs' as they
    were, the aggregated tile at `out1_4` and the two moment rows at the tile's column sums and column sums of
    squares. What the body reads of an output before storing into it goes nowhere. -/
theorem sound_kernel1_A (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S1x1 .f32) (harg4 : arg4.IsWhole)
    (arg5 : Memref sig .tc .vmem S400x128 .f32) (harg5 : arg5.IsWhole) (arg6 : Memref sig .tc .vmem S1x128 .f32) (harg6 : arg6.IsWhole)
    (arg7 : Memref sig .tc .vmem S1x128 .f32) (harg7 : arg7.IsWhole)
    (hc1 : k1_cond1 i = 1#1) (hc2 : ¬ k1_cond2 i = 1#1)
    (x0 : Vec F S400x10000 .f32) (x1 : Vec F S10000x128 .f32) (x2 : Vec F S400x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)
            ∗ owns (c : Thread nD τ) arg6 fullShare (outA1_5 x0 x1 x2 x3)
            ∗ owns (c : Thread nD τ) arg7 fullShare (outA1_6 x0 x1 x2 x3)) -∗ K ⟨⟩))
      ⊢ wp frame (wpE (defs₀ (F := F)) Variants.none c none) E (cc1__spmm_kernel i arg1 harg1 arg2 harg2 arg3 harg3 arg4 harg4 arg5 harg5 arg6 harg6 arg7 harg7) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_t _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

set_option maxHeartbeats 1000000 in
/-- AT A LATER POINT (the first condition fails, the second holds). The same, with the two moment rows' buffers held
    at given contents `p5`, `p6` — what the point before left —: each row is left at what it held plus the tile's
    column sums, resp. column sums of squares. The body reads each row twice before storing it; only the first
    reading enters the sum. -/
theorem sound_kernel1_B (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S1x1 .f32) (harg4 : arg4.IsWhole)
    (arg5 : Memref sig .tc .vmem S400x128 .f32) (harg5 : arg5.IsWhole) (arg6 : Memref sig .tc .vmem S1x128 .f32) (harg6 : arg6.IsWhole)
    (arg7 : Memref sig .tc .vmem S1x128 .f32) (harg7 : arg7.IsWhole)
    (hc1 : ¬ k1_cond1 i = 1#1) (hc2 : k1_cond2 i = 1#1)
    (x0 : Vec F S400x10000 .f32) (x1 : Vec F S10000x128 .f32) (x2 : Vec F S400x128 .f32) (x3 : Vec F S1x1 .f32)
    (p5 p6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ owns (c : Thread nD τ) arg6 fullShare p5 ∗ owns (c : Thread nD τ) arg7 fullShare p6
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)
            ∗ owns (c : Thread nD τ) arg6 fullShare (outB1_5 x0 x1 x2 x3 p5)
            ∗ owns (c : Thread nD τ) arg7 fullShare (outB1_6 x0 x1 x2 x3 p6)) -∗ K ⟨⟩))
      ⊢ wp frame (wpE (defs₀ (F := F)) Variants.none c none) E (cc1__spmm_kernel i arg1 harg1 arg2 harg2 arg3 harg3 arg4 harg4 arg5 harg5 arg6 harg6 arg7 harg7) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_t _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

/-! ## What the body finds in each staging buffer -/

/-- An input's staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- At a later point a moment row's staging buffer holds what the point before left: the row is written back
    only after the last point, and no point leaves it untouched. -/
theorem before1_5_B (c : Dev nD) (t : Fin cfg1.N) (h0 : t.val ≠ 0) (d) :
    (dat1 V c).before 5 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]
theorem before1_6_B (c : Dev nD) (t : Fin cfg1.N) (h0 : t.val ≠ 0) (d) :
    (dat1 V c).before 6 t d = (outsAt1 V c (t.val - 1) (Nat.lt_of_le_of_lt (Nat.sub_le _ _) t.isLt)).2 := by
  have hN : t.val < 25 := lt_of_lt_of_eq t.isLt (show cfg1.N = 25 from N_1)
  rw [Dat.before_out_kept _ 6 rfl t h0 (Bool.eq_false_iff.mpr fun h => by have := (flush1_6 _).mp h; dsimp only at this; omega)
    live1_6 (fun _ _ => rfl)]
  dsimp only [dat1]

/-! ## The accumulation at a point, by its case -/

theorem outsAt1_A (c : Dev nD) (t : Fin cfg1.N) (h0 : t.val = 0) :
    outsAt1 V c t.val t.isLt =
      (outA1_5 (iblk1 V c 0 t) (iblk1 V c 1 t) (iblk1 V c 2 t) (iblk1 V c 3 t),
       outA1_6 (iblk1 V c 0 t) (iblk1 V c 1 t) (iblk1 V c 2 t) (iblk1 V c 3 t)) := by
  obtain ⟨n, hn⟩ := t
  cases n with
  | zero => exact outsAt1_zero V c hn
  | succ n => exact absurd h0 (Nat.succ_ne_zero n)
theorem outsAt1_B (c : Dev nD) (t : Fin cfg1.N) (h0 : t.val ≠ 0) :
    outsAt1 V c t.val t.isLt =
      (outB1_5 (iblk1 V c 0 t) (iblk1 V c 1 t) (iblk1 V c 2 t) (iblk1 V c 3 t) (outsAt1 V c (t.val - 1) (Nat.lt_of_le_of_lt (Nat.sub_le _ _) t.isLt)).1,
       outB1_6 (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact outsAt1_succ V c n hn
theorem outsAt1_A_1 (c : Dev nD) (t : Fin cfg1.N) (h0 : t.val = 0) :
    (outsAt1 V c t.val t.isLt).1 = outA1_5 (iblk1 V c 0 t) (iblk1 V c 1 t) (iblk1 V c 2 t) (iblk1 V c 3 t) := by
  rw [outsAt1_A V c t h0]
theorem outsAt1_A_2 (c : Dev nD) (t : Fin cfg1.N) (h0 : t.val = 0) :
    (outsAt1 V c t.val t.isLt).2 = outA1_6 (iblk1 V c 0 t) (iblk1 V c 1 t) (iblk1 V c 2 t) (iblk1 V c 3 t) := by
  rw [outsAt1_A V c t h0]
theorem outsAt1_B_1 (c : Dev nD) (t : Fin cfg1.N) (h0 : t.val ≠ 0) :
    (outsAt1 V c t.val t.isLt).1 =
      outB1_5 (iblk1 V c 0 t) (iblk1 V c 1 t) (iblk1 V c 2 t) (iblk1 V c 3 t) (outsAt1 V c (t.val - 1) (Nat.lt_of_le_of_lt (Nat.sub_le _ _) t.isLt)).1 := by
  rw [outsAt1_B V c t h0]
theorem outsAt1_B_2 (c : Dev nD) (t : Fin cfg1.N) (h0 : t.val ≠ 0) :
    (outsAt1 V c t.val t.isLt).2 =
      outB1_6 (iblk1 V c 0 t) (iblk1 V c 1 t) (iblk1 V c 2 t) (iblk1 V c 3 t) (outsAt1 V c (t.val - 1) (Nat.lt_of_le_of_lt (Nat.sub_le _ _) t.isLt)).2 := by
  rw [outsAt1_B V c t h0]

/-! ## The body obligation, at a generic point -/

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point. The inputs' buffers hold their blocks; the point is the first or a later one, which
    decides the two conditions; at a later point the moment rows' buffers hold what the point before left; so the
    case's triple applies, and what it leaves is what the accumulation names at this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · have hc1 : k1_cond1 (grid1.coords t) = 1#1 := (hcond1_1 t).mpr h0
    have hc2 : ¬ k1_cond2 (grid1.coords t) = 1#1 := fun h => (hcond1_2 t).mp h h0
    rw [outsAt1_A_1 V c t h0, outsAt1_A_2 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ hc1 hc2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬ k1_cond1 (grid1.coords t) = 1#1 := fun h => h0 ((hcond1_1 t).mp h)
    have hc2 : k1_cond2 (grid1.coords t) = 1#1 := (hcond1_2 t).mpr h0
    rw [outsAt1_B_1 V c t h0, outsAt1_B_2 V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ hc1 hc2
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. No point is idle for a moment row (the two rows are stored under the same
    pair of conditions, so one fact serves both), and every other window is never idle by its definition. -/
theorem body_obligation1 (c : Dev nD) : BodyObligation (dat1 (F := F) V c) (defs₀ (F := F)) Variants.none () Set.univ := fun t => by
  rw [bigSep_W1, bigSep_W1]
  rw [show cfg1.idle 5 (cfg1.grid.coords t) = false from live1_5 _]
  exact sound_body1 V c t

end Cert.Kernel.Fr

end
-- ==== Proof.K.Region2.lean ====
/-
  The batch-norm and second dense layer's region (ten row tiles of 1000 nodes): the body reads the tile of the
  aggregated features, the two moment rows, the scale and shift rows, the whole second weight and its bias row,
  and stores the whole output tile once.
-/
import proofs.«111429_g56848187130529_cont_sun_m_287_2_alg».proof.Proof.Gen.Kernel.Launch
import proofs.«111429_g56848187130529_cont_sun_m_287_2_alg».proof.Proof.Gen.Kernel.Skeleton
import proofs.«111429_g56848187130529_cont_sun_m_287_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store take the whole buffer -/

abbrev r2_x : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output tile after the body, from the seven input blocks (in window order: the feature tile, the sum
    row, the sum-of-squares row, the scale row, the shift row, the weight, the bias row): its one store as a piece. -/
def out2_7 (x0 : Vec F S1000x128 .f32) (x1 x2 x3 x4 : Vec F S1x128 .f32) (x5 : Vec F S128x128 .f32) (x6 : Vec F S1x128 .f32) :
    Vec F S1000x128 .f32 :=
  View.canon [⟨r2_x, k2_pay1 (View.ld x1 r2_b) (View.ld x2 r2_b) (View.ld x3 r2_b) (View.ld x0 r2_x) (View.ld x4 r2_b) (View.ld x5 r2_w) (View.ld x6 r2_b)⟩]

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by
  dsimp only [dat2]

/-! ## Each input's buffer holds its block -/

/-- Input window 0's current staging buffer holds the window's block at every point, whether or not the block
    was brought in there: where it was not, the block index has not moved since the point before, so the block
    already in the buffer is this point's. For any proof data over the region's arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds the window's block at every point, whether or not the block
    was brought in there: where it was not, the block index has not moved since the point before, so the block
    already in the buffer is this point's. For any proof data over the region's arrays whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds the window's block at every point, whether or not the block
    was brought in there: where it was not, the block index has not moved since the point before, so the block
    already in the buffer is this point's. For any proof data over the region's arrays whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- Input window 3's current staging buffer holds the window's block at every point, whether or not the block
    was brought in there: where it was not, the block index has not moved since the point before, so the block
    already in the buffer is this point's. For any proof data over the region's arrays whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-- Input window 4's current staging buffer holds the window's block at every point, whether or not the block
    was brought in there: where it was not, the block index has not moved since the point before, so the block
    already in the buffer is this point's. For any proof data over the region's arrays whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

/-- Input window 5's current staging buffer holds the window's block at every point, whether or not the block
    was brought in there: where it was not, the block index has not moved since the point before, so the block
    already in the buffer is this point's. For any proof data over the region's arrays whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_5 (c : Dev nD) (t : Fin cfg2.N) (d) : (dat2 V c).before 5 t d = iblk2 V c 5 t :=
  before2_5_of V (dat2 V c) (A_eq2 V c 5) (after2_5 V c) t d

/-- Input window 6's current staging buffer holds the window's block at every point, whether or not the block
    was brought in there: where it was not, the block index has not moved since the point before, so the block
    already in the buffer is this point's. For any proof data over the region's arrays whose body leaves the
    block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_6 (c : Dev nD) (t : Fin cfg2.N) (d) : (dat2 V c).before 6 t d = iblk2 V c 6 t :=
  before2_6_of V (dat2 V c) (A_eq2 V c 6) (after2_6 V c) t d

/-! ## The one store covers the output tile -/

/-- The store's rectangle is the whole tile, so every index of the tile lies in it. -/
theorem cover2_7 (p0 : Vec F S1000x128 .f32) (y : S1000x128.Idx) :
    ∃ pc ∈ ([⟨r2_x, p0⟩] : List (View.Piece (Elt F) S1000x128 .f32)), y ∈ pc.1.set :=
  View.cover_of_tiled [⟨r2_x, p0⟩] S1000x128.size (by rfl) y

/-! ## The body's triple -/

set_option maxHeartbeats 2000000 in
/-- The body on whole buffers — the seven inputs' reading `x0` … `x6` (the feature tile, the sum row, the
    sum-of-squares row, the scale row, the shift row, the weight, the bias row), the output's holding anything —
    runs to the continuation with the inputs' as they were and the output's at `out2_7` of them: it loads every
    input whole, loads the output tile once without using what it read, and stores the normalised, scaled and
    shifted tile times the weight plus the bias row over the whole output tile. The grid coordinate is not read. -/
theorem sound_kernel2 (c : Dev nD) (E : Set ℕ) (i : grid2.Coords)
    (arg0 : Memref sig .tc .vmem S1000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (x0 : Vec F S1000x128 .f32) (x1 x2 x3 x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x1 x2 x3 x4 x5 x6)) -∗ K ⟨⟩))
      ⊢ wp frame (wpE (defs₀ (F := F)) Variants.none c none) E (cc2__bn_lin2_kernel i arg0 harg0 arg1 harg1 arg2 harg2 arg3 harg3 arg4 harg4 arg5 harg5 arg6 harg6 arg7 harg7) K := by
  simp only [cc2__bn_lin2_kernel_eq_skeleton]; unfold cc2__bn_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation -/

/-- What the body is given at point `t`: the invariant, what the core owes, and each window's current buffer at
    what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back: the same at the next point, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies at the blocks; the
    invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Outs.lean ====
/-
  What the three regions leave in the five buffers they may change, packed as the one family of unknowns
  the conditional frame is stated over: the first layer's output, the aggregated features with their two
  moment rows, and the result. Read back at each of the five places it is the array given.
-/
import proofs.«111429_g56848187130529_cont_sun_m_287_2_alg».proof.Proof.Gen.Kernel.Regions

noncomputable section

namespace Cert.Kernel.Fr

open Cert.Kernel Cert.Kernel.Gen
open Idealize.ShloMosaic Idealize.ShloMosaic.TcCoe
open Idealize.SL Idealize.SL.Sem

variable {F : FTy → Type} [FloatOps F]

/-- The family that holds `a7` at the first layer's output, `a80`, `a81`, `a82` at the aggregated features and
    their moment rows, `a9` at the result, whatever the position; elsewhere a value nobody reads. -/
def outsOf [∀ e, Nonempty (Elt F e)]
    (a7 : (c : Dev nD) → Buf (Elt F) ((c : Thread nD τ).loc main_v7))
    (a80 : (c : Dev nD) → Buf (Elt F) ((c : Thread nD τ).loc main_v8_0))
    (a81 : (c : Dev nD) → Buf (Elt F) ((c : Thread nD τ).loc main_v8_1))
    (a82 : (c : Dev nD) → Buf (Elt F) ((c : Thread nD τ).loc main_v8_2))
    (a9 : (c : Dev nD) → Buf (Elt F) ((c : Thread nD τ).loc main_v9)) : Gen.Outs (F := F) :=
  fun _ r c =>
    if h7 : r = main_v7 then h7 ▸ a7 c
    else if h80 : r = main_v8_0 then h80 ▸ a80 c
    else if h81 : r = main_v8_1 then h81 ▸ a81 c
    else if h82 : r = main_v8_2 then h82 ▸ a82 c
    else if h9 : r = main_v9 then h9 ▸ a9 c
    else Classical.arbitrary _

variable [∀ e, Nonempty (Elt F e)]
variable (a7 : (c : Dev nD) → Buf (Elt F) ((c : Thread nD τ).loc main_v7))
  (a80 : (c : Dev nD) → Buf (Elt F) ((c : Thread nD τ).loc main_v8_0))
  (a81 : (c : Dev nD) → Buf (Elt F) ((c : Thread nD τ).loc main_v8_1))
  (a82 : (c : Dev nD) → Buf (Elt F) ((c : Thread nD τ).loc main_v8_2))
  (a9 : (c : Dev nD) → Buf (Elt F) ((c : Thread nD τ).loc main_v9))

theorem outsOf_v7 (n : ℕ) (c : Dev nD) : outsOf a7 a80 a81 a82 a9 n main_v7 c = a7 c := by
  unfold outsOf; rw [dif_pos rfl]
theorem outsOf_v8_0 (n : ℕ) (c : Dev nD) : outsOf a7 a80 a81 a82 a9 n main_v8_0 c = a80 c := by
  unfold outsOf; rw [dif_neg (by decide), dif_pos rfl]
theorem outsOf_v8_1 (n : ℕ) (c : Dev nD) : outsOf a7 a80 a81 a82 a9 n main_v8_1 c = a81 c := by
  unfold outsOf; rw [dif_neg (by decide), dif_neg (by decide), dif_pos rfl]
theorem outsOf_v8_2 (n : ℕ) (c : Dev nD) : outsOf a7 a80 a81 a82 a9 n main_v8_2 c = a82 c := by
  unfold outsOf; rw [dif_neg (by decide), dif_neg (by decide), dif_neg (by decide), dif_pos rfl]
theorem outsOf_v9 (n : ℕ) (c : Dev nD) : outsOf a7 a80 a81 a82 a9 n main_v9 c = a9 c := by
  unfold outsOf; rw [dif_neg (by decide), dif_neg (by decide), dif_neg (by decide), dif_neg (by decide), dif_pos rfl]

end Cert.Kernel.Fr

end
-- ==== Proof.K.Regs.lean ====
/-
  The three regions as segments of the run. Between two items the core holds every unscoped buffer whole at
  known contents: as launched, then after the host operations (the transposes and reshapes), then with the first
  layer's output at what region 0 wrote, then with the aggregated features and their moment rows at what region 1
  wrote, then with the result at what region 2 wrote. Each region takes its windows' arrays out of those buffers,
  runs its pipeline, and puts the arrays back at their final contents. Region 1 reads the first layer's output
  through two windows: the buffer's share is halved between them on entry and rejoined on exit (both halves
  still hold the entry contents: inputs are never written).
-/
import proofs.«111429_g56848187130529_cont_sun_m_287_2_alg».proof.Proof.K.Region0
import proofs.«111429_g56848187130529_cont_sun_m_287_2_alg».proof.Proof.K.Region1
import proofs.«111429_g56848187130529_cont_sun_m_287_2_alg».proof.Proof.K.Region2
import proofs.«111429_g56848187130529_cont_sun_m_287_2_alg».proof.Proof.K.Outs
import proofs.«111429_g56848187130529_cont_sun_m_287_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The buffers' contents between the items -/

/-- After the host operations, read at the TensorCore's references: what region 0 is entered from. -/
abbrev T1 : (c : Dev nD) → (b : Ref sig .tc) → Buf (Elt F) ((c : Thread nD τ).loc b) := fun c b => Gen.V1 m c b
/-- The first layer's output as region 0 leaves it. -/
def a7 (c : Dev nD) : Buf (Elt F) ((c : Thread nD τ).loc main_v7) := (dat0 (T1 m) c).arrAt 3 cfg0.N
/-- After region 0. -/
abbrev W2 (c : Dev nD) : Valuation τ sig (Elt F) := Function.update (Gen.V1 m c) main_v7 (a7 m c)
abbrev T2 : (c : Dev nD) → (b : Ref sig .tc) → Buf (Elt F) ((c : Thread nD τ).loc b) := fun c b => W2 m c b
/-- The aggregated features, their sums and their sums of squares as region 1 leaves them. -/
def a80 (c : Dev nD) : Buf (Elt F) ((c : Thread nD τ).loc main_v8_0) := (dat1 (T2 m) c).arrAt 4 cfg1.N
def a81 (c : Dev nD) : Buf (Elt F) ((c : Thread nD τ).loc main_v8_1) := (dat1 (T2 m) c).arrAt 5 cfg1.N
def a82 (c : Dev nD) : Buf (Elt F) ((c : Thread nD τ).loc main_v8_2) := (dat1 (T2 m) c).arrAt 6 cfg1.N
/-- After region 1. -/
abbrev W3 (c : Dev nD) : Valuation τ sig (Elt F) :=
  Function.update (Function.update (Function.update (W2 m c) main_v8_0 (a80 m c)) main_v8_1 (a81 m c)) main_v8_2 (a82 m c)
abbrev T3 : (c : Dev nD) → (b : Ref sig .tc) → Buf (Elt F) ((c : Thread nD τ).loc b) := fun c b => W3 m c b
/-- The result as region 2 leaves it. -/
def a9 (c : Dev nD) : Buf (Elt F) ((c : Thread nD τ).loc main_v9) := (dat2 (T3 m) c).arrAt 7 cfg2.N
/-- After region 2. -/
abbrev W4 (c : Dev nD) : Valuation τ sig (Elt F) := Function.update (W3 m c) main_v9 (a9 m c)

/-- The five arrays as the family the conditional frame's valuations are written over. -/
def outs : Gen.Outs (F := F) := outsOf (a7 m) (a80 m) (a81 m) (a82 m) (a9 m)

theorem V2_eq (c : Dev nD) : Gen.V2 m (outs m) c = W2 m c := by
  show Function.update (Gen.V1 m c) main_v7 (outs m 2 main_v7 c) = _
  rw [show outs m 2 main_v7 c = a7 m c from outsOf_v7 _ _ _ _ _ 2 c]
theorem V3_eq (c : Dev nD) : Gen.V3 m (outs m) c = W3 m c := by
  show Function.update (Function.update (Function.update (Gen.V2 m (outs m) c) main_v8_0 (outs m 3 main_v8_0 c)) main_v8_1 (outs m 3 main_v8_1 c)) main_v8_2 (outs m 3 main_v8_2 c) = _
  rw [V2_eq, show outs m 3 main_v8_0 c = a80 m c from outsOf_v8_0 _ _ _ _ _ 3 c,
    show outs m 3 main_v8_1 c = a81 m c from outsOf_v8_1 _ _ _ _ _ 3 c,
    show outs m 3 main_v8_2 c = a82 m c from outsOf_v8_2 _ _ _ _ _ 3 c]
theorem V4_eq (c : Dev nD) : Gen.V4 m (outs m) c = W4 m c := by
  show Function.update (Gen.V3 m (outs m) c) main_v9 (outs m 4 main_v9 c) = _
  rw [V3_eq, show outs m 4 main_v9 c = a9 m c from outsOf_v9 _ _ _ _ _ 4 c]

/-- Region 0 changes the first layer's output only. -/
theorem W2_of (c : Dev nD) (r : Ref sig .tc) (h : r ≠ main_v7) : W2 m c r = Gen.V1 m c r :=
  Function.update_of_ne (StableHlo.devRef_ne_of_ne h) _ _
theorem W2_v7 (c : Dev nD) : W2 m c main_v7 = a7 m c := Function.update_self _ _ _
/-- Region 1 changes the aggregated features and their moment rows only. -/
theorem W3_of (c : Dev nD) (r : Ref sig .tc) (h0 : r ≠ main_v8_0) (h1 : r ≠ main_v8_1) (h2 : r ≠ main_v8_2) : W3 m c r = W2 m c r := by
  show Function.update (Function.update (Function.update (W2 m c) main_v8_0 (a80 m c)) main_v8_1 (a81 m c)) main_v8_2 (a82 m c) r = _
  rw [Function.update_of_ne (StableHlo.devRef_ne_of_ne h2), Function.update_of_ne (StableHlo.devRef_ne_of_ne h1), Function.update_of_ne (StableHlo.devRef_ne_of_ne h0)]
theorem W3_v8_2 (c : Dev nD) : W3 m c main_v8_2 = a82 m c := Function.update_self _ _ _
theorem W3_v8_1 (c : Dev nD) : W3 m c main_v8_1 = a81 m c := by
  show Function.update (Function.update (Function.update (W2 m c) main_v8_0 (a80 m c)) main_v8_1 (a81 m c)) main_v8_2 (a82 m c) main_v8_1 = _
  rw [Function.update_of_ne (StableHlo.devRef_ne_of_ne (by decide : main_v8_1 ≠ main_v8_2)), Function.update_self]
theorem W3_v8_0 (c : Dev nD) : W3 m c main_v8_0 = a80 m c := by
  show Function.update (Function.update (Function.update (W2 m c) main_v8_0 (a80 m c)) main_v8_1 (a81 m c)) main_v8_2 (a82 m c) main_v8_0 = _
  rw [Function.update_of_ne (StableHlo.devRef_ne_of_ne (by decide : main_v8_0 ≠ main_v8_2)),
    Function.update_of_ne (StableHlo.devRef_ne_of_ne (by decide : main_v8_0 ≠ main_v8_1)), Function.update_self]
/-- Region 2 changes the result only. -/
theorem W4_of (c : Dev nD) (r : Ref sig .tc) (h : r ≠ main_v9) : W4 m c r = W3 m c r :=
  Function.update_of_ne (StableHlo.devRef_ne_of_ne h) _ _
theorem W4_v9 (c : Dev nD) : W4 m c main_v9 = a9 m c := Function.update_self _ _ _

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (T1 m) c
  | ⟨1, _⟩ => fun c => dat1 (T2 m) c
  | ⟨2, _⟩ => fun c => dat2 (T3 m) c

abbrev 𝒱₀ : Variants := Variants.none
abbrev L : GSem nD τ sig → Finset Unit := fun _ => ∅
abbrev lv : GSem nD τ sig → Unit → ℕ := fun _ _ => 0
/-- The core's generator register at some state, and the core owing nothing. -/
abbrev Rr (c : Dev nD) : sProp 𝕄 := iprop((∃ r, prngReg c r) ∗ ∃ W, owes (c : Thread nD τ) (0 : CellTallies nD τ sig Unit) W)

/-! ### Region 0's arrays before and after -/
theorem W2_in0_0 (c : Dev nD) : T2 m c (Pipeline.arrRef spec0 0) = (pdats m 0 c).A 0 := W2_of m c _ (by decide)
theorem W2_in0_1 (c : Dev nD) : T2 m c (Pipeline.arrRef spec0 1) = (pdats m 0 c).A 1 := W2_of m c _ (by decide)
theorem W2_in0_2 (c : Dev nD) : T2 m c (Pipeline.arrRef spec0 2) = (pdats m 0 c).A 2 := W2_of m c _ (by decide)
theorem W2_out0 (c : Dev nD) : T2 m c (Pipeline.arrRef spec0 3) = (pdats m 0 c).arrAt 3 cfg0.N := W2_v7 m c
theorem W2_rest0 (c : Dev nD) (b : Ref sig .tc) (h : b ≠ main_v7) : T2 m c b = T1 m c b := W2_of m c b h

/-! ## Region 0 as a segment -/

theorem hF0 (c : Dev nD) (w : Fin cfg0.W) : (pdats m 0 c).arrAt w cfg0.N = T2 m c (Pipeline.arrRef spec0 w) := by
  match w with
  | ⟨0, _⟩ => exact ((pdats m 0 c).arrAt_in 0 rfl _).trans ((W2_in0_0 m c).symm)
  | ⟨1, _⟩ => exact ((pdats m 0 c).arrAt_in 1 rfl _).trans ((W2_in0_1 m c).symm)
  | ⟨2, _⟩ => exact ((pdats m 0 c).arrAt_in 2 rfl _).trans ((W2_in0_2 m c).symm)
  | ⟨3, _⟩ => exact (W2_out0 m c).symm

theorem hrest0 (c : Dev nD) : ∀ b, b ∉ Finset.univ.image (Pipeline.arrRef spec0) → T2 m c b = T1 m c b := fun b hb => by
  have hne : b ≠ main_v7 := fun e => hb (Finset.mem_image.mpr ⟨3, Finset.mem_univ _, e.symm⟩)
  exact W2_rest0 m c b hne

set_option backward.isDefEq.respectTransparency.types false in
/-- Entered from every unscoped buffer at the contents before the region, left with them at the contents after it. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2's arrays before and after -/
abbrev T4 : (c : Dev nD) → (b : Ref sig .tc) → Buf (Elt F) ((c : Thread nD τ).loc b) := fun c b => W4 m c b
theorem W4_in2_0 (c : Dev nD) : T4 m c (Pipeline.arrRef spec2 0) = (pdats m 2 c).A 0 := W4_of m c _ (by decide)
theorem W4_in2_1 (c : Dev nD) : T4 m c (Pipeline.arrRef spec2 1) = (pdats m 2 c).A 1 := W4_of m c _ (by decide)
theorem W4_in2_2 (c : Dev nD) : T4 m c (Pipeline.arrRef spec2 2) = (pdats m 2 c).A 2 := W4_of m c _ (by decide)
theorem W4_in2_3 (c : Dev nD) : T4 m c (Pipeline.arrRef spec2 3) = (pdats m 2 c).A 3 := W4_of m c _ (by decide)
theorem W4_in2_4 (c : Dev nD) : T4 m c (Pipeline.arrRef spec2 4) = (pdats m 2 c).A 4 := W4_of m c _ (by decide)
theorem W4_in2_5 (c : Dev nD) : T4 m c (Pipeline.arrRef spec2 5) = (pdats m 2 c).A 5 := W4_of m c _ (by decide)
theorem W4_in2_6 (c : Dev nD) : T4 m c (Pipeline.arrRef spec2 6) = (pdats m 2 c).A 6 := W4_of m c _ (by decide)
theorem W4_out2 (c : Dev nD) : T4 m c (Pipeline.arrRef spec2 7) = (pdats m 2 c).arrAt 7 cfg2.N := W4_v9 m c
theorem W4_rest2 (c : Dev nD) (b : Ref sig .tc) (h : b ≠ main_v9) : T4 m c b = T3 m c b := W4_of m c b h

/-! ## Region 2 as a segment -/

theorem hF2 (c : Dev nD) (w : Fin cfg2.W) : (pdats m 2 c).arrAt w cfg2.N = T4 m c (Pipeline.arrRef spec2 w) := by
  match w with
  | ⟨0, _⟩ => exact ((pdats m 2 c).arrAt_in 0 rfl _).trans ((W4_in2_0 m c).symm)
  | ⟨1, _⟩ => exact ((pdats m 2 c).arrAt_in 1 rfl _).trans ((W4_in2_1 m c).symm)
  | ⟨2, _⟩ => exact ((pdats m 2 c).arrAt_in 2 rfl _).trans ((W4_in2_2 m c).symm)
  | ⟨3, _⟩ => exact ((pdats m 2 c).arrAt_in 3 rfl _).trans ((W4_in2_3 m c).symm)
  | ⟨4, _⟩ => exact ((pdats m 2 c).arrAt_in 4 rfl _).trans ((W4_in2_4 m c).symm)
  | ⟨5, _⟩ => exact ((pdats m 2 c).arrAt_in 5 rfl _).trans ((W4_in2_5 m c).symm)
  | ⟨6, _⟩ => exact ((pdats m 2 c).arrAt_in 6 rfl _).trans ((W4_in2_6 m c).symm)
  | ⟨7, _⟩ => exact (W4_out2 m c).symm

theorem hrest2 (c : Dev nD) : ∀ b, b ∉ Finset.univ.image (Pipeline.arrRef spec2) → T4 m c b = T3 m c b := fun b hb => by
  have hne : b ≠ main_v9 := fun e => hb (Finset.mem_image.mpr ⟨7, Finset.mem_univ _, e.symm⟩)
  exact W4_rest2 m c b hne

set_option backward.isDefEq.respectTransparency.types false in
/-- Entered from every unscoped buffer at the contents before the region, left with them at the contents after it. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the arrays, with the first layer's output shared by two windows -/

section Region1
variable (c : Dev nD) (V : (b : Ref sig .tc) → Buf (Elt F) ((c : Thread nD τ).loc b))

/-- The six distinct buffers behind region 1's seven windows, one by one. -/
theorem arrBufs1_eq :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v7) ↦{fullShare} V main_v7)
          ∗ (((c : Thread nD τ).loc main_v6) ↦{fullShare} V main_v6) ∗ (((c : Thread nD τ).loc main_v8_0) ↦{fullShare} V main_v8_0)
          ∗ (((c : Thread nD τ).loc main_v8_1) ↦{fullShare} V main_v8_1) ∗ (((c : Thread nD τ).loc main_v8_2) ↦{fullShare} V main_v8_2)) := by
  unfold Pipeline.arrBufs
  exact bigSep_eq_bigSepL_of_eq [main_arg1, main_v7, main_v6, main_v8_0, main_v8_1, main_v8_2] (by decide) (by decide) _

/-- Region 1's arrays at contents `Fa`, window by window: the first layer's output at half a share for each of
    its two windows, every other array at the full share. -/
theorem arrays1_eq (W : (c : Dev nD) → (b : Ref sig .tc) → Buf (Elt F) ((c : Thread nD τ).loc b))
    (Fa : (w : Fin cfg1.W) → Buf (Elt F) ((cfg1.win w).arr.view.loc (c : Thread nD τ))) :
    ((dat1 W c).arrays Fa : sProp 𝕄)
      = iprop((((c : Thread nD τ).loc main_arg1) ↦{fullShare} Fa 0) ∗ (((c : Thread nD τ).loc main_v7) ↦{fullShare.left} Fa 1)
          ∗ (((c : Thread nD τ).loc main_v7) ↦{fullShare.right} Fa 2) ∗ (((c : Thread nD τ).loc main_v6) ↦{fullShare} Fa 3)
          ∗ (((c : Thread nD τ).loc main_v8_0) ↦{fullShare} Fa 4) ∗ (((c : Thread nD τ).loc main_v8_1) ↦{fullShare} Fa 5)
          ∗ (((c : Thread nD τ).loc main_v8_2) ↦{fullShare} Fa 6)) := by
  have h : ((dat1 W c).arrays Fa : sProp 𝕄)
      = bigSep Finset.univ fun w : Fin cfg1.W => (((c : Thread nD τ).loc (Pipeline.arrRef spec1 w)) ↦{(dat1 W c).share w} Fa w : sProp 𝕄) := by
    unfold Dat.arrays
    exact bigSep_congr fun w _ => by rw [(arr_whole1 w).set_eq_univ]
  rw [h, bigSep_W1]
  rfl

end Region1

/-- The first layer's output, held whole, is its two halves. -/
theorem v7_halves (c : Dev nD) (f : Buf (Elt F) ((c : Thread nD τ).loc main_v7)) :
    ((((c : Thread nD τ).loc main_v7) ↦{fullShare} f : sProp 𝕄))
      ⊣⊢ iprop((((c : Thread nD τ).loc main_v7) ↦{fullShare.left} f) ∗ (((c : Thread nD τ).loc main_v7) ↦{fullShare.right} f)) :=
  pointsTo_share (PosShare.mem_left_op_right fullShare)

/-- ENTRY: the unscoped buffers held at the contents after region 0 are region 1's arrays at their entry contents
    and the unscoped rest. -/
theorem arrays1_of_held (c : Dev nD) :
    (StableHlo.held (c : Thread nD τ) (Pipeline.ucRefs τ sig) (W2 m c) : sProp 𝕄)
      ⊢ iprop((pdats m 1 c).arrays (pdats m 1 c).A ∗ Pipeline.unscopedRest (Ix := Unit) (Name := ℕ) (U := UR sig nD τ) (Lvl := ℕ) spec1 c (T2 m c)) := by
  have hs : (unscopedBufs (Ix := Unit) (Name := ℕ) (U := UR sig nD τ) (Lvl := ℕ) c (T2 m c) : sProp 𝕄)
      = iprop(Pipeline.arrBufs spec1 c (T2 m c) ∗ Pipeline.unscopedRest spec1 c (T2 m c)) :=
    Pipeline.unscopedBufs_split₀ cfgs 1 winFacts₀1.arr_unscoped c (T2 m c)
  rw [← Pipeline.unscopedBufs_held (Ix := Unit) (Name := ℕ) (U := UR sig nD τ) (Lvl := ℕ) c (W2 m c), hs, arrBufs1_eq c (T2 m c),
    show (pdats m 1 c) = dat1 (T2 m) c from rfl, arrays1_eq c (T2 m)]
  iintro ⟨⟨H1, H7, H6, H80, H81, H82⟩, Hrest⟩
  ihave H7' := (v7_halves c _).1 $$ H7
  icases H7' with ⟨H7l, H7r⟩
  isplitr [Hrest]
  · isplitl [H1]; · iexact H1
    isplitl [H7l]; · iexact H7l
    isplitl [H7r]; · iexact H7r
    isplitl [H6]; · iexact H6
    isplitl [H80]; · iexact H80
    isplitl [H81]; · iexact H81
    iexact H82
  · iexact Hrest

/-- Region 1 leaves every buffer that is none of its arrays as it found it. -/
theorem unscopedRest1_congr (c : Dev nD) :
    (Pipeline.unscopedRest (Ix := Unit) (Name := ℕ) (U := UR sig nD τ) (Lvl := ℕ) spec1 c (T2 m c) : sProp 𝕄)
      = Pipeline.unscopedRest spec1 c (T3 m c) := by
  unfold Pipeline.unscopedRest
  refine bigSep_congr fun b hb => ?_
  have hb' := (Finset.mem_sdiff.mp hb).2
  have h0 : b ≠ main_v8_0 := fun e => hb' (Finset.mem_image.mpr ⟨4, Finset.mem_univ _, e.symm⟩)
  have h1 : b ≠ main_v8_1 := fun e => hb' (Finset.mem_image.mpr ⟨5, Finset.mem_univ _, e.symm⟩)
  have h2 : b ≠ main_v8_2 := fun e => hb' (Finset.mem_image.mpr ⟨6, Finset.mem_univ _, e.symm⟩)
  rw [show T3 m c b = T2 m c b from W3_of m c b h0 h1 h2]

/-- EXIT: region 1's arrays at their final contents and the unscoped rest are the unscoped buffers held at the
    contents after region 1 (the two halves of the first layer's output, both still at the entry contents, rejoined). -/
theorem held_of_arrays1 (c : Dev nD) :
    iprop((pdats m 1 c).arrays ((pdats m 1 c).arrAt · cfg1.N) ∗ Pipeline.unscopedRest (Ix := Unit) (Name := ℕ) (U := UR sig nD τ) (Lvl := ℕ) spec1 c (T2 m c))
      ⊢ (StableHlo.held (c : Thread nD τ) (Pipeline.ucRefs τ sig) (W3 m c) : sProp 𝕄) := by
  have hs : (unscopedBufs (Ix := Unit) (Name := ℕ) (U := UR sig nD τ) (Lvl := ℕ) c (T3 m c) : sProp 𝕄)
      = iprop(Pipeline.arrBufs spec1 c (T3 m c) ∗ Pipeline.unscopedRest spec1 c (T3 m c)) :=
    Pipeline.unscopedBufs_split₀ cfgs 1 winFacts₀1.arr_unscoped c (T3 m c)
  rw [← Pipeline.unscopedBufs_held (Ix := Unit) (Name := ℕ) (U := UR sig nD τ) (Lvl := ℕ) c (W3 m c), hs, arrBufs1_eq c (T3 m c), unscopedRest1_congr m c,
    show (pdats m 1 c) = dat1 (T2 m) c from rfl, arrays1_eq c (T2 m)]
  have e0 : (dat1 (T2 m) c).arrAt 0 cfg1.N = T3 m c main_arg1 :=
    ((dat1 (T2 m) c).arrAt_in 0 rfl _).trans (W3_of m c main_arg1 (by decide) (by decide) (by decide)).symm
  have e1 : (dat1 (T2 m) c).arrAt 1 cfg1.N = T3 m c main_v7 :=
    ((dat1 (T2 m) c).arrAt_in 1 rfl _).trans (W3_of m c main_v7 (by decide) (by decide) (by decide)).symm
  have e2 : (dat1 (T2 m) c).arrAt 2 cfg1.N = T3 m c main_v7 :=
    ((dat1 (T2 m) c).arrAt_in 2 rfl _).trans (W3_of m c main_v7 (by decide) (by decide) (by decide)).symm
  have e3 : (dat1 (T2 m) c).arrAt 3 cfg1.N = T3 m c main_v6 :=
    ((dat1 (T2 m) c).arrAt_in 3 rfl _).trans (W3_of m c main_v6 (by decide) (by decide) (by decide)).symm
  have e4 : (dat1 (T2 m) c).arrAt 4 cfg1.N = T3 m c main_v8_0 := (W3_v8_0 m c).symm
  have e5 : (dat1 (T2 m) c).arrAt 5 cfg1.N = T3 m c main_v8_1 := (W3_v8_1 m c).symm
  have e6 : (dat1 (T2 m) c).arrAt 6 cfg1.N = T3 m c main_v8_2 := (W3_v8_2 m c).symm
  rw [e0, e1, e2, e3, e4, e5, e6]
  iintro ⟨⟨H1, H7l, H7r, H6, H80, H81, H82⟩, Hrest⟩
  ihave H7 := (v7_halves c _).2 $$ [H7l H7r]
  · isplitl [H7l]; · iexact H7l
    iexact H7r
  isplitr [Hrest]
  · isplitl [H1]; · iexact H1
    isplitl [H7]; · iexact H7
    isplitl [H6]; · iexact H6
    isplitl [H80]; · iexact H80
    isplitl [H81]; · iexact H81
    iexact H82
  · iexact Hrest

set_option backward.isDefEq.respectTransparency.types false in
/-- Entered from every unscoped buffer at the contents after region 0, left with them at the contents after region 1. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := arrays1_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := held_of_arrays1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.RunAll.lean ====
/-
  The whole run of the three regions from the launch to the return: every weakly fair execution terminates and the
  final memory holds, at every unscoped buffer, what the chain of valuations says — the arguments as launched, the
  first layer's output, the aggregated features with their moment rows, and the result, each at what its region
  wrote. The launch gives every core its generator register and an empty debt; no core owes another anything.
-/
import proofs.«111429_g56848187130529_cont_sun_m_287_2_alg».proof.Proof.K.Regs
import proofs.«111429_g56848187130529_cont_sun_m_287_2_alg».proof.Proof.K.RunCond

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its final memory read at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V2_eq m c]; exact .rfl)
    (reg1 m) (fun c => by rw [V2_eq m c]; exact .rfl) (fun c => by rw [V3_eq m c]; exact .rfl)
    (reg2 m) (fun c => by rw [V3_eq m c]; exact .rfl) (fun c => by rw [V4_eq m c]; exact .rfl)
  exact (θ_run defs _ _).mono (fun _ hr c b hb => (hr c b hb).trans (congrFun (V4_eq m c) b)) h

end Cert.Kernel.Fr

end
-- ==== Proof.K.Frame.lean ====
/-
  The frame: every weakly fair execution terminates, nothing faults, and each of the nine argument arrays ends
  as launched — no host operation writes an argument and no region may change one, so the last valuation at an
  argument's buffer walks back to the launch memory.
-/
import proofs.«111429_g56848187130529_cont_sun_m_287_2_alg».proof.Proof.K.RunAll

noncomputable section

namespace Cert.Kernel.Fr

open Cert.Kernel Cert.Kernel.Gen
open Idealize.ShloMosaic Idealize.ShloMosaic.TcCoe
open Idealize.SL Idealize.SL.Sem

variable {F : FTy → Type} [FloatOps F] [∀ e, Nonempty (Elt F e)]
variable (m : (ℓ : Loc nD τ sig) → Buf (Elt F) ℓ) (ρ : Dev nD → PrngReg)

/-- A buffer that no host operation writes and no region may change holds its launch contents at the end. -/
theorem W4_untouched (c : Dev nD) (r : Ref sig .tc) (hh : r ∉ hostOps0_W) (h7 : r ≠ main_v7) (h80 : r ≠ main_v8_0)
    (h81 : r ≠ main_v8_1) (h82 : r ≠ main_v8_2) (h9 : r ≠ main_v9) : W4 m c r = m ((c : Thread nD τ).loc r) :=
  (W4_of m c r h9).trans <| (W3_of m c r h80 h81 h82).trans <| (W2_of m c r h7).trans <| (Gen.V1_of m c r hh).trans rfl

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m c main_arg0 (by decide) (by decide) (by decide) (by decide) (by decide) (by decide)),
     (h c _ (mem_uc main_arg1 (by decide))).trans (W4_untouched m c main_arg1 (by decide) (by decide) (by decide) (by decide) (by decide) (by decide)),
     (h c _ (mem_uc main_arg2 (by decide))).trans (W4_untouched m c main_arg2 (by decide) (by decide) (by decide) (by decide) (by decide) (by decide)),
     (h c _ (mem_uc main_arg3 (by decide))).trans (W4_untouched m c main_arg3 (by decide) (by decide) (by decide) (by decide) (by decide) (by decide)),
     (h c _ (mem_uc main_arg4 (by decide))).trans (W4_untouched m c main_arg4 (by decide) (by decide) (by decide) (by decide) (by decide) (by decide)),
     (h c _ (mem_uc main_arg5 (by decide))).trans (W4_untouched m c main_arg5 (by decide) (by decide) (by decide) (by decide) (by decide) (by decide)),
     (h c _ (mem_uc main_arg6 (by decide))).trans (W4_untouched m c main_arg6 (by decide) (by decide) (by decide) (by decide) (by decide) (by decide)),
     (h c _ (mem_uc main_arg7 (by decide))).trans (W4_untouched m c main_arg7 (by decide) (by decide) (by decide) (by decide) (by decide) (by decide)),
     (h c _ (mem_uc main_arg8 (by decide))).trans (W4_untouched m c main_arg8 (by decide) (by decide) (by decide) (by decide) (by decide) (by decide))⟩)
    (run_all m ρ)

end Cert.Kernel.Fr

end
-- ==== Proof.KI.Region0.lean ====
/-
  The first dense layer's region (ten row tiles of 1000 nodes): what each window's staging buffer holds at a
  grid point, what the body leaves in the output tile — the tile of x times the whole weight plus the bias
  row, one store of the whole tile —, the proof data saying so, and the body's obligation at every point.
-/
import proofs.«111429_g56848187130529_cont_sun_m_287_2_alg».proof.Proof.Gen.KernelIdeal.Launch
import proofs.«111429_g56848187130529_cont_sun_m_287_2_alg».proof.Proof.Gen.KernelIdeal.Skeleton
import proofs.«111429_g56848187130529_cont_sun_m_287_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the store take the whole buffer -/

abbrev r0_x : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

/-- The output tile after the body, from the three input blocks: its one store as a piece. -/
def out0_3 (x0 : Vec F S1000x128 .f32) (x1 : Vec F S128x128 .f32) (x2 : Vec F S1x128 .f32) : Vec F S1000x128 .f32 :=
  View.canon [⟨r0_x, k0_pay1 (View.ld x0 r0_x) (View.ld x1 r0_w) (View.ld x2 r0_b)⟩]

/-! ## The proof data -/

/-- The arrays as the region finds them; after the body each input's buffer at its block and the output's at
    `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Each input's buffer holds its block -/

/-- Input window 0's current staging buffer holds the window's block at every point, whether or not the block
    was brought in there: where it was not, the block index has not moved since the point before, so the block
    already in the buffer is this point's. For any proof data over the region's arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds the window's block at every point, whether or not the block
    was brought in there: where it was not, the block index has not moved since the point before, so the block
    already in the buffer is this point's. For any proof data over the region's arrays whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds the window's block at every point, whether or not the block
    was brought in there: where it was not, the block index has not moved since the point before, so the block
    already in the buffer is this point's. For any proof data over the region's arrays whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-! ## The one store covers the output tile -/

/-- The store's rectangle is the whole tile, so every index of the tile lies in it. -/
theorem cover0_3 (p0 : Vec F S1000x128 .f32) (y : S1000x128.Idx) :
    ∃ pc ∈ ([⟨r0_x, p0⟩] : List (View.Piece (Elt F) S1000x128 .f32)), y ∈ pc.1.set :=
  View.cover_of_tiled [⟨r0_x, p0⟩] S1000x128.size (by rfl) y

/-! ## The body's triple -/

set_option maxHeartbeats 1000000 in
/-- The body on whole buffers — the three inputs' reading `x0`, `x1`, `x2`, the output's holding anything — runs
    to the continuation with the inputs' as they were and the output's at `out0_3 x0 x1 x2`: it loads the three
    inputs whole, loads the output tile once without using what it read, and stores the tile of `x0` times `x1`
    plus the row `x2` over the whole output tile. The grid coordinate is not read. -/
theorem sound_kernel0 (c : Dev nD) (E : Set ℕ) (i : grid0.Coords)
    (arg0 : Memref sig .tc .vmem S1000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S1000x128 .f32) (harg3 : arg3.IsWhole)
    (x0 : Vec F S1000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__lin1_kernel i arg0 harg0 arg1 harg1 arg2 harg2 arg3 harg3) K := by
  simp only [cc0__lin1_kernel_eq_skeleton]; unfold cc0__lin1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation -/

/-- What the body is given at point `t`: the invariant, what the core owes, and each window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies at the blocks; the
    invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  The aggregation region (25 row tiles of 400 nodes). At every point the body reads the tile's rows of the
  adjacency, the whole first-layer output, the tile's rows of it again and the self weight, and stores the
  aggregated tile whole. The two moment rows are carried from point to point: at the first point the body
  stores the tile's column sums and column sums of squares; at every later point it loads what the point
  before left, adds the tile's, and stores the sum. The first-layer output reaches the body through two
  windows on ONE array (whole, and by tile): each holds half of the array's share.
-/
import proofs.«111429_g56848187130529_cont_sun_m_287_2_alg».proof.Proof.Gen.KernelIdeal.Launch
import proofs.«111429_g56848187130529_cont_sun_m_287_2_alg».proof.Proof.Gen.KernelIdeal.Skeleton
import proofs.«111429_g56848187130529_cont_sun_m_287_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and store takes the whole buffer -/

abbrev r1_a : Rect S400x10000 := Rect.unit (s := S400x10000) ![0, 0] S400x10000.size inb_S400x10000_S400x10000_0_0
abbrev r1_h : Rect S10000x128 := Rect.unit (s := S10000x128) ![0, 0] S10000x128.size inb_S10000x128_S10000x128_0_0
abbrev r1_t : Rect S400x128 := Rect.unit (s := S400x128) ![0, 0] S400x128.size inb_S400x128_S400x128_0_0
abbrev r1_e : Rect S1x1 := Rect.unit (s := S1x1) ![0, 0] S1x1.size inb_S1x1_S1x1_0_0
abbrev r1_s : Rect S1x128 := Rect.unit (s := S1x128) ![0, 0] S1x128.size inb_S1x128_S1x128_0_0

/-! ## What the body leaves in each output buffer (x0 the adjacency rows, x1 the whole first-layer output,
    x2 its tile, x3 the self weight; `prev` what the point before left in the row) -/

/-- The aggregated tile: one store, at every point. -/
def out1_4 (x0 : Vec F S400x10000 .f32) (x1 : Vec F S10000x128 .f32) (x2 : Vec F S400x128 .f32) (x3 : Vec F S1x1 .f32) : Vec F S400x128 .f32 :=
  View.canon [⟨r1_t, k1_pay1 (View.ld x0 r1_a) (View.ld x1 r1_h) (View.ld x3 r1_e) (View.ld x2 r1_t)⟩]
/-- The sum row at the first point: the tile's column sums. -/
def outA1_5 (x0 : Vec F S400x10000 .f32) (x1 : Vec F S10000x128 .f32) (x2 : Vec F S400x128 .f32) (x3 : Vec F S1x1 .f32) : Vec F S1x128 .f32 :=
  View.canon [⟨r1_s, k1_pay2 (View.ld x0 r1_a) (View.ld x1 r1_h) (View.ld x3 r1_e) (View.ld x2 r1_t)⟩]
/-- The sum-of-squares row at the first point. -/
def outA1_6 (x0 : Vec F S400x10000 .f32) (x1 : Vec F S10000x128 .f32) (x2 : Vec F S400x128 .f32) (x3 : Vec F S1x1 .f32) : Vec F S1x128 .f32 :=
  View.canon [⟨r1_s, k1_pay3 (View.ld x0 r1_a) (View.ld x1 r1_h) (View.ld x3 r1_e) (View.ld x2 r1_t)⟩]
/-- The sum row at a later point: what the point before left plus the tile's column sums. -/
def outB1_5 (x0 : Vec F S400x10000 .f32) (x1 : Vec F S10000x128 .f32) (x2 : Vec F S400x128 .f32) (x3 : Vec F S1x1 .f32) (prev : Vec F S1x128 .f32) : Vec F S1x128 .f32 :=
  View.canon [⟨r1_s, k1_pay4 (View.ld x0 r1_a) (View.ld x1 r1_h) (View.ld x3 r1_e) (View.ld x2 r1_t) (View.ld prev r1_s)⟩]
/-- The sum-of-squares row at a later point. -/
def outB1_6 (x0 : Vec F S400x10000 .f32) (x1 : Vec F S10000x128 .f32) (x2 : Vec F S400x128 .f32) (x3 : Vec F S1x1 .f32) (prev : Vec F S1x128 .f32) : Vec F S1x128 .f32 :=
  View.canon [⟨r1_s, k1_pay5 (View.ld x0 r1_a) (View.ld x1 r1_h) (View.ld x3 r1_e) (View.ld x2 r1_t) (View.ld prev r1_s)⟩]

/-- THE ACCUMULATION: what the two moment rows hold after the body at position `n` (sum row, sum-of-squares row). -/
def outsAt1 (c : Dev nD) : (n : ℕ) → n < cfg1.N → Vec F S1x128 .f32 × Vec F S1x128 .f32
  | 0, hn =>
    (outA1_5 (iblk1 V c 0 ⟨0, hn⟩) (iblk1 V c 1 ⟨0, hn⟩) (iblk1 V c 2 ⟨0, hn⟩) (iblk1 V c 3 ⟨0, hn⟩),
     outA1_6 (iblk1 V c 0 ⟨0, hn⟩) (iblk1 V c 1 ⟨0, hn⟩) (iblk1 V c 2 ⟨0, hn⟩) (iblk1 V c 3 ⟨0, hn⟩))
  | n + 1, hn =>
    (outB1_5 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1,
     outB1_6 (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_zero (c : Dev nD) (hn : 0 < cfg1.N) :
    outsAt1 V c 0 hn =
      (outA1_5 (iblk1 V c 0 ⟨0, hn⟩) (iblk1 V c 1 ⟨0, hn⟩) (iblk1 V c 2 ⟨0, hn⟩) (iblk1 V c 3 ⟨0, hn⟩),
       outA1_6 (iblk1 V c 0 ⟨0, hn⟩) (iblk1 V c 1 ⟨0, hn⟩) (iblk1 V c 2 ⟨0, hn⟩) (iblk1 V c 3 ⟨0, hn⟩)) := rfl
theorem outsAt1_succ (c : Dev nD) (n : ℕ) (hn : n + 1 < cfg1.N) :
    outsAt1 V c (n + 1) hn =
      (outB1_5 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).1,
       outB1_6 (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2) := rfl

/-! ## The proof data -/

/-- The arrays as the region finds them; after the body each input's buffer at its block, the aggregated tile
    at `out1_4`, the moment rows at `outsAt1`; nothing owed; the two windows on the first-layer output hold half
    of its share each, every other input the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => (outsAt1 V c t.val t.isLt).1
    | ⟨6, _⟩ => (outsAt1 V c t.val t.isLt).2
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2 := by dsimp only [dat1]
theorem q1_0 (c : Dev nD) : (dat1 V c).q 0 = fullShare := by dsimp only [dat1]
theorem q1_1 (c : Dev nD) : (dat1 V c).q 1 = fullShare.left := by dsimp only [dat1]
theorem q1_2 (c : Dev nD) : (dat1 V c).q 2 = fullShare.right := by dsimp only [dat1]
theorem q1_3 (c : Dev nD) : (dat1 V c).q 3 = fullShare := by dsimp only [dat1]

/-! ## Which case a point is in -/

/-- The first condition compares the point's coordinate with zero: it holds at the first point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- The second asks whether the coordinate is positive: it holds at every later point. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- A coordinate is zero or positive, so one of the two conditions holds at every coordinate: the body stores
    into each moment row everywhere. -/
theorem live1_5 : ∀ i : cfg1.grid.Coords, cfg1.idle 5 i = false := by decide +kernel
theorem live1_6 : ∀ i : cfg1.grid.Coords, cfg1.idle 6 i = false := by decide +kernel

/-! ## One store of the whole shape covers it -/

theorem cover1_t (p : Vec F S400x128 .f32) (y : S400x128.Idx) :
    ∃ pc ∈ ([⟨r1_t, p⟩] : List (View.Piece (Elt F) S400x128 .f32)), y ∈ pc.1.set :=
  View.cover_of_tiled [⟨r1_t, p⟩] S400x128.size (by rfl) y
theorem cover1_s (p : Vec F S1x128 .f32) (y : S1x128.Idx) :
    ∃ pc ∈ ([⟨r1_s, p⟩] : List (View.Piece (Elt F) S1x128 .f32)), y ∈ pc.1.set :=
  View.cover_of_tiled [⟨r1_s, p⟩] S1x128.size (by rfl) y

/-! ## The body's triple, case by case -/

set_option maxHeartbeats 1000000 in
/-- AT THE FIRST POINT (the first condition holds, the second fails). On whole buffers, the four inputs' at contents
    `x0 … x3` and the three outputs' at anything, the body runs to the continuation holding the inputs' as they
    were, the aggregated tile at `out1_4` and the two moment rows at the tile's column sums and column sums of
    squares. What the body reads of an output before storing into it goes nowhere. -/
theorem sound_kernel1_A (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S1x1 .f32) (harg4 : arg4.IsWhole)
    (arg5 : Memref sig .tc .vmem S400x128 .f32) (harg5 : arg5.IsWhole) (arg6 : Memref sig .tc .vmem S1x128 .f32) (harg6 : arg6.IsWhole)
    (arg7 : Memref sig .tc .vmem S1x128 .f32) (harg7 : arg7.IsWhole)
    (hc1 : k1_cond1 i = 1#1) (hc2 : ¬ k1_cond2 i = 1#1)
    (x0 : Vec F S400x10000 .f32) (x1 : Vec F S10000x128 .f32) (x2 : Vec F S400x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)
            ∗ owns (c : Thread nD τ) arg6 fullShare (outA1_5 x0 x1 x2 x3)
            ∗ owns (c : Thread nD τ) arg7 fullShare (outA1_6 x0 x1 x2 x3)) -∗ K ⟨⟩))
      ⊢ wp frame (wpE (defs₀ (F := F)) Variants.none c none) E (cc1__spmm_kernel i arg1 harg1 arg2 harg2 arg3 harg3 arg4 harg4 arg5 harg5 arg6 harg6 arg7 harg7) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_t _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

set_option maxHeartbeats 1000000 in
/-- AT A LATER POINT (the first condition fails, the second holds). The same, with the two moment rows' buffers held
    at given contents `p5`, `p6` — what the point before left —: each row is left at what it held plus the tile's
    column sums, resp. column sums of squares. The body reads each row twice before storing it; only the first
    reading enters the sum. -/
theorem sound_kernel1_B (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S1x1 .f32) (harg4 : arg4.IsWhole)
    (arg5 : Memref sig .tc .vmem S400x128 .f32) (harg5 : arg5.IsWhole) (arg6 : Memref sig .tc .vmem S1x128 .f32) (harg6 : arg6.IsWhole)
    (arg7 : Memref sig .tc .vmem S1x128 .f32) (harg7 : arg7.IsWhole)
    (hc1 : ¬ k1_cond1 i = 1#1) (hc2 : k1_cond2 i = 1#1)
    (x0 : Vec F S400x10000 .f32) (x1 : Vec F S10000x128 .f32) (x2 : Vec F S400x128 .f32) (x3 : Vec F S1x1 .f32)
    (p5 p6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ owns (c : Thread nD τ) arg6 fullShare p5 ∗ owns (c : Thread nD τ) arg7 fullShare p6
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3)
            ∗ owns (c : Thread nD τ) arg6 fullShare (outB1_5 x0 x1 x2 x3 p5)
            ∗ owns (c : Thread nD τ) arg7 fullShare (outB1_6 x0 x1 x2 x3 p6)) -∗ K ⟨⟩))
      ⊢ wp frame (wpE (defs₀ (F := F)) Variants.none c none) E (cc1__spmm_kernel i arg1 harg1 arg2 harg2 arg3 harg3 arg4 harg4 arg5 harg5 arg6 harg6 arg7 harg7) K := by
  simp only [cc1__spmm_kernel_eq_skeleton]; unfold cc1__spmm_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_t _)
  isplitl [H5]
  · iexists _; isplitr
    swap; · iexact H5
    ipureintro
    exact View.read_writes_eq_canon _ _ _ (cover1_s _)
  iexists _; isplitr
  swap; · iexact H6
  ipureintro
  exact View.read_writes_eq_canon _ _ _ (cover1_s _)

/-! ## What the body finds in each staging buffer -/

/-- An input's staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- At a later point a moment row's staging buffer holds what the point before left: the row is written back
    only after the last point, and no point leaves it untouched. -/
theorem before1_5_B (c : Dev nD) (t : Fin cfg1.N) (h0 : t.val ≠ 0) (d) :
    (dat1 V c).before 5 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]
theorem before1_6_B (c : Dev nD) (t : Fin cfg1.N) (h0 : t.val ≠ 0) (d) :
    (dat1 V c).before 6 t d = (outsAt1 V c (t.val - 1) (Nat.lt_of_le_of_lt (Nat.sub_le _ _) t.isLt)).2 := by
  have hN : t.val < 25 := lt_of_lt_of_eq t.isLt (show cfg1.N = 25 from N_1)
  rw [Dat.before_out_kept _ 6 rfl t h0 (Bool.eq_false_iff.mpr fun h => by have := (flush1_6 _).mp h; dsimp only at this; omega)
    live1_6 (fun _ _ => rfl)]
  dsimp only [dat1]

/-! ## The accumulation at a point, by its case -/

theorem outsAt1_A (c : Dev nD) (t : Fin cfg1.N) (h0 : t.val = 0) :
    outsAt1 V c t.val t.isLt =
      (outA1_5 (iblk1 V c 0 t) (iblk1 V c 1 t) (iblk1 V c 2 t) (iblk1 V c 3 t),
       outA1_6 (iblk1 V c 0 t) (iblk1 V c 1 t) (iblk1 V c 2 t) (iblk1 V c 3 t)) := by
  obtain ⟨n, hn⟩ := t
  cases n with
  | zero => exact outsAt1_zero V c hn
  | succ n => exact absurd h0 (Nat.succ_ne_zero n)
theorem outsAt1_B (c : Dev nD) (t : Fin cfg1.N) (h0 : t.val ≠ 0) :
    outsAt1 V c t.val t.isLt =
      (outB1_5 (iblk1 V c 0 t) (iblk1 V c 1 t) (iblk1 V c 2 t) (iblk1 V c 3 t) (outsAt1 V c (t.val - 1) (Nat.lt_of_le_of_lt (Nat.sub_le _ _) t.isLt)).1,
       outB1_6 (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact outsAt1_succ V c n hn
theorem outsAt1_A_1 (c : Dev nD) (t : Fin cfg1.N) (h0 : t.val = 0) :
    (outsAt1 V c t.val t.isLt).1 = outA1_5 (iblk1 V c 0 t) (iblk1 V c 1 t) (iblk1 V c 2 t) (iblk1 V c 3 t) := by
  rw [outsAt1_A V c t h0]
theorem outsAt1_A_2 (c : Dev nD) (t : Fin cfg1.N) (h0 : t.val = 0) :
    (outsAt1 V c t.val t.isLt).2 = outA1_6 (iblk1 V c 0 t) (iblk1 V c 1 t) (iblk1 V c 2 t) (iblk1 V c 3 t) := by
  rw [outsAt1_A V c t h0]
theorem outsAt1_B_1 (c : Dev nD) (t : Fin cfg1.N) (h0 : t.val ≠ 0) :
    (outsAt1 V c t.val t.isLt).1 =
      outB1_5 (iblk1 V c 0 t) (iblk1 V c 1 t) (iblk1 V c 2 t) (iblk1 V c 3 t) (outsAt1 V c (t.val - 1) (Nat.lt_of_le_of_lt (Nat.sub_le _ _) t.isLt)).1 := by
  rw [outsAt1_B V c t h0]
theorem outsAt1_B_2 (c : Dev nD) (t : Fin cfg1.N) (h0 : t.val ≠ 0) :
    (outsAt1 V c t.val t.isLt).2 =
      outB1_6 (iblk1 V c 0 t) (iblk1 V c 1 t) (iblk1 V c 2 t) (iblk1 V c 3 t) (outsAt1 V c (t.val - 1) (Nat.lt_of_le_of_lt (Nat.sub_le _ _) t.isLt)).2 := by
  rw [outsAt1_B V c t h0]

/-! ## The body obligation, at a generic point -/

/-- What the body is called with at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: every buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point. The inputs' buffers hold their blocks; the point is the first or a later one, which
    decides the two conditions; at a later point the moment rows' buffers hold what the point before left; so the
    case's triple applies, and what it leaves is what the accumulation names at this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val = 0
  · have hc1 : k1_cond1 (grid1.coords t) = 1#1 := (hcond1_1 t).mpr h0
    have hc2 : ¬ k1_cond2 (grid1.coords t) = 1#1 := fun h => (hcond1_2 t).mp h h0
    rw [outsAt1_A_1 V c t h0, outsAt1_A_2 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ hc1 hc2
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬ k1_cond1 (grid1.coords t) = 1#1 := fun h => h0 ((hcond1_1 t).mp h)
    have hc2 : k1_cond2 (grid1.coords t) = 1#1 := (hcond1_2 t).mpr h0
    rw [outsAt1_B_1 V c t h0, outsAt1_B_2 V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ hc1 hc2
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. No point is idle for a moment row (the two rows are stored under the same
    pair of conditions, so one fact serves both), and every other window is never idle by its definition. -/
theorem body_obligation1 (c : Dev nD) : BodyObligation (dat1 (F := F) V c) (defs₀ (F := F)) Variants.none () Set.univ := fun t => by
  rw [bigSep_W1, bigSep_W1]
  rw [show cfg1.idle 5 (cfg1.grid.coords t) = false from live1_5 _]
  exact sound_body1 V c t

end Cert.KernelIdeal.Fr

end
-- ==== Proof.KI.Region2.lean ====
/-
  The batch-norm and second dense layer's region (ten row tiles of 1000 nodes): the body reads the tile of the
  aggregated features, the two moment rows, the scale and shift rows, the whole second weight and its bias row,
  and stores the whole output tile once.
-/
import proofs.«111429_g56848187130529_cont_sun_m_287_2_alg».proof.Proof.Gen.KernelIdeal.Launch
import proofs.«111429_g56848187130529_cont_sun_m_287_2_alg».proof.Proof.Gen.KernelIdeal.Skeleton
import proofs.«111429_g56848187130529_cont_sun_m_287_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the store take the whole buffer -/

abbrev r2_x : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

/-- The output tile after the body, from the seven input blocks (in window order: the feature tile, the sum
    row, the sum-of-squares row, the scale row, the shift row, the weight, the bias row): its one store as a piece. -/
def out2_7 (x0 : Vec F S1000x128 .f32) (x1 x2 x3 x4 : Vec F S1x128 .f32) (x5 : Vec F S128x128 .f32) (x6 : Vec F S1x128 .f32) :
    Vec F S1000x128 .f32 :=
  View.canon [⟨r2_x, k2_pay1 (View.ld x1 r2_b) (View.ld x2 r2_b) (View.ld x3 r2_b) (View.ld x0 r2_x) (View.ld x4 r2_b) (View.ld x5 r2_w) (View.ld x6 r2_b)⟩]

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by
  dsimp only [dat2]

/-! ## Each input's buffer holds its block -/

/-- Input window 0's current staging buffer holds the window's block at every point, whether or not the block
    was brought in there: where it was not, the block index has not moved since the point before, so the block
    already in the buffer is this point's. For any proof data over the region's arrays whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d

/-- Input window 1's current staging buffer holds the window's block at every point, whether or not the block
    was brought in there: where it was not, the block index has not moved since the point before, so the block
    already in the buffer is this point's. For any proof data over the region's arrays whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_1 (c : Dev nD) (t : Fin cfg2.N) (d) : (dat2 V c).before 1 t d = iblk2 V c 1 t :=
  before2_1_of V (dat2 V c) (A_eq2 V c 1) (after2_1 V c) t d

/-- Input window 2's current staging buffer holds the window's block at every point, whether or not the block
    was brought in there: where it was not, the block index has not moved since the point before, so the block
    already in the buffer is this point's. For any proof data over the region's arrays whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_2 (c : Dev nD) (t : Fin cfg2.N) (d) : (dat2 V c).before 2 t d = iblk2 V c 2 t :=
  before2_2_of V (dat2 V c) (A_eq2 V c 2) (after2_2 V c) t d

/-- Input window 3's current staging buffer holds the window's block at every point, whether or not the block
    was brought in there: where it was not, the block index has not moved since the point before, so the block
    already in the buffer is this point's. For any proof data over the region's arrays whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_3 (c : Dev nD) (t : Fin cfg2.N) (d) : (dat2 V c).before 3 t d = iblk2 V c 3 t :=
  before2_3_of V (dat2 V c) (A_eq2 V c 3) (after2_3 V c) t d

/-- Input window 4's current staging buffer holds the window's block at every point, whether or not the block
    was brought in there: where it was not, the block index has not moved since the point before, so the block
    already in the buffer is this point's. For any proof data over the region's arrays whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_4 (c : Dev nD) (t : Fin cfg2.N) (d) : (dat2 V c).before 4 t d = iblk2 V c 4 t :=
  before2_4_of V (dat2 V c) (A_eq2 V c 4) (after2_4 V c) t d

/-- Input window 5's current staging buffer holds the window's block at every point, whether or not the block
    was brought in there: where it was not, the block index has not moved since the point before, so the block
    already in the buffer is this point's. For any proof data over the region's arrays whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_5 (c : Dev nD) (t : Fin cfg2.N) (d) : (dat2 V c).before 5 t d = iblk2 V c 5 t :=
  before2_5_of V (dat2 V c) (A_eq2 V c 5) (after2_5 V c) t d

/-- Input window 6's current staging buffer holds the window's block at every point, whether or not the block
    was brought in there: where it was not, the block index has not moved since the point before, so the block
    already in the buffer is this point's. For any proof data over the region's arrays whose body leaves the
    block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

theorem before2_6 (c : Dev nD) (t : Fin cfg2.N) (d) : (dat2 V c).before 6 t d = iblk2 V c 6 t :=
  before2_6_of V (dat2 V c) (A_eq2 V c 6) (after2_6 V c) t d

/-! ## The one store covers the output tile -/

/-- The store's rectangle is the whole tile, so every index of the tile lies in it. -/
theorem cover2_7 (p0 : Vec F S1000x128 .f32) (y : S1000x128.Idx) :
    ∃ pc ∈ ([⟨r2_x, p0⟩] : List (View.Piece (Elt F) S1000x128 .f32)), y ∈ pc.1.set :=
  View.cover_of_tiled [⟨r2_x, p0⟩] S1000x128.size (by rfl) y

/-! ## The body's triple -/

set_option maxHeartbeats 2000000 in
/-- The body on whole buffers — the seven inputs' reading `x0` … `x6` (the feature tile, the sum row, the
    sum-of-squares row, the scale row, the shift row, the weight, the bias row), the output's holding anything —
    runs to the continuation with the inputs' as they were and the output's at `out2_7` of them: it loads every
    input whole, loads the output tile once without using what it read, and stores the normalised, scaled and
    shifted tile times the weight plus the bias row over the whole output tile. The grid coordinate is not read. -/
theorem sound_kernel2 (c : Dev nD) (E : Set ℕ) (i : grid2.Coords)
    (arg0 : Memref sig .tc .vmem S1000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S1000x128 .f32) (harg7 : arg7.IsWhole)
    (x0 : Vec F S1000x128 .f32) (x1 x2 x3 x4 : Vec F S1x128 .f32) (x5 : Vec F S128x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x1 x2 x3 x4 x5 x6)) -∗ K ⟨⟩))
      ⊢ wp frame (wpE (defs₀ (F := F)) Variants.none c none) E (cc2__bn_lin2_kernel i arg0 harg0 arg1 harg1 arg2 harg2 arg3 harg3 arg4 harg4 arg5 harg5 arg6 harg6 arg7 harg7) K := by
  simp only [cc2__bn_lin2_kernel_eq_skeleton]; unfold cc2__bn_lin2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The body obligation -/

/-- What the body is given at point `t`: the invariant, what the core owes, and each window's current buffer at
    what it then holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it hands back: the same at the next point, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies at the blocks; the
    invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Outs.lean ====
/-
  What the three regions leave in the five buffers they may change, packed as the one family of unknowns
  the conditional frame is stated over: the first layer's output, the aggregated features with their two
  moment rows, and the result. Read back at each of the five places it is the array given.
-/
import proofs.«111429_g56848187130529_cont_sun_m_287_2_alg».proof.Proof.Gen.KernelIdeal.Regions

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F] [Named F]

/-- The family that holds `a7` at the first layer's output, `a80`, `a81`, `a82` at the aggregated features and
    their moment rows, `a9` at the result, whatever the position; elsewhere a value nobody reads. -/
def outsOf [∀ e, Nonempty (Elt F e)]
    (a7 : (c : Dev nD) → Buf (Elt F) ((c : Thread nD τ).loc main_v7))
    (a80 : (c : Dev nD) → Buf (Elt F) ((c : Thread nD τ).loc main_v8_0))
    (a81 : (c : Dev nD) → Buf (Elt F) ((c : Thread nD τ).loc main_v8_1))
    (a82 : (c : Dev nD) → Buf (Elt F) ((c : Thread nD τ).loc main_v8_2))
    (a9 : (c : Dev nD) → Buf (Elt F) ((c : Thread nD τ).loc main_v9)) : Gen.Outs (F := F) :=
  fun _ r c =>
    if h7 : r = main_v7 then h7 ▸ a7 c
    else if h80 : r = main_v8_0 then h80 ▸ a80 c
    else if h81 : r = main_v8_1 then h81 ▸ a81 c
    else if h82 : r = main_v8_2 then h82 ▸ a82 c
    else if h9 : r = main_v9 then h9 ▸ a9 c
    else Classical.arbitrary _

variable [∀ e, Nonempty (Elt F e)]
variable (a7 : (c : Dev nD) → Buf (Elt F) ((c : Thread nD τ).loc main_v7))
  (a80 : (c : Dev nD) → Buf (Elt F) ((c : Thread nD τ).loc main_v8_0))
  (a81 : (c : Dev nD) → Buf (Elt F) ((c : Thread nD τ).loc main_v8_1))
  (a82 : (c : Dev nD) → Buf (Elt F) ((c : Thread nD τ).loc main_v8_2))
  (a9 : (c : Dev nD) → Buf (Elt F) ((c : Thread nD τ).loc main_v9))

theorem outsOf_v7 (n : ℕ) (c : Dev nD) : outsOf a7 a80 a81 a82 a9 n main_v7 c = a7 c := by
  unfold outsOf; rw [dif_pos rfl]
theorem outsOf_v8_0 (n : ℕ) (c : Dev nD) : outsOf a7 a80 a81 a82 a9 n main_v8_0 c = a80 c := by
  unfold outsOf; rw [dif_neg (by decide), dif_pos rfl]
theorem outsOf_v8_1 (n : ℕ) (c : Dev nD) : outsOf a7 a80 a81 a82 a9 n main_v8_1 c = a81 c := by
  unfold outsOf; rw [dif_neg (by decide), dif_neg (by decide), dif_pos rfl]
theorem outsOf_v8_2 (n : ℕ) (c : Dev nD) : outsOf a7 a80 a81 a82 a9 n main_v8_2 c = a82 c := by
  unfold outsOf; rw [dif_neg (by decide), dif_neg (by decide), dif_neg (by decide), dif_pos rfl]
theorem outsOf_v9 (n : ℕ) (c : Dev nD) : outsOf a7 a80 a81 a82 a9 n main_v9 c = a9 c := by
  unfold outsOf; rw [dif_neg (by decide), dif_neg (by decide), dif_neg (by decide), dif_neg (by decide), dif_pos rfl]

end Cert.KernelIdeal.Fr

end
-- ==== Proof.KI.Regs.lean ====
/-
  The three regions as segments of the run. Between two items the core holds every unscoped buffer whole at
  known contents: as launched, then after the host operations (the transposes and reshapes), then with the first
  layer's output at what region 0 wrote, then with the aggregated features and their moment rows at what region 1
  wrote, then with the result at what region 2 wrote. Each region takes its windows' arrays out of those buffers,
  runs its pipeline, and puts the arrays back at their final contents. Region 1 reads the first layer's output
  through two windows: the buffer's share is halved between them on entry and rejoined on exit (both halves
  still hold the entry contents: inputs are never written).
-/
import proofs.«111429_g56848187130529_cont_sun_m_287_2_alg».proof.Proof.KI.Region0
import proofs.«111429_g56848187130529_cont_sun_m_287_2_alg».proof.Proof.KI.Region1
import proofs.«111429_g56848187130529_cont_sun_m_287_2_alg».proof.Proof.KI.Region2
import proofs.«111429_g56848187130529_cont_sun_m_287_2_alg».proof.Proof.KI.Outs
import proofs.«111429_g56848187130529_cont_sun_m_287_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ)

/-! ## The buffers' contents between the items -/

/-- After the host operations, read at the TensorCore's references: what region 0 is entered from. -/
abbrev T1 : (c : Dev nD) → (b : Ref sig .tc) → Buf (Elt F) ((c : Thread nD τ).loc b) := fun c b => Gen.V1 m c b
/-- The first layer's output as region 0 leaves it. -/
def a7 (c : Dev nD) : Buf (Elt F) ((c : Thread nD τ).loc main_v7) := (dat0 (T1 m) c).arrAt 3 cfg0.N
/-- After region 0. -/
abbrev W2 (c : Dev nD) : Valuation τ sig (Elt F) := Function.update (Gen.V1 m c) main_v7 (a7 m c)
abbrev T2 : (c : Dev nD) → (b : Ref sig .tc) → Buf (Elt F) ((c : Thread nD τ).loc b) := fun c b => W2 m c b
/-- The aggregated features, their sums and their sums of squares as region 1 leaves them. -/
def a80 (c : Dev nD) : Buf (Elt F) ((c : Thread nD τ).loc main_v8_0) := (dat1 (T2 m) c).arrAt 4 cfg1.N
def a81 (c : Dev nD) : Buf (Elt F) ((c : Thread nD τ).loc main_v8_1) := (dat1 (T2 m) c).arrAt 5 cfg1.N
def a82 (c : Dev nD) : Buf (Elt F) ((c : Thread nD τ).loc main_v8_2) := (dat1 (T2 m) c).arrAt 6 cfg1.N
/-- After region 1. -/
abbrev W3 (c : Dev nD) : Valuation τ sig (Elt F) :=
  Function.update (Function.update (Function.update (W2 m c) main_v8_0 (a80 m c)) main_v8_1 (a81 m c)) main_v8_2 (a82 m c)
abbrev T3 : (c : Dev nD) → (b : Ref sig .tc) → Buf (Elt F) ((c : Thread nD τ).loc b) := fun c b => W3 m c b
/-- The result as region 2 leaves it. -/
def a9 (c : Dev nD) : Buf (Elt F) ((c : Thread nD τ).loc main_v9) := (dat2 (T3 m) c).arrAt 7 cfg2.N
/-- After region 2. -/
abbrev W4 (c : Dev nD) : Valuation τ sig (Elt F) := Function.update (W3 m c) main_v9 (a9 m c)

/-- The five arrays as the family the conditional frame's valuations are written over. -/
def outs : Gen.Outs (F := F) := outsOf (a7 m) (a80 m) (a81 m) (a82 m) (a9 m)

theorem V2_eq (c : Dev nD) : Gen.V2 m (outs m) c = W2 m c := by
  show Function.update (Gen.V1 m c) main_v7 (outs m 2 main_v7 c) = _
  rw [show outs m 2 main_v7 c = a7 m c from outsOf_v7 _ _ _ _ _ 2 c]
theorem V3_eq (c : Dev nD) : Gen.V3 m (outs m) c = W3 m c := by
  show Function.update (Function.update (Function.update (Gen.V2 m (outs m) c) main_v8_0 (outs m 3 main_v8_0 c)) main_v8_1 (outs m 3 main_v8_1 c)) main_v8_2 (outs m 3 main_v8_2 c) = _
  rw [V2_eq, show outs m 3 main_v8_0 c = a80 m c from outsOf_v8_0 _ _ _ _ _ 3 c,
    show outs m 3 main_v8_1 c = a81 m c from outsOf_v8_1 _ _ _ _ _ 3 c,
    show outs m 3 main_v8_2 c = a82 m c from outsOf_v8_2 _ _ _ _ _ 3 c]
theorem V4_eq (c : Dev nD) : Gen.V4 m (outs m) c = W4 m c := by
  show Function.update (Gen.V3 m (outs m) c) main_v9 (outs m 4 main_v9 c) = _
  rw [V3_eq, show outs m 4 main_v9 c = a9 m c from outsOf_v9 _ _ _ _ _ 4 c]

/-- Region 0 changes the first layer's output only. -/
theorem W2_of (c : Dev nD) (r : Ref sig .tc) (h : r ≠ main_v7) : W2 m c r = Gen.V1 m c r :=
  Function.update_of_ne (StableHlo.devRef_ne_of_ne h) _ _
theorem W2_v7 (c : Dev nD) : W2 m c main_v7 = a7 m c := Function.update_self _ _ _
/-- Region 1 changes the aggregated features and their moment rows only. -/
theorem W3_of (c : Dev nD) (r : Ref sig .tc) (h0 : r ≠ main_v8_0) (h1 : r ≠ main_v8_1) (h2 : r ≠ main_v8_2) : W3 m c r = W2 m c r := by
  show Function.update (Function.update (Function.update (W2 m c) main_v8_0 (a80 m c)) main_v8_1 (a81 m c)) main_v8_2 (a82 m c) r = _
  rw [Function.update_of_ne (StableHlo.devRef_ne_of_ne h2), Function.update_of_ne (StableHlo.devRef_ne_of_ne h1), Function.update_of_ne (StableHlo.devRef_ne_of_ne h0)]
theorem W3_v8_2 (c : Dev nD) : W3 m c main_v8_2 = a82 m c := Function.update_self _ _ _
theorem W3_v8_1 (c : Dev nD) : W3 m c main_v8_1 = a81 m c := by
  show Function.update (Function.update (Function.update (W2 m c) main_v8_0 (a80 m c)) main_v8_1 (a81 m c)) main_v8_2 (a82 m c) main_v8_1 = _
  rw [Function.update_of_ne (StableHlo.devRef_ne_of_ne (by decide : main_v8_1 ≠ main_v8_2)), Function.update_self]
theorem W3_v8_0 (c : Dev nD) : W3 m c main_v8_0 = a80 m c := by
  show Function.update (Function.update (Function.update (W2 m c) main_v8_0 (a80 m c)) main_v8_1 (a81 m c)) main_v8_2 (a82 m c) main_v8_0 = _
  rw [Function.update_of_ne (StableHlo.devRef_ne_of_ne (by decide : main_v8_0 ≠ main_v8_2)),
    Function.update_of_ne (StableHlo.devRef_ne_of_ne (by decide : main_v8_0 ≠ main_v8_1)), Function.update_self]
/-- Region 2 changes the result only. -/
theorem W4_of (c : Dev nD) (r : Ref sig .tc) (h : r ≠ main_v9) : W4 m c r = W3 m c r :=
  Function.update_of_ne (StableHlo.devRef_ne_of_ne h) _ _
theorem W4_v9 (c : Dev nD) : W4 m c main_v9 = a9 m c := Function.update_self _ _ _

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (T1 m) c
  | ⟨1, _⟩ => fun c => dat1 (T2 m) c
  | ⟨2, _⟩ => fun c => dat2 (T3 m) c

abbrev 𝒱₀ : Variants := Variants.none
abbrev L : GSem nD τ sig → Finset Unit := fun _ => ∅
abbrev lv : GSem nD τ sig → Unit → ℕ := fun _ _ => 0
/-- The core's generator register at some state, and the core owing nothing. -/
abbrev Rr (c : Dev nD) : sProp 𝕄 := iprop((∃ r, prngReg c r) ∗ ∃ W, owes (c : Thread nD τ) (0 : CellTallies nD τ sig Unit) W)

/-! ### Region 0's arrays before and after -/
theorem W2_in0_0 (c : Dev nD) : T2 m c (Pipeline.arrRef spec0 0) = (pdats m 0 c).A 0 := W2_of m c _ (by decide)
theorem W2_in0_1 (c : Dev nD) : T2 m c (Pipeline.arrRef spec0 1) = (pdats m 0 c).A 1 := W2_of m c _ (by decide)
theorem W2_in0_2 (c : Dev nD) : T2 m c (Pipeline.arrRef spec0 2) = (pdats m 0 c).A 2 := W2_of m c _ (by decide)
theorem W2_out0 (c : Dev nD) : T2 m c (Pipeline.arrRef spec0 3) = (pdats m 0 c).arrAt 3 cfg0.N := W2_v7 m c
theorem W2_rest0 (c : Dev nD) (b : Ref sig .tc) (h : b ≠ main_v7) : T2 m c b = T1 m c b := W2_of m c b h

/-! ## Region 0 as a segment -/

theorem hF0 (c : Dev nD) (w : Fin cfg0.W) : (pdats m 0 c).arrAt w cfg0.N = T2 m c (Pipeline.arrRef spec0 w) := by
  match w with
  | ⟨0, _⟩ => exact ((pdats m 0 c).arrAt_in 0 rfl _).trans ((W2_in0_0 m c).symm)
  | ⟨1, _⟩ => exact ((pdats m 0 c).arrAt_in 1 rfl _).trans ((W2_in0_1 m c).symm)
  | ⟨2, _⟩ => exact ((pdats m 0 c).arrAt_in 2 rfl _).trans ((W2_in0_2 m c).symm)
  | ⟨3, _⟩ => exact (W2_out0 m c).symm

theorem hrest0 (c : Dev nD) : ∀ b, b ∉ Finset.univ.image (Pipeline.arrRef spec0) → T2 m c b = T1 m c b := fun b hb => by
  have hne : b ≠ main_v7 := fun e => hb (Finset.mem_image.mpr ⟨3, Finset.mem_univ _, e.symm⟩)
  exact W2_rest0 m c b hne

set_option backward.isDefEq.respectTransparency.types false in
/-- Entered from every unscoped buffer at the contents before the region, left with them at the contents after it. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (Gen.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2's arrays before and after -/
abbrev T4 : (c : Dev nD) → (b : Ref sig .tc) → Buf (Elt F) ((c : Thread nD τ).loc b) := fun c b => W4 m c b
theorem W4_in2_0 (c : Dev nD) : T4 m c (Pipeline.arrRef spec2 0) = (pdats m 2 c).A 0 := W4_of m c _ (by decide)
theorem W4_in2_1 (c : Dev nD) : T4 m c (Pipeline.arrRef spec2 1) = (pdats m 2 c).A 1 := W4_of m c _ (by decide)
theorem W4_in2_2 (c : Dev nD) : T4 m c (Pipeline.arrRef spec2 2) = (pdats m 2 c).A 2 := W4_of m c _ (by decide)
theorem W4_in2_3 (c : Dev nD) : T4 m c (Pipeline.arrRef spec2 3) = (pdats m 2 c).A 3 := W4_of m c _ (by decide)
theorem W4_in2_4 (c : Dev nD) : T4 m c (Pipeline.arrRef spec2 4) = (pdats m 2 c).A 4 := W4_of m c _ (by decide)
theorem W4_in2_5 (c : Dev nD) : T4 m c (Pipeline.arrRef spec2 5) = (pdats m 2 c).A 5 := W4_of m c _ (by decide)
theorem W4_in2_6 (c : Dev nD) : T4 m c (Pipeline.arrRef spec2 6) = (pdats m 2 c).A 6 := W4_of m c _ (by decide)
theorem W4_out2 (c : Dev nD) : T4 m c (Pipeline.arrRef spec2 7) = (pdats m 2 c).arrAt 7 cfg2.N := W4_v9 m c
theorem W4_rest2 (c : Dev nD) (b : Ref sig .tc) (h : b ≠ main_v9) : T4 m c b = T3 m c b := W4_of m c b h

/-! ## Region 2 as a segment -/

theorem hF2 (c : Dev nD) (w : Fin cfg2.W) : (pdats m 2 c).arrAt w cfg2.N = T4 m c (Pipeline.arrRef spec2 w) := by
  match w with
  | ⟨0, _⟩ => exact ((pdats m 2 c).arrAt_in 0 rfl _).trans ((W4_in2_0 m c).symm)
  | ⟨1, _⟩ => exact ((pdats m 2 c).arrAt_in 1 rfl _).trans ((W4_in2_1 m c).symm)
  | ⟨2, _⟩ => exact ((pdats m 2 c).arrAt_in 2 rfl _).trans ((W4_in2_2 m c).symm)
  | ⟨3, _⟩ => exact ((pdats m 2 c).arrAt_in 3 rfl _).trans ((W4_in2_3 m c).symm)
  | ⟨4, _⟩ => exact ((pdats m 2 c).arrAt_in 4 rfl _).trans ((W4_in2_4 m c).symm)
  | ⟨5, _⟩ => exact ((pdats m 2 c).arrAt_in 5 rfl _).trans ((W4_in2_5 m c).symm)
  | ⟨6, _⟩ => exact ((pdats m 2 c).arrAt_in 6 rfl _).trans ((W4_in2_6 m c).symm)
  | ⟨7, _⟩ => exact (W4_out2 m c).symm

theorem hrest2 (c : Dev nD) : ∀ b, b ∉ Finset.univ.image (Pipeline.arrRef spec2) → T4 m c b = T3 m c b := fun b hb => by
  have hne : b ≠ main_v9 := fun e => hb (Finset.mem_image.mpr ⟨7, Finset.mem_univ _, e.symm⟩)
  exact W4_rest2 m c b hne

set_option backward.isDefEq.respectTransparency.types false in
/-- Entered from every unscoped buffer at the contents before the region, left with them at the contents after it. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the arrays, with the first layer's output shared by two windows -/

section Region1
variable (c : Dev nD) (V : (b : Ref sig .tc) → Buf (Elt F) ((c : Thread nD τ).loc b))

/-- The six distinct buffers behind region 1's seven windows, one by one. -/
theorem arrBufs1_eq :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v7) ↦{fullShare} V main_v7)
          ∗ (((c : Thread nD τ).loc main_v6) ↦{fullShare} V main_v6) ∗ (((c : Thread nD τ).loc main_v8_0) ↦{fullShare} V main_v8_0)
          ∗ (((c : Thread nD τ).loc main_v8_1) ↦{fullShare} V main_v8_1) ∗ (((c : Thread nD τ).loc main_v8_2) ↦{fullShare} V main_v8_2)) := by
  unfold Pipeline.arrBufs
  exact bigSep_eq_bigSepL_of_eq [main_arg1, main_v7, main_v6, main_v8_0, main_v8_1, main_v8_2] (by decide) (by decide) _

/-- Region 1's arrays at contents `Fa`, window by window: the first layer's output at half a share for each of
    its two windows, every other array at the full share. -/
theorem arrays1_eq (W : (c : Dev nD) → (b : Ref sig .tc) → Buf (Elt F) ((c : Thread nD τ).loc b))
    (Fa : (w : Fin cfg1.W) → Buf (Elt F) ((cfg1.win w).arr.view.loc (c : Thread nD τ))) :
    ((dat1 W c).arrays Fa : sProp 𝕄)
      = iprop((((c : Thread nD τ).loc main_arg1) ↦{fullShare} Fa 0) ∗ (((c : Thread nD τ).loc main_v7) ↦{fullShare.left} Fa 1)
          ∗ (((c : Thread nD τ).loc main_v7) ↦{fullShare.right} Fa 2) ∗ (((c : Thread nD τ).loc main_v6) ↦{fullShare} Fa 3)
          ∗ (((c : Thread nD τ).loc main_v8_0) ↦{fullShare} Fa 4) ∗ (((c : Thread nD τ).loc main_v8_1) ↦{fullShare} Fa 5)
          ∗ (((c : Thread nD τ).loc main_v8_2) ↦{fullShare} Fa 6)) := by
  have h : ((dat1 W c).arrays Fa : sProp 𝕄)
      = bigSep Finset.univ fun w : Fin cfg1.W => (((c : Thread nD τ).loc (Pipeline.arrRef spec1 w)) ↦{(dat1 W c).share w} Fa w : sProp 𝕄) := by
    unfold Dat.arrays
    exact bigSep_congr fun w _ => by rw [(arr_whole1 w).set_eq_univ]
  rw [h, bigSep_W1]
  rfl

end Region1

/-- The first layer's output, held whole, is its two halves. -/
theorem v7_halves (c : Dev nD) (f : Buf (Elt F) ((c : Thread nD τ).loc main_v7)) :
    ((((c : Thread nD τ).loc main_v7) ↦{fullShare} f : sProp 𝕄))
      ⊣⊢ iprop((((c : Thread nD τ).loc main_v7) ↦{fullShare.left} f) ∗ (((c : Thread nD τ).loc main_v7) ↦{fullShare.right} f)) :=
  pointsTo_share (PosShare.mem_left_op_right fullShare)

/-- ENTRY: the unscoped buffers held at the contents after region 0 are region 1's arrays at their entry contents
    and the unscoped rest. -/
theorem arrays1_of_held (c : Dev nD) :
    (StableHlo.held (c : Thread nD τ) (Pipeline.ucRefs τ sig) (W2 m c) : sProp 𝕄)
      ⊢ iprop((pdats m 1 c).arrays (pdats m 1 c).A ∗ Pipeline.unscopedRest (Ix := Unit) (Name := ℕ) (U := UR sig nD τ) (Lvl := ℕ) spec1 c (T2 m c)) := by
  have hs : (unscopedBufs (Ix := Unit) (Name := ℕ) (U := UR sig nD τ) (Lvl := ℕ) c (T2 m c) : sProp 𝕄)
      = iprop(Pipeline.arrBufs spec1 c (T2 m c) ∗ Pipeline.unscopedRest spec1 c (T2 m c)) :=
    Pipeline.unscopedBufs_split₀ cfgs 1 winFacts₀1.arr_unscoped c (T2 m c)
  rw [← Pipeline.unscopedBufs_held (Ix := Unit) (Name := ℕ) (U := UR sig nD τ) (Lvl := ℕ) c (W2 m c), hs, arrBufs1_eq c (T2 m c),
    show (pdats m 1 c) = dat1 (T2 m) c from rfl, arrays1_eq c (T2 m)]
  iintro ⟨⟨H1, H7, H6, H80, H81, H82⟩, Hrest⟩
  ihave H7' := (v7_halves c _).1 $$ H7
  icases H7' with ⟨H7l, H7r⟩
  isplitr [Hrest]
  · isplitl [H1]; · iexact H1
    isplitl [H7l]; · iexact H7l
    isplitl [H7r]; · iexact H7r
    isplitl [H6]; · iexact H6
    isplitl [H80]; · iexact H80
    isplitl [H81]; · iexact H81
    iexact H82
  · iexact Hrest

/-- Region 1 leaves every buffer that is none of its arrays as it found it. -/
theorem unscopedRest1_congr (c : Dev nD) :
    (Pipeline.unscopedRest (Ix := Unit) (Name := ℕ) (U := UR sig nD τ) (Lvl := ℕ) spec1 c (T2 m c) : sProp 𝕄)
      = Pipeline.unscopedRest spec1 c (T3 m c) := by
  unfold Pipeline.unscopedRest
  refine bigSep_congr fun b hb => ?_
  have hb' := (Finset.mem_sdiff.mp hb).2
  have h0 : b ≠ main_v8_0 := fun e => hb' (Finset.mem_image.mpr ⟨4, Finset.mem_univ _, e.symm⟩)
  have h1 : b ≠ main_v8_1 := fun e => hb' (Finset.mem_image.mpr ⟨5, Finset.mem_univ _, e.symm⟩)
  have h2 : b ≠ main_v8_2 := fun e => hb' (Finset.mem_image.mpr ⟨6, Finset.mem_univ _, e.symm⟩)
  rw [show T3 m c b = T2 m c b from W3_of m c b h0 h1 h2]

/-- EXIT: region 1's arrays at their final contents and the unscoped rest are the unscoped buffers held at the
    contents after region 1 (the two halves of the first layer's output, both still at the entry contents, rejoined). -/
theorem held_of_arrays1 (c : Dev nD) :
    iprop((pdats m 1 c).arrays ((pdats m 1 c).arrAt · cfg1.N) ∗ Pipeline.unscopedRest (Ix := Unit) (Name := ℕ) (U := UR sig nD τ) (Lvl := ℕ) spec1 c (T2 m c))
      ⊢ (StableHlo.held (c : Thread nD τ) (Pipeline.ucRefs τ sig) (W3 m c) : sProp 𝕄) := by
  have hs : (unscopedBufs (Ix := Unit) (Name := ℕ) (U := UR sig nD τ) (Lvl := ℕ) c (T3 m c) : sProp 𝕄)
      = iprop(Pipeline.arrBufs spec1 c (T3 m c) ∗ Pipeline.unscopedRest spec1 c (T3 m c)) :=
    Pipeline.unscopedBufs_split₀ cfgs 1 winFacts₀1.arr_unscoped c (T3 m c)
  rw [← Pipeline.unscopedBufs_held (Ix := Unit) (Name := ℕ) (U := UR sig nD τ) (Lvl := ℕ) c (W3 m c), hs, arrBufs1_eq c (T3 m c), unscopedRest1_congr m c,
    show (pdats m 1 c) = dat1 (T2 m) c from rfl, arrays1_eq c (T2 m)]
  have e0 : (dat1 (T2 m) c).arrAt 0 cfg1.N = T3 m c main_arg1 :=
    ((dat1 (T2 m) c).arrAt_in 0 rfl _).trans (W3_of m c main_arg1 (by decide) (by decide) (by decide)).symm
  have e1 : (dat1 (T2 m) c).arrAt 1 cfg1.N = T3 m c main_v7 :=
    ((dat1 (T2 m) c).arrAt_in 1 rfl _).trans (W3_of m c main_v7 (by decide) (by decide) (by decide)).symm
  have e2 : (dat1 (T2 m) c).arrAt 2 cfg1.N = T3 m c main_v7 :=
    ((dat1 (T2 m) c).arrAt_in 2 rfl _).trans (W3_of m c main_v7 (by decide) (by decide) (by decide)).symm
  have e3 : (dat1 (T2 m) c).arrAt 3 cfg1.N = T3 m c main_v6 :=
    ((dat1 (T2 m) c).arrAt_in 3 rfl _).trans (W3_of m c main_v6 (by decide) (by decide) (by decide)).symm
  have e4 : (dat1 (T2 m) c).arrAt 4 cfg1.N = T3 m c main_v8_0 := (W3_v8_0 m c).symm
  have e5 : (dat1 (T2 m) c).arrAt 5 cfg1.N = T3 m c main_v8_1 := (W3_v8_1 m c).symm
  have e6 : (dat1 (T2 m) c).arrAt 6 cfg1.N = T3 m c main_v8_2 := (W3_v8_2 m c).symm
  rw [e0, e1, e2, e3, e4, e5, e6]
  iintro ⟨⟨H1, H7l, H7r, H6, H80, H81, H82⟩, Hrest⟩
  ihave H7 := (v7_halves c _).2 $$ [H7l H7r]
  · isplitl [H7l]; · iexact H7l
    iexact H7r
  isplitr [Hrest]
  · isplitl [H1]; · iexact H1
    isplitl [H7]; · iexact H7
    isplitl [H6]; · iexact H6
    isplitl [H80]; · iexact H80
    isplitl [H81]; · iexact H81
    iexact H82
  · iexact Hrest

set_option backward.isDefEq.respectTransparency.types false in
/-- Entered from every unscoped buffer at the contents after region 0, left with them at the contents after region 1. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (W2 m c) ∗ Rr c)
  post c := iprop(StableHlo.held (c : Thread nD τ) (Pipeline.ucRefs τ sig) (W3 m c) ∗ Rr c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := arrays1_of_held m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := held_of_arrays1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.RunAll.lean ====
/-
  The whole run of the three regions from the launch to the return: every weakly fair execution terminates and the
  final memory holds, at every unscoped buffer, what the chain of valuations says — the arguments as launched, the
  first layer's output, the aggregated features with their moment rows, and the result, each at what its region
  wrote. The launch gives every core its generator register and an empty debt; no core owes another anything.
-/
import proofs.«111429_g56848187130529_cont_sun_m_287_2_alg».proof.Proof.KI.Regs
import proofs.«111429_g56848187130529_cont_sun_m_287_2_alg».proof.Proof.KI.RunCond

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its final memory read at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V2_eq m c]; exact .rfl)
    (reg1 m) (fun c => by rw [V2_eq m c]; exact .rfl) (fun c => by rw [V3_eq m c]; exact .rfl)
    (reg2 m) (fun c => by rw [V3_eq m c]; exact .rfl) (fun c => by rw [V4_eq m c]; exact .rfl)
  exact (θ_run defs _ _).mono (fun _ hr c b hb => (hr c b hb).trans (congrFun (V4_eq m c) b)) h

end Cert.KernelIdeal.Fr

end
-- ==== Proof.KI.Frame.lean ====
/-
  The frame: every weakly fair execution terminates, nothing faults, and each of the nine argument arrays ends
  as launched — no host operation writes an argument and no region may change one, so the last valuation at an
  argument's buffer walks back to the launch memory.
-/
import proofs.«111429_g56848187130529_cont_sun_m_287_2_alg».proof.Proof.KI.RunAll

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F] [Named F] [∀ e, Nonempty (Elt F e)]
variable (m : (ℓ : Loc nD τ sig) → Buf (Elt F) ℓ) (ρ : Dev nD → PrngReg)

/-- A buffer that no host operation writes and no region may change holds its launch contents at the end. -/
theorem W4_untouched (c : Dev nD) (r : Ref sig .tc) (hh : r ∉ hostOps0_W) (h7 : r ≠ main_v7) (h80 : r ≠ main_v8_0)
    (h81 : r ≠ main_v8_1) (h82 : r ≠ main_v8_2) (h9 : r ≠ main_v9) : W4 m c r = m ((c : Thread nD τ).loc r) :=
  (W4_of m c r h9).trans <| (W3_of m c r h80 h81 h82).trans <| (W2_of m c r h7).trans <| (Gen.V1_of m c r hh).trans rfl

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m c main_arg0 (by decide) (by decide) (by decide) (by decide) (by decide) (by decide)),
     (h c _ (mem_uc main_arg1 (by decide))).trans (W4_untouched m c main_arg1 (by decide) (by decide) (by decide) (by decide) (by decide) (by decide)),
     (h c _ (mem_uc main_arg2 (by decide))).trans (W4_untouched m c main_arg2 (by decide) (by decide) (by decide) (by decide) (by decide) (by decide)),
     (h c _ (mem_uc main_arg3 (by decide))).trans (W4_untouched m c main_arg3 (by decide) (by decide) (by decide) (by decide) (by decide) (by decide)),
     (h c _ (mem_uc main_arg4 (by decide))).trans (W4_untouched m c main_arg4 (by decide) (by decide) (by decide) (by decide) (by decide) (by decide)),
     (h c _ (mem_uc main_arg5 (by decide))).trans (W4_untouched m c main_arg5 (by decide) (by decide) (by decide) (by decide) (by decide) (by decide)),
     (h c _ (mem_uc main_arg6 (by decide))).trans (W4_untouched m c main_arg6 (by decide) (by decide) (by decide) (by decide) (by decide) (by decide)),
     (h c _ (mem_uc main_arg7 (by decide))).trans (W4_untouched m c main_arg7 (by decide) (by decide) (by decide) (by decide) (by decide) (by decide)),
     (h c _ (mem_uc main_arg8 (by decide))).trans (W4_untouched m c main_arg8 (by decide) (by decide) (by decide) (by decide) (by decide) (by decide))⟩)
    (run_all m ρ)

end Cert.KernelIdeal.Fr

end
-- ==== Proof.Spec.lean ====
/-
  The mathematics both programs compute, as functions of whole arrays of extended reals, index by index.

  A graph layer over N = 10000 nodes with D = 128 features:
    lin x wt b      : the dense layer  (x · wt + b), wt indexed [k, c] (already transposed), b a row [1, 128]
    deg adj         : the degree of a node, the sum of its row of the adjacency
    agg adj h1 e    : mean aggregation plus the weighted self term,  (adj · h1)[r, c] / deg r + e · h1[r, c]
    colSum, colSumSq: per-feature sum and sum of squares over all nodes
    bnK             : batch normalisation from the two moments  (E[x²] − E[x]²), scale folded as rsqrt(var + ε) · γ
    bnR             : batch normalisation from the centred second moment, (x − mean) / sqrt(var + ε) · γ + β
  `outK` composes them the way the three kernel regions do, `outR` the way the host program does.
  The operands are taken in the shapes the kernel's windows hold them: `tr`, `row`, `cell` read a
  [128, 128] weight transposed, a length-128 vector as a [1, 128] row and a length-1 vector as a [1, 1] cell.
-/
import Idealize.ShloMosaic.PureOps.Ideal
import Idealize.ShloMosaic.Lib.ValueIdx

noncomputable section

open scoped BigOperators

namespace Cert.Spec

open Idealize.ShloMosaic Idealize.ShloMosaic.ValueIdx

abbrev SND : Shape := ⟨2, ![10000, 128]⟩
abbrev SNN : Shape := ⟨2, ![10000, 10000]⟩
abbrev SDD : Shape := ⟨2, ![128, 128]⟩
abbrev S1D : Shape := ⟨2, ![1, 128]⟩
abbrev S11 : Shape := ⟨2, ![1, 1]⟩
abbrev SD : Shape := ⟨1, ![128]⟩
abbrev S1 : Shape := ⟨1, ![1]⟩

/-- The batch-norm epsilon both programs carry as the same f32 word (1e-5 rounded to f32). -/
def epsBN : EReal := Ideal.ofBits .f32 0x3727C5AC#32

/-- A [128, 128] weight read transposed: entry (k, c) is w[c, k]. -/
def tr (w : FVec Ideal SDD .f32) : FVec Ideal SDD .f32 := fun i => w (ix2 (i 1) (i 0))
/-- A length-128 vector as a [1, 128] row. -/
def row (v : FVec Ideal SD .f32) : FVec Ideal S1D .f32 := fun i => v (ix1 (i 1))
/-- A length-1 vector as a [1, 1] cell. -/
def cell (e : FVec Ideal S1 .f32) : FVec Ideal S11 .f32 := fun _ => e (ix1 0)

/-- The dense layer: entry (r, c) is Σ_k x[r, k] · wt[k, c] + b[0, c]. -/
def lin (x : FVec Ideal SND .f32) (wt : FVec Ideal SDD .f32) (b : FVec Ideal S1D .f32) : FVec Ideal SND .f32 :=
  fun i => (∑ k : Fin 128, x (ix2 (i 0) k) * wt (ix2 k (i 1))) + b (ix2 0 (i 1))

/-- A node's degree: the sum of its row of the adjacency. -/
def deg (adj : FVec Ideal SNN .f32) (r : Fin 10000) : EReal := ∑ k : Fin 10000, adj (ix2 r k)

/-- Mean aggregation plus the weighted self term: (Σ_k adj[r, k] · h1[k, c]) / deg r + e · h1[r, c]. -/
def agg (adj : FVec Ideal SNN .f32) (h1 : FVec Ideal SND .f32) (e : FVec Ideal S11 .f32) : FVec Ideal SND .f32 :=
  fun i => Ideal.div (∑ k : Fin 10000, adj (ix2 (i 0) k) * h1 (ix2 k (i 1))) (deg adj (i 0)) + e (ix2 0 0) * h1 i

/-- Per-feature sum over all nodes, as a [1, 128] row. -/
def colSum (x : FVec Ideal SND .f32) : FVec Ideal S1D .f32 := fun j => ∑ r : Fin 10000, x (ix2 r (j 1))
/-- Per-feature sum of squares over all nodes, as a [1, 128] row. -/
def colSumSq (x : FVec Ideal SND .f32) : FVec Ideal S1D .f32 := fun j => ∑ r : Fin 10000, x (ix2 r (j 1)) * x (ix2 r (j 1))

/-- Batch normalisation from the two moments s = Σ x and q = Σ x²: mean = s/N, var = q/N − mean²,
    (x − mean) · (rsqrt(var + ε) · γ) + β. -/
def bnK (x : FVec Ideal SND .f32) (s q g be : FVec Ideal S1D .f32) : FVec Ideal SND .f32 :=
  fun i =>
    (x i - s (ix2 0 (i 1)) * ((1 / 10000 : ℝ) : EReal))
      * (Ideal.rsqrt ((q (ix2 0 (i 1)) * ((1 / 10000 : ℝ) : EReal)
            - (s (ix2 0 (i 1)) * ((1 / 10000 : ℝ) : EReal)) * (s (ix2 0 (i 1)) * ((1 / 10000 : ℝ) : EReal))) + epsBN)
          * g (ix2 0 (i 1)))
      + be (ix2 0 (i 1))

/-- The batch mean of feature c. -/
def meanR (x : FVec Ideal SND .f32) (c : Fin 128) : EReal := Ideal.div (∑ r : Fin 10000, x (ix2 r c)) ((10000 : ℝ) : EReal)
/-- The biased batch variance of feature c: the mean of the squared deviations. -/
def varR (x : FVec Ideal SND .f32) (c : Fin 128) : EReal :=
  Ideal.div (∑ r : Fin 10000, (x (ix2 r c) - meanR x c) * (x (ix2 r c) - meanR x c)) ((10000 : ℝ) : EReal)
/-- Batch normalisation the textbook way: (x − mean) / sqrt(var + ε) · γ + β. -/
def bnR (x : FVec Ideal SND .f32) (g be : FVec Ideal S1D .f32) : FVec Ideal SND .f32 :=
  fun i => Ideal.div (x i - meanR x (i 1)) (Ideal.sqrt (varR x (i 1) + epsBN)) * g (ix2 0 (i 1)) + be (ix2 0 (i 1))

/-- The three kernel regions composed. -/
def outK (h : FVec Ideal SND .f32) (adj : FVec Ideal SNN .f32) (w1t : FVec Ideal SDD .f32) (b1r : FVec Ideal S1D .f32)
    (w2t : FVec Ideal SDD .f32) (b2r g be : FVec Ideal S1D .f32) (e : FVec Ideal S11 .f32) : FVec Ideal SND .f32 :=
  lin (bnK (agg adj (lin h w1t b1r) e) (colSum (agg adj (lin h w1t b1r) e)) (colSumSq (agg adj (lin h w1t b1r) e)) g be) w2t b2r

/-- The host program composed. -/
def outR (h : FVec Ideal SND .f32) (adj : FVec Ideal SNN .f32) (w1t : FVec Ideal SDD .f32) (b1r : FVec Ideal S1D .f32)
    (w2t : FVec Ideal SDD .f32) (b2r g be : FVec Ideal S1D .f32) (e : FVec Ideal S11 .f32) : FVec Ideal SND .f32 :=
  lin (bnR (agg adj (lin h w1t b1r) e) g be) w2t b2r

end Cert.Spec

end
-- ==== Proof.KI.Value0.lean ====
/-
  The first dense layer's output array once its region has run.

  Each of the ten grid points holds a tile of 1000 rows of x, the whole [128, 128] weight (read as wt[k, c]) and
  the [1, 128] bias row; what it writes back is, entry (p, q) of the tile, the sum over k of x[p, k] · wt[k, q]
  plus the bias at q.  The tiles partition the 10000 rows, so the array ends holding the dense layer of the
  whole x, index by index.
-/
import proofs.«111429_g56848187130529_cont_sun_m_287_2_alg».proof.Proof.KI.Region0
import proofs.«111429_g56848187130529_cont_sun_m_287_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The tile product at an entry -/

/-- The left operand's row coordinate is the output's row. -/
theorem lhs_lin_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

/-- The left operand's column coordinate is the contraction position. -/
theorem lhs_lin_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

/-- The right operand's row coordinate is the contraction position. -/
theorem rhs_lin_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

/-- The right operand's column coordinate is the output's column. -/
theorem rhs_lin_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- A tile times the weight, accumulated from zero, at entry (p, q): the sum over k of x[p, k] · w[k, q]. -/
theorem tileProd_apply (x : FVec Ideal S1000x128 .f32) (w : FVec Ideal S128x128 .f32) (p : Fin 1000) (q : Fin 128) :
    matmul dot_S1000x128_S128x128_S1000x128_1_0_0_1_n_n none x w (constant (F := Ideal) S1000x128 .f32 0x00000000#32) (ix2 p q)
      = ∑ k : Fin 128, x (ix2 p k) * w (ix2 k q) := by
  simp only [matmul]
  rw [Ideal.matmul_constant_zero_apply,
    ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q)
      ((contrEquiv1 dot_S1000x128_S128x128_S1000x128_1_0_0_1_n_n 128 rfl rfl).symm k) = ix2 p k :=
    funext fun a => Fin.ext (by
      match a with
      | ⟨0, _⟩ => exact lhs_lin_0 _ _
      | ⟨1, _⟩ => exact (lhs_lin_1 _ _).trans hk)
  have er : dot_S1000x128_S128x128_S1000x128_1_0_0_1_n_n.rhsIdx (ix2 p q)
      ((contrEquiv1 dot_S1000x128_S128x128_S1000x128_1_0_0_1_n_n 128 rfl rfl).symm k) = ix2 k q :=
    funext fun a => Fin.ext (by
      match a with
      | ⟨0, _⟩ => exact (rhs_lin_0 _ _).trans hk
      | ⟨1, _⟩ => exact rhs_lin_1 _ _)
  rw [el, er]

/-- The bias row spread over the tile's rows, at entry (p, q): the row's entry q. -/
theorem biasRows_apply (b : FVec Ideal S1x128 .f32) (p : Fin 1000) (q : Fin 128) :
    broadcastTo S1000x128 b broadcasts_S1x128_S1000x128 (ix2 p q) = b (ix2 0 q) := by
  refine broadcastTo_apply b broadcasts_S1x128_S1000x128 (ix2 p q) (ix2 0 q) (fun a => ?_)
  match a with
  | ⟨0, _⟩ => rfl
  | ⟨1, _⟩ => rfl

/-- What the body stores, at entry (p, q) of the tile. -/
theorem pay0_apply (x : Vec Ideal S1000x128 .f32) (w : Vec Ideal S128x128 .f32) (b : Vec Ideal S1x128 .f32)
    (p : Fin 1000) (q : Fin 128) :
    k0_pay1 (F := Ideal) x w b (ix2 p q) = (∑ k : Fin 128, x (ix2 p k) * w (ix2 k q)) + b (ix2 0 q) := by
  unfold k0_pay1
  rw [shapeCast_self, shapeCast_self]
  show matmul dot_S1000x128_S128x128_S1000x128_1_0_0_1_n_n none x w (constant (F := Ideal) S1000x128 .f32 0x00000000#32) (ix2 p q)
      + broadcastTo S1000x128 b broadcasts_S1x128_S1000x128 (ix2 p q) = _
  rw [tileProd_apply, biasRows_apply]

/-! ## From the tiles to the array -/

/-- The offsets of a whole-buffer access are all zero. -/
theorem zeroOff2 : (![0, 0] : Fin 2 → Nat) = fun _ => 0 :=
  funext fun a => by match a with | ⟨0, _⟩ => rfl | ⟨1, _⟩ => rfl

/-- The block index of each window at each grid point: x's and the output's tile is the point's number
    along the rows and the only one along the columns; the weight and the bias row are always block (0, 0). -/
theorem idx_lin : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A tile's stored entry (p, q) is the dense layer of the whole arrays at array index `i`, once the tile of x
    holds row `i 0` of x at p, the weight block is the whole weight, the bias block the whole row, and q is
    `i`'s column. -/
theorem tile_lin (X : FVec Ideal Cert.Spec.SND .f32) (W : FVec Ideal Cert.Spec.SDD .f32) (B : FVec Ideal Cert.Spec.S1D .f32)
    (x : Vec Ideal S1000x128 .f32) (w : Vec Ideal S128x128 .f32) (b : Vec Ideal S1x128 .f32)
    (i : Cert.Spec.SND.Idx) (p : Fin 1000) (q : Fin 128)
    (hx : ∀ k : Fin 128, x (ix2 p k) = X (ix2 (i 0) k))
    (hw : ∀ k : Fin 128, w (ix2 k q) = W (ix2 k (i 1)))
    (hb : b (ix2 0 q) = B (ix2 0 (i 1))) :
    k0_pay1 (F := Ideal) x w b (ix2 p q) = Cert.Spec.lin X W B i := by
  rw [pay0_apply, hb]
  show _ = (∑ k : Fin 128, X (ix2 (i 0) k) * W (ix2 k (i 1))) + B (ix2 0 (i 1))
  exact congrArg (· + B (ix2 0 (i 1))) (Finset.sum_congr rfl fun k _ => by rw [hx k, hw k])

/-- The same at any index `J` of the tile, its two coordinates named. -/
theorem tile_lin_at (X : FVec Ideal Cert.Spec.SND .f32) (W : FVec Ideal Cert.Spec.SDD .f32) (B : FVec Ideal Cert.Spec.S1D .f32)
    (x : Vec Ideal S1000x128 .f32) (w : Vec Ideal S128x128 .f32) (b : Vec Ideal S1x128 .f32)
    (i : Cert.Spec.SND.Idx) (J : S1000x128.Idx)
    (hx : ∀ k : Fin 128, x (ix2 (J 0) k) = X (ix2 (i 0) k))
    (hw : ∀ k : Fin 128, w (ix2 k (J 1)) = W (ix2 k (i 1)))
    (hb : b (ix2 0 (J 1)) = B (ix2 0 (i 1))) :
    k0_pay1 (F := Ideal) x w b J = Cert.Spec.lin X W B i :=
  (congrArg (k0_pay1 (F := Ideal) x w b) (eq_ix2 J)).trans (tile_lin X W B x w b i (J 0) (J 1) hx hw hb)

/-- What grid point `t` writes back is tile `t` of the dense layer of the whole arrays. -/
theorem flushed0_eq (c : Dev nD) (t : Fin cfg0.N) :
    (dat0 (F := Ideal) V c).flushed 3 t = ((cfg0.win 3).blk t).view.read (Elt Ideal)
      (Cert.Spec.lin (V c main_arg0) (V c main_v0) (V c main_v2)) := by
  show (cfg0.win 3).cut (grid0.coords t) ((dat0 (F := Ideal) V c).after 3 t) = _
  rw [after0_3]
  unfold out0_3
  rw [View.canon_unit_zero zeroOff2]
  simp only [View.ld_unit_zero (S := S1000x128) zeroOff2, View.ld_unit_zero (S := S128x128) zeroOff2,
    View.ld_unit_zero (S := S1x128) zeroOff2]
  obtain ⟨e00, e01, e10, e11, e20, e21, e30, e31⟩ := idx_lin t
  funext j
  show k0_pay1 (F := Ideal) (iblk0 V c 0 t) (iblk0 V c 1 t) (iblk0 V c 2 t) j
      = Cert.Spec.lin (V c main_arg0) (V c main_v0) (V c main_v2) (((cfg0.win 3).blk t).view.emb j)
  refine tile_lin_at (V c main_arg0) (V c main_v0) (V c main_v2) (iblk0 V c 0 t) (iblk0 V c 1 t) (iblk0 V c 2 t)
    (((cfg0.win 3).blk t).view.emb j) j (fun k => ?_) (fun k => ?_) ?_
  · -- row (tile t, p) of the x tile is row 1000·t + p of x
    show V c main_arg0 (((cfg0.win 0).blk t).view.emb (ix2 (j 0) k))
        = V c main_arg0 (ix2 ((((cfg0.win 3).blk t).view.emb j) 0) k)
    refine congrArg (V c main_arg0) (funext fun a => Fin.ext ?_)
    match a with
    | ⟨0, _⟩ =>
      show win0_0.index t (0 : Fin 2) * 1000 + 1 * (j 0).val = win0_3.index t (0 : Fin 2) * 1000 + 1 * (j 0).val
      omega
    | ⟨1, _⟩ =>
      show win0_0.index t (1 : Fin 2) * 128 + 1 * k.val = k.val
      omega
  · -- the weight block is the whole weight
    show V c main_v0 (((cfg0.win 1).blk t).view.emb (ix2 k (j 1)))
        = V c main_v0 (ix2 k ((((cfg0.win 3).blk t).view.emb j) 1))
    refine congrArg (V c main_v0) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  · -- the bias block is the whole row
    show V c main_v2 (((cfg0.win 2).blk t).view.emb (ix2 0 (j 1)))
        = V c main_v2 (ix2 0 ((((cfg0.win 3).blk t).view.emb j) 1))
    refine congrArg (V c main_v2) (funext fun a => Fin.ext ?_)
    match a with
    | ⟨0, _⟩ =>
      show win0_2.index t (0 : Fin 2) * 1 + 1 * 0 = 0
      omega
    | ⟨1, _⟩ =>
      show win0_2.index t (1 : Fin 2) * 128 + 1 * (j 1).val = win0_3.index t (1 : Fin 2) * 128 + 1 * (j 1).val
      omega

/-- An index of the array lies in point `t`'s tile iff each coordinate lies in the tile's range on its axis. -/
theorem mem_tile0 (t : Fin cfg0.N) (i : S10000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v7).slice (win0_3.rect t)).set ↔ _
  rw [View.set_slice_whole, Rect.mem_set_unit]
  exact Iff.rfl

/-- Every index of the array lies in the tile of the point numbered by its row divided by 1000. -/
theorem cover0 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : grid0.N = 10 := N_0
  have ht : (i 0).val / 1000 < cfg0.N := by show (i 0).val / 1000 < grid0.N; omega
  obtain ⟨-, -, -, -, -, -, e30, e31⟩ := idx_lin ⟨(i 0).val / 1000, ht⟩
  refine ⟨⟨(i 0).val / 1000, ht⟩, flush0_3 _, ?_⟩
  rw [mem_tile0]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    have e : win0_3.index ⟨(i 0).val / 1000, ht⟩ (0 : Fin 2) = (i 0).val / 1000 := e30
    omega
  | ⟨1, _⟩ =>
    show win0_3.index ⟨(i 0).val / 1000, ht⟩ (1 : Fin 2) * 128 ≤ (i 1).val
      ∧ (i 1).val < win0_3.index ⟨(i 0).val / 1000, ht⟩ (1 : Fin 2) * 128 + 128
    omega

/-! ## The array -/

/-- After the region the first dense layer's output array is the dense layer of x, the weight read as
    wt[k, c], and the bias row: entry (r, c) is Σ_k x[r, k] · wt[k, c] + b[0, c]. -/
theorem arr0 (c : Dev nD) :
    (dat0 (F := Ideal) V c).arrAt 3 cfg0.N = Cert.Spec.lin (V c main_arg0) (V c main_v0) (V c main_v2) :=
  (dat0 (F := Ideal) V c).arrAt_eq_of_cover 3 (Cert.Spec.lin (V c main_arg0) (V c main_v0) (V c main_v2))
    (fun t _ => flushed0_eq V c t) cover0

end Cert.KernelIdeal.Fr

end
-- ==== Proof.KI.Value1.lean ====
/-
  What the aggregation region leaves in its three output arrays, read as whole-array functions of the arrays
  it finds.

  The region walks 25 row tiles of 400 nodes. At tile t the body forms, for each of the tile's rows p and each
  feature q, the row's weighted sum of the first layer's output divided by the row's degree, plus the self weight
  times the node's own feature:

      (Σ_k adj[400·t + p, k] · h1[k, q]) / (Σ_k adj[400·t + p, k]) + e · h1[400·t + p, q].

  That is entry (400·t + p, q) of the aggregated features `agg adj h1 e`: the adjacency's tile holds rows
  400·t … 400·t + 399 of the adjacency, the two windows on the first layer's output read the same array (one whole,
  one by tile), and the self weight is one cell. Every point writes its tile back and the 25 tiles cover the
  10000 rows, so the first output array ends holding `agg adj h1 e`.

  The other two outputs are one row each: per feature, the sum and the sum of squares of the aggregated features
  over all nodes. They are carried: the first point stores the tile's column sums, each later point adds its
  tile's to what the point before left. By induction on the point, after point n the rows hold the sums over
  nodes 0 … 400·(n + 1) − 1; after the last point, over all 10000. Only the last point writes the rows back, and
  its block is the whole [1, 128] array. Addition on the extended reals is associative and commutative with 0 as
  unit, infinities included, so splitting and joining the sums needs no finiteness of the entries.
-/
import proofs.«111429_g56848187130529_cont_sun_m_287_2_alg».proof.Proof.KI.Region1
import proofs.«111429_g56848187130529_cont_sun_m_287_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Fr
open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

namespace Agg

/-! ## The matrix product's operand indices, axis by axis -/

theorem mm_lhs_0 (j : S400x128.Idx) (k : dot_S400x10000_S10000x128_S400x128_1_0_0_1_n_n.contr.Idx) :
    (dot_S400x10000_S10000x128_S400x128_1_0_0_1_n_n.lhsIdx j k 0).val = (j 0).val := rfl
theorem mm_lhs_1 (j : S400x128.Idx) (k : dot_S400x10000_S10000x128_S400x128_1_0_0_1_n_n.contr.Idx)
    (h : 0 < dot_S400x10000_S10000x128_S400x128_1_0_0_1_n_n.contr.rank) :
    (dot_S400x10000_S10000x128_S400x128_1_0_0_1_n_n.lhsIdx j k 1).val = (k ⟨0, h⟩).val :=
  DotDims.lhsIdx_val_of_single (d := dot_S400x10000_S10000x128_S400x128_1_0_0_1_n_n) (cl := 1) rfl j k
theorem mm_rhs_0 (j : S400x128.Idx) (k : dot_S400x10000_S10000x128_S400x128_1_0_0_1_n_n.contr.Idx)
    (h : 0 < dot_S400x10000_S10000x128_S400x128_1_0_0_1_n_n.contr.rank) :
    (dot_S400x10000_S10000x128_S400x128_1_0_0_1_n_n.rhsIdx j k 0).val = (k ⟨0, h⟩).val :=
  DotDims.rhsIdx_val_of_single (d := dot_S400x10000_S10000x128_S400x128_1_0_0_1_n_n) (cr := 0) rfl j k
theorem mm_rhs_1 (j : S400x128.Idx) (k : dot_S400x10000_S10000x128_S400x128_1_0_0_1_n_n.contr.Idx) :
    (dot_S400x10000_S10000x128_S400x128_1_0_0_1_n_n.rhsIdx j k 1).val = (j 1).val := rfl

/-- The product of a 400 × 10000 block with a 10000 × 128 array, accumulated into zero, at entry (p, q):
    the sum over the 10000 inner positions of the products. -/
theorem mm_apply (x0 : FVec Ideal S400x10000 .f32) (x1 : FVec Ideal S10000x128 .f32) (p : Fin 400) (q : Fin 128) :
    matmul dot_S400x10000_S10000x128_S400x128_1_0_0_1_n_n none x0 x1 (constant (F := Ideal) S400x128 .f32 0x00000000#32) (ix2 p q)
      = ∑ k : Fin 10000, x0 (ix2 p k) * x1 (ix2 k q) := by
  refine (Ideal.matmul_constant_zero_apply dot_S400x10000_S10000x128_S400x128_1_0_0_1_n_n none x0 x1 (ix2 p q)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  refine congrArg₂ (· * ·) (congrArg x0 (Shape.idx_ext₂ ?_ ?_)) (congrArg x1 (Shape.idx_ext₂ ?_ ?_))
  · exact mm_lhs_0 _ _
  · exact (mm_lhs_1 _ _ _).trans hk
  · exact (mm_rhs_0 _ _ _).trans hk
  · exact mm_rhs_1 _ _

/-- A row's sum: the add-reduction of a 400 × 10000 block along its columns, at row p. -/
theorem rowsum_apply (x0 : FVec Ideal S400x10000 .f32) (hφ : FKind.Formats .f32)
    (hacc : (0x00000000#32 : BitVec 32) = FKind.add.neutral .f32 hφ) (p : Fin 400) :
    multiReduction (F := Ideal) .add [1] S400 x0 0x00000000#32 reduces_S400x10000_S400 hφ hacc (ix1 p)
      = ∑ k : Fin 10000, x0 (ix2 p k) := by
  refine (Ideal.multiReduction_add_single x0 0x00000000#32 reduces_S400x10000_S400 hφ hacc (ix1 p)).trans ?_
  refine Finset.sum_congr rfl fun k _ => congrArg x0 (Shape.idx_ext₂ ?_ ?_)
  · rfl
  · rfl

/-- The aggregated tile at entry (p, q): the row's product sum divided by the row's sum, plus the self weight
    times the tile's own entry. -/
theorem pay1_apply (x0 : FVec Ideal S400x10000 .f32) (x1 : FVec Ideal S10000x128 .f32) (x3 : FVec Ideal S1x1 .f32)
    (x2 : FVec Ideal S400x128 .f32) (p : Fin 400) (q : Fin 128) :
    k1_pay1 (F := Ideal) x0 x1 x3 x2 (ix2 p q)
      = Ideal.div (∑ k : Fin 10000, x0 (ix2 p k) * x1 (ix2 k q)) (∑ k : Fin 10000, x0 (ix2 p k))
          + x3 (ix2 0 0) * x2 (ix2 p q) := by
  unfold k1_pay1
  refine congrArg₂ (· + ·) (congrArg₂ Ideal.div ?_ ?_) (congrArg₂ (· * ·) ?_ ?_)
  · rw [shapeCast_self]
    exact mm_apply x0 x1 p q
  · refine (broadcastTo_apply _ broadcasts_S400x1_S400x128 (ix2 p q) (ix2 p (0 : Fin 1)) ?_).trans ?_
    · intro a
      match a with
      | ⟨0, _⟩ => rfl
      | ⟨1, _⟩ => rfl
    refine (shapeCast_apply _ shapeCasts_S400_S400x1 (ix2 p (0 : Fin 1)) (ix1 p) ?_).trans ?_
    · rw [Shape.rowMajor_val_one, Shape.rowMajor_val_two]
      show p.val = p.val * 1 + 0
      omega
    exact rowsum_apply x0 _ _ p
  · exact congrArg x3 (Shape.idx_ext₂ rfl rfl)
  · exact congrFun (shapeCast_self x2 _) (ix2 p q)

/-! ## The blocks the body reads, and the arrays they are cut from -/

theorem hz : (![0, 0] : Fin 2 → Nat) = fun _ => 0 := funext fun a => by
  match a with
  | ⟨0, _⟩ => rfl
  | ⟨1, _⟩ => rfl

/-- The adjacency's rows of tile t. -/
abbrev adjB (c : Dev nD) (t : Fin cfg1.N) : FVec Ideal S400x10000 .f32 := iblk1 V c 0 t
/-- The first layer's output, whole, as point t sees it. -/
abbrev h1W (c : Dev nD) (t : Fin cfg1.N) : FVec Ideal S10000x128 .f32 := iblk1 V c 1 t
/-- The first layer's output, rows of tile t. -/
abbrev h1B (c : Dev nD) (t : Fin cfg1.N) : FVec Ideal S400x128 .f32 := iblk1 V c 2 t
/-- The self weight's cell as point t sees it. -/
abbrev epsB (c : Dev nD) (t : Fin cfg1.N) : FVec Ideal S1x1 .f32 := iblk1 V c 3 t
/-- The adjacency, the first layer's output and the self weight as the region finds them. -/
abbrev adjA (c : Dev nD) : FVec Ideal Cert.Spec.SNN .f32 := V c main_arg1
abbrev h1A (c : Dev nD) : FVec Ideal Cert.Spec.SND .f32 := V c main_v7
abbrev epsA (c : Dev nD) : FVec Ideal Cert.Spec.S11 .f32 := V c main_v6
/-- The aggregated features, whole. -/
abbrev aggA (c : Dev nD) : FVec Ideal Cert.Spec.SND .f32 := Cert.Spec.agg (adjA V c) (h1A V c) (epsA V c)

/-- The block index of every window at every point: the row-tiled windows sit at block row t, the others at 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row p of the adjacency's tile t is row 400·t + p of the adjacency. -/
theorem adjB_apply (c : Dev nD) (t : Fin cfg1.N) (p : Fin 400) (k : Fin 10000) (r : Fin 10000)
    (hr : r.val = 400 * t.val + p.val) : adjB V c t (ix2 p k) = adjA V c (ix2 r k) := by
  obtain ⟨e0, e1, -⟩ := idx_facts1 t
  show V c main_arg1 (((cfg1.win 0).blk t).view.emb (ix2 p k)) = V c main_arg1 (ix2 r k)
  refine congrArg (V c main_arg1) ?_
  funext a; apply Fin.ext
  match a with
  | ⟨0, _⟩ => show win1_0.index t (0 : Fin 2) * 400 + 1 * p.val = r.val; omega
  | ⟨1, _⟩ => show win1_0.index t (1 : Fin 2) * 10000 + 1 * k.val = k.val; omega

/-- The whole-array window reads the array itself. -/
theorem h1W_apply (c : Dev nD) (t : Fin cfg1.N) (k : Fin 10000) (q : Fin 128) :
    h1W V c t (ix2 k q) = h1A V c (ix2 k q) := by
  obtain ⟨-, -, e0, e1, -⟩ := idx_facts1 t
  show V c main_v7 (((cfg1.win 1).blk t).view.emb (ix2 k q)) = V c main_v7 (ix2 k q)
  refine congrArg (V c main_v7) ?_
  funext a; apply Fin.ext
  match a with
  | ⟨0, _⟩ => show win1_1.index t (0 : Fin 2) * 10000 + 1 * k.val = k.val; omega
  | ⟨1, _⟩ => show win1_1.index t (1 : Fin 2) * 128 + 1 * q.val = q.val; omega

/-- Row p of the first layer's tile t is row 400·t + p of the same array. -/
theorem h1B_apply (c : Dev nD) (t : Fin cfg1.N) (p : Fin 400) (q : Fin 128) (r : Fin 10000)
    (hr : r.val = 400 * t.val + p.val) : h1B V c t (ix2 p q) = h1A V c (ix2 r q) := by
  obtain ⟨-, -, -, -, e0, e1, -⟩ := idx_facts1 t
  show V c main_v7 (((cfg1.win 2).blk t).view.emb (ix2 p q)) = V c main_v7 (ix2 r q)
  refine congrArg (V c main_v7) ?_
  funext a; apply Fin.ext
  match a with
  | ⟨0, _⟩ => show win1_2.index t (0 : Fin 2) * 400 + 1 * p.val = r.val; omega
  | ⟨1, _⟩ => show win1_2.index t (1 : Fin 2) * 128 + 1 * q.val = q.val; omega

/-- The self weight's one cell. -/
theorem epsB_apply (c : Dev nD) (t : Fin cfg1.N) : epsB V c t (ix2 0 0) = epsA V c (ix2 0 0) := by
  obtain ⟨-, -, -, -, -, -, e0, e1, -⟩ := idx_facts1 t
  show V c main_v6 (((cfg1.win 3).blk t).view.emb (ix2 0 0)) = V c main_v6 (ix2 0 0)
  refine congrArg (V c main_v6) ?_
  funext a; apply Fin.ext
  match a with
  | ⟨0, _⟩ => show win1_3.index t (0 : Fin 2) * 1 + 1 * 0 = 0; omega
  | ⟨1, _⟩ => show win1_3.index t (1 : Fin 2) * 1 + 1 * 0 = 0; omega

/-- THE TILE: what the body computes at point t, entry (p, q), is the aggregated features at row 400·t + p. -/
theorem tile_apply (c : Dev nD) (t : Fin cfg1.N) (p : Fin 400) (q : Fin 128) (r : Fin 10000)
    (hr : r.val = 400 * t.val + p.val) :
    k1_pay1 (F := Ideal) (adjB V c t) (h1W V c t) (epsB V c t) (h1B V c t) (ix2 p q) = aggA V c (ix2 r q) := by
  refine (pay1_apply (adjB V c t) (h1W V c t) (epsB V c t) (h1B V c t) p q).trans ?_
  show _ = Ideal.div (∑ k : Fin 10000, adjA V c (ix2 r k) * h1A V c (ix2 k q)) (∑ k : Fin 10000, adjA V c (ix2 r k))
      + epsA V c (ix2 0 0) * h1A V c (ix2 r q)
  exact congrArg₂ (· + ·)
    (congrArg₂ Ideal.div
      (Finset.sum_congr rfl fun k _ => congrArg₂ (· * ·) (adjB_apply V c t p k r hr) (h1W_apply V c t k q))
      (Finset.sum_congr rfl fun k _ => adjB_apply V c t p k r hr))
    (congrArg₂ (· * ·) (epsB_apply V c t) (h1B_apply V c t p q r hr))

/-! ## The aggregated features: every point writes its tile back, and the tiles cover the array -/

/-- The one store of the tile leaves its payload, read from the whole buffers. -/
theorem out4_eq (x0 : FVec Ideal S400x10000 .f32) (x1 : FVec Ideal S10000x128 .f32) (x2 : FVec Ideal S400x128 .f32)
    (x3 : FVec Ideal S1x1 .f32) : out1_4 (F := Ideal) x0 x1 x2 x3 = k1_pay1 (F := Ideal) x0 x1 x3 x2 := by
  unfold out1_4
  rw [View.canon_unit_zero hz]
  simp only [View.ld_unit_zero (S := S400x10000) hz, View.ld_unit_zero (S := S10000x128) hz,
    View.ld_unit_zero (S := S1x1) hz, View.ld_unit_zero (S := S400x128) hz]

/-- What point t writes back is rows 400·t … 400·t + 399 of the aggregated features. -/
theorem flushed4_eq (c : Dev nD) (t : Fin cfg1.N) :
    (dat1 V c).flushed 4 t = ((cfg1.win 4).blk t).view.read (Elt Ideal) (aggA V c) := by
  show (cfg1.win 4).cut (grid1.coords t) ((dat1 V c).after 4 t) = _
  rw [after1_4]
  funext j
  obtain ⟨p, q, rfl⟩ : ∃ (p : Fin 400) (q : Fin 128), j = ix2 p q := ⟨j 0, j 1, eq_ix2 (n0 := 400) (n1 := 128) j⟩
  have hN : cfg1.N = 25 := N_1
  have hp := p.isLt
  have ht := t.isLt
  obtain ⟨-, -, -, -, -, -, -, -, e0, e1, -⟩ := idx_facts1 t
  have hemb : ((cfg1.win 4).blk t).view.emb (ix2 p q) = ix2 (⟨400 * t.val + p.val, by omega⟩ : Fin 10000) q := by
    funext a; apply Fin.ext
    match a with
    | ⟨0, _⟩ => show win1_4.index t (0 : Fin 2) * 400 + 1 * p.val = 400 * t.val + p.val; omega
    | ⟨1, _⟩ => show win1_4.index t (1 : Fin 2) * 128 + 1 * q.val = q.val; omega
  show out1_4 (F := Ideal) (adjB V c t) (h1W V c t) (h1B V c t) (epsB V c t) (ix2 p q)
    = aggA V c (((cfg1.win 4).blk t).view.emb (ix2 p q))
  rw [hemb, out4_eq]
  exact tile_apply V c t p q _ rfl

/-- An index of the array is in point t's block iff each coordinate is in the block's range on its axis. -/
theorem mem_blk4 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v8_0).slice (win1_4.rect t)).set ↔ _
  rw [View.set_slice_whole, Rect.mem_set_unit]
  exact Iff.rfl

/-- Row r lies in the tile of point r / 400. -/
theorem cover4 (i : S10000x128.Idx) :
    ∃ t : Fin cfg1.N, (cfg1.win 4).flush t = true ∧ i ∈ ((cfg1.win 4).blk t).view.set := by
  have hN : cfg1.N = 25 := N_1
  have hi0 : (i 0).val < 10000 := (i 0).isLt
  have hi1 : (i 1).val < 128 := (i 1).isLt
  obtain ⟨t, ht⟩ : ∃ t : Fin cfg1.N, t.val = (i 0).val / 400 := ⟨⟨(i 0).val / 400, by rw [hN]; omega⟩, rfl⟩
  refine ⟨t, flush1_4 t, ?_⟩
  rw [mem_blk4]
  obtain ⟨-, -, -, -, -, -, -, -, e0, e1, -⟩ := idx_facts1 t
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 128 ≤ (i 1).val ∧ (i 1).val < win1_4.index t (1 : Fin 2) * 128 + 128
    omega

/-! ## The two moment rows: carried from point to point, written back once -/

/-- What each store of a moment row leaves is its payload, read from the whole buffers. -/
theorem outA5_eq (x0 : FVec Ideal S400x10000 .f32) (x1 : FVec Ideal S10000x128 .f32) (x2 : FVec Ideal S400x128 .f32)
    (x3 : FVec Ideal S1x1 .f32) : outA1_5 (F := Ideal) x0 x1 x2 x3 = k1_pay2 (F := Ideal) x0 x1 x3 x2 := by
  unfold outA1_5
  rw [View.canon_unit_zero hz]
  simp only [View.ld_unit_zero (S := S400x10000) hz, View.ld_unit_zero (S := S10000x128) hz,
    View.ld_unit_zero (S := S1x1) hz, View.ld_unit_zero (S := S400x128) hz]
theorem outA6_eq (x0 : FVec Ideal S400x10000 .f32) (x1 : FVec Ideal S10000x128 .f32) (x2 : FVec Ideal S400x128 .f32)
    (x3 : FVec Ideal S1x1 .f32) : outA1_6 (F := Ideal) x0 x1 x2 x3 = k1_pay3 (F := Ideal) x0 x1 x3 x2 := by
  unfold outA1_6
  rw [View.canon_unit_zero hz]
  simp only [View.ld_unit_zero (S := S400x10000) hz, View.ld_unit_zero (S := S10000x128) hz,
    View.ld_unit_zero (S := S1x1) hz, View.ld_unit_zero (S := S400x128) hz]
theorem outB5_eq (x0 : FVec Ideal S400x10000 .f32) (x1 : FVec Ideal S10000x128 .f32) (x2 : FVec Ideal S400x128 .f32)
    (x3 : FVec Ideal S1x1 .f32) (prev : FVec Ideal S1x128 .f32) :
    outB1_5 (F := Ideal) x0 x1 x2 x3 prev = k1_pay4 (F := Ideal) x0 x1 x3 x2 prev := by
  unfold outB1_5
  rw [View.canon_unit_zero hz]
  simp only [View.ld_unit_zero (S := S400x10000) hz, View.ld_unit_zero (S := S10000x128) hz,
    View.ld_unit_zero (S := S1x1) hz, View.ld_unit_zero (S := S400x128) hz, View.ld_unit_zero (S := S1x128) hz]
theorem outB6_eq (x0 : FVec Ideal S400x10000 .f32) (x1 : FVec Ideal S10000x128 .f32) (x2 : FVec Ideal S400x128 .f32)
    (x3 : FVec Ideal S1x1 .f32) (prev : FVec Ideal S1x128 .f32) :
    outB1_6 (F := Ideal) x0 x1 x2 x3 prev = k1_pay5 (F := Ideal) x0 x1 x3 x2 prev := by
  unfold outB1_6
  rw [View.canon_unit_zero hz]
  simp only [View.ld_unit_zero (S := S400x10000) hz, View.ld_unit_zero (S := S10000x128) hz,
    View.ld_unit_zero (S := S1x1) hz, View.ld_unit_zero (S := S400x128) hz, View.ld_unit_zero (S := S1x128) hz]

/-- A column's sum: the add-reduction of a 400 × 128 tile along its rows, at column q. -/
theorem colsum_apply (y : FVec Ideal S400x128 .f32) (hφ : FKind.Formats .f32)
    (hacc : (0x00000000#32 : BitVec 32) = FKind.add.neutral .f32 hφ) (q : Fin 128) :
    multiReduction (F := Ideal) .add [0] S128 y 0x00000000#32 reduces_S400x128_S128 hφ hacc (ix1 q)
      = ∑ j : Fin 400, y (ix2 j q) := by
  refine (Ideal.multiReduction_add_single y 0x00000000#32 reduces_S400x128_S128 hφ hacc (ix1 q)).trans ?_
  refine Finset.sum_congr rfl fun k _ => congrArg y (Shape.idx_ext₂ ?_ ?_)
  · rfl
  · rfl

/-- The tile's column sums, as a row. -/
theorem pay2_apply (x0 : FVec Ideal S400x10000 .f32) (x1 : FVec Ideal S10000x128 .f32) (x3 : FVec Ideal S1x1 .f32)
    (x2 : FVec Ideal S400x128 .f32) (u : Fin 1) (q : Fin 128) :
    k1_pay2 (F := Ideal) x0 x1 x3 x2 (ix2 u q) = ∑ j : Fin 400, k1_pay1 (F := Ideal) x0 x1 x3 x2 (ix2 j q) := by
  unfold k1_pay2
  refine (shapeCast_a_1a_apply _ shapeCasts_S128_S1x128 u q).trans ?_
  exact colsum_apply _ _ _ q

/-- The tile's column sums of squares, as a row. -/
theorem pay3_apply (x0 : FVec Ideal S400x10000 .f32) (x1 : FVec Ideal S10000x128 .f32) (x3 : FVec Ideal S1x1 .f32)
    (x2 : FVec Ideal S400x128 .f32) (u : Fin 1) (q : Fin 128) :
    k1_pay3 (F := Ideal) x0 x1 x3 x2 (ix2 u q)
      = ∑ j : Fin 400, k1_pay1 (F := Ideal) x0 x1 x3 x2 (ix2 j q) * k1_pay1 (F := Ideal) x0 x1 x3 x2 (ix2 j q) := by
  unfold k1_pay3
  refine (shapeCast_a_1a_apply _ shapeCasts_S128_S1x128 u q).trans ?_
  exact (colsum_apply _ _ _ q).trans (Finset.sum_congr rfl fun j _ => rfl)

/-- A later point adds the tile's column sums to what the point before left. -/
theorem pay4_apply (x0 : FVec Ideal S400x10000 .f32) (x1 : FVec Ideal S10000x128 .f32) (x3 : FVec Ideal S1x1 .f32)
    (x2 : FVec Ideal S400x128 .f32) (prev : FVec Ideal S1x128 .f32) (u : Fin 1) (q : Fin 128) :
    k1_pay4 (F := Ideal) x0 x1 x3 x2 prev (ix2 u q) = prev (ix2 u q) + k1_pay2 (F := Ideal) x0 x1 x3 x2 (ix2 u q) := by
  unfold k1_pay4
  rw [shapeCast_self]
  rfl
theorem pay5_apply (x0 : FVec Ideal S400x10000 .f32) (x1 : FVec Ideal S10000x128 .f32) (x3 : FVec Ideal S1x1 .f32)
    (x2 : FVec Ideal S400x128 .f32) (prev : FVec Ideal S1x128 .f32) (u : Fin 1) (q : Fin 128) :
    k1_pay5 (F := Ideal) x0 x1 x3 x2 prev (ix2 u q) = prev (ix2 u q) + k1_pay3 (F := Ideal) x0 x1 x3 x2 (ix2 u q) := by
  unfold k1_pay5
  rw [shapeCast_self]
  rfl

/-- The aggregated features at row r, column q, for every natural r (zero past the last row): the rows are then
    summed over ranges of naturals, with no bound to carry. -/
def rowH (c : Dev nD) (r : ℕ) (q : Fin 128) : EReal :=
  if h : r < 10000 then aggA V c (ix2 (⟨r, h⟩ : Fin 10000) q) else 0

/-- Entry (p, q) of the tile of point t is the aggregated features at row 400·t + p. -/
theorem tile_row (c : Dev nD) (t : Fin cfg1.N) (p : Fin 400) (q : Fin 128) :
    k1_pay1 (F := Ideal) (adjB V c t) (h1W V c t) (epsB V c t) (h1B V c t) (ix2 p q) = rowH V c (400 * t.val + p.val) q := by
  have hN : cfg1.N = 25 := N_1
  have hp := p.isLt
  have ht := t.isLt
  unfold rowH
  rw [dif_pos (show 400 * t.val + p.val < 10000 by omega)]
  exact tile_apply V c t p q _ rfl

/-- The tile's column sums are the sums of rows 400·t … 400·t + 399. -/
theorem tile_sum (c : Dev nD) (t : Fin cfg1.N) (u : Fin 1) (q : Fin 128) :
    k1_pay2 (F := Ideal) (adjB V c t) (h1W V c t) (epsB V c t) (h1B V c t) (ix2 u q)
      = ∑ x ∈ Finset.range 400, rowH V c (400 * t.val + x) q := by
  rw [pay2_apply, Finset.sum_range]
  exact Finset.sum_congr rfl fun j _ => tile_row V c t j q
theorem tile_sumSq (c : Dev nD) (t : Fin cfg1.N) (u : Fin 1) (q : Fin 128) :
    k1_pay3 (F := Ideal) (adjB V c t) (h1W V c t) (epsB V c t) (h1B V c t) (ix2 u q)
      = ∑ x ∈ Finset.range 400, rowH V c (400 * t.val + x) q * rowH V c (400 * t.val + x) q := by
  rw [pay3_apply, Finset.sum_range]
  exact Finset.sum_congr rfl fun j _ => by rw [tile_row V c t j q]

/-- THE INVARIANT: after point n the two rows hold, at column q, the sum and the sum of squares of the aggregated
    features over rows 0 … 400·(n + 1) − 1. Addition on the extended reals is a commutative monoid, so the sums
    split and join with no finiteness asked. -/
theorem sums_inv (c : Dev nD) : ∀ (n : ℕ) (hn : n < cfg1.N) (u : Fin 1) (q : Fin 128),
    (outsAt1 V c n hn).1 (ix2 u q) = ∑ r ∈ Finset.range (400 * (n + 1)), rowH V c r q
    ∧ (outsAt1 V c n hn).2 (ix2 u q) = ∑ r ∈ Finset.range (400 * (n + 1)), rowH V c r q * rowH V c r q
  | 0, hn, u, q => by
    rw [outsAt1_zero]
    dsimp only
    constructor
    · rw [outA5_eq]
      refine (tile_sum V c ⟨0, hn⟩ u q).trans ?_
      exact Finset.sum_congr rfl fun x _ => by rw [show 400 * (⟨0, hn⟩ : Fin cfg1.N).val + x = x from by show 400 * 0 + x = x; omega]
    · rw [outA6_eq]
      refine (tile_sumSq V c ⟨0, hn⟩ u q).trans ?_
      exact Finset.sum_congr rfl fun x _ => by rw [show 400 * (⟨0, hn⟩ : Fin cfg1.N).val + x = x from by show 400 * 0 + x = x; omega]
  | n + 1, hn, u, q => by
    obtain ⟨ih1, ih2⟩ := sums_inv c n (Nat.lt_of_succ_lt hn) u q
    rw [outsAt1_succ]
    dsimp only
    constructor
    · rw [outB5_eq, pay4_apply, ih1]
      rw [show 400 * (n + 1 + 1) = 400 * (n + 1) + 400 from by omega, Finset.sum_range_add]
      exact congrArg _ (tile_sum V c ⟨n + 1, hn⟩ u q)
    · rw [outB6_eq, pay5_apply, ih2]
      rw [show 400 * (n + 1 + 1) = 400 * (n + 1) + 400 from by omega, Finset.sum_range_add]
      exact congrArg _ (tile_sumSq V c ⟨n + 1, hn⟩ u q)

/-- The sums over all 10000 naturals below 10000 are the sums over the rows. -/
theorem sum_rowH (c : Dev nD) (q : Fin 128) :
    ∑ r ∈ Finset.range 10000, rowH V c r q = ∑ r : Fin 10000, aggA V c (ix2 r q) := by
  rw [Finset.sum_range]
  exact Finset.sum_congr rfl fun r _ => by unfold rowH; rw [dif_pos r.isLt]
theorem sum_rowH_sq (c : Dev nD) (q : Fin 128) :
    ∑ r ∈ Finset.range 10000, rowH V c r q * rowH V c r q = ∑ r : Fin 10000, aggA V c (ix2 r q) * aggA V c (ix2 r q) := by
  rw [Finset.sum_range]
  exact Finset.sum_congr rfl fun r _ => by unfold rowH; rw [dif_pos r.isLt]

/-! ## The one write-back of each moment row, at the last point, covers its whole array -/

theorem mem_blk5 (t : Fin cfg1.N) (i : S1x128.Idx) :
    i ∈ ((cfg1.win 5).blk t).view.set ↔ ∀ a : Fin 2, win1_5.index t a * S1x128.size a ≤ (i a).val
      ∧ (i a).val < win1_5.index t a * S1x128.size a + S1x128.size a := by
  show i ∈ ((View.whole main_v8_1).slice (win1_5.rect t)).set ↔ _
  rw [View.set_slice_whole, Rect.mem_set_unit]
  exact Iff.rfl
theorem mem_blk6 (t : Fin cfg1.N) (i : S1x128.Idx) :
    i ∈ ((cfg1.win 6).blk t).view.set ↔ ∀ a : Fin 2, win1_6.index t a * S1x128.size a ≤ (i a).val
      ∧ (i a).val < win1_6.index t a * S1x128.size a + S1x128.size a := by
  show i ∈ ((View.whole main_v8_2).slice (win1_6.rect t)).set ↔ _
  rw [View.set_slice_whole, Rect.mem_set_unit]
  exact Iff.rfl

/-- The point that writes the sum row back is the last; by then the row holds the sums over all 10000 rows. -/
theorem flushed5_eq (c : Dev nD) (t : Fin cfg1.N) (hf : (cfg1.win 5).flush t = true) :
    (dat1 V c).flushed 5 t = ((cfg1.win 5).blk t).view.read (Elt Ideal) (Cert.Spec.colSum (aggA V c)) := by
  have hN : cfg1.N = 25 := N_1
  have ht := t.isLt
  have h24 : t.val % 25 = 24 := (flush1_5 t).mp hf
  have e : 400 * (t.val + 1) = 10000 := by omega
  show (cfg1.win 5).cut (grid1.coords t) ((dat1 V c).after 5 t) = _
  rw [after1_5]
  funext j
  obtain ⟨u, q, rfl⟩ : ∃ (u : Fin 1) (q : Fin 128), j = ix2 u q := ⟨j 0, j 1, eq_ix2 (n0 := 1) (n1 := 128) j⟩
  obtain ⟨-, -, -, -, -, -, -, -, -, -, e0, e1, -⟩ := idx_facts1 t
  have hemb : ((cfg1.win 5).blk t).view.emb (ix2 u q) = ix2 u q := by
    funext a; apply Fin.ext
    match a with
    | ⟨0, _⟩ => show win1_5.index t (0 : Fin 2) * 1 + 1 * u.val = u.val; omega
    | ⟨1, _⟩ => show win1_5.index t (1 : Fin 2) * 128 + 1 * q.val = q.val; omega
  show (outsAt1 V c t.val t.isLt).1 (ix2 u q) = Cert.Spec.colSum (aggA V c) (((cfg1.win 5).blk t).view.emb (ix2 u q))
  rw [hemb, (sums_inv V c t.val t.isLt u q).1, e]
  exact sum_rowH V c q
theorem flushed6_eq (c : Dev nD) (t : Fin cfg1.N) (hf : (cfg1.win 6).flush t = true) :
    (dat1 V c).flushed 6 t = ((cfg1.win 6).blk t).view.read (Elt Ideal) (Cert.Spec.colSumSq (aggA V c)) := by
  have hN : cfg1.N = 25 := N_1
  have ht := t.isLt
  have h24 : t.val % 25 = 24 := (flush1_6 t).mp hf
  have e : 400 * (t.val + 1) = 10000 := by omega
  show (cfg1.win 6).cut (grid1.coords t) ((dat1 V c).after 6 t) = _
  rw [after1_6]
  funext j
  obtain ⟨u, q, rfl⟩ : ∃ (u : Fin 1) (q : Fin 128), j = ix2 u q := ⟨j 0, j 1, eq_ix2 (n0 := 1) (n1 := 128) j⟩
  obtain ⟨-, -, -, -, -, -, -, -, -, -, -, -, e0, e1⟩ := idx_facts1 t
  have hemb : ((cfg1.win 6).blk t).view.emb (ix2 u q) = ix2 u q := by
    funext a; apply Fin.ext
    match a with
    | ⟨0, _⟩ => show win1_6.index t (0 : Fin 2) * 1 + 1 * u.val = u.val; omega
    | ⟨1, _⟩ => show win1_6.index t (1 : Fin 2) * 128 + 1 * q.val = q.val; omega
  show (outsAt1 V c t.val t.isLt).2 (ix2 u q) = Cert.Spec.colSumSq (aggA V c) (((cfg1.win 6).blk t).view.emb (ix2 u q))
  rw [hemb, (sums_inv V c t.val t.isLt u q).2, e]
  exact sum_rowH_sq V c q

/-- Every index of a moment row's array is in the block the last point writes back. -/
theorem cover5 (i : S1x128.Idx) :
    ∃ t : Fin cfg1.N, (cfg1.win 5).flush t = true ∧ i ∈ ((cfg1.win 5).blk t).view.set := by
  have hN : cfg1.N = 25 := N_1
  have hi0 : (i 0).val < 1 := (i 0).isLt
  have hi1 : (i 1).val < 128 := (i 1).isLt
  obtain ⟨t, ht⟩ : ∃ t : Fin cfg1.N, t.val = 24 := ⟨⟨24, by rw [hN]; omega⟩, rfl⟩
  refine ⟨t, (flush1_5 t).mpr (by omega), ?_⟩
  rw [mem_blk5]
  obtain ⟨-, -, -, -, -, -, -, -, -, -, e0, e1, -⟩ := idx_facts1 t
  intro a
  match a with
  | ⟨0, _⟩ =>
    show win1_5.index t (0 : Fin 2) * 1 ≤ (i 0).val ∧ (i 0).val < win1_5.index t (0 : Fin 2) * 1 + 1
    omega
  | ⟨1, _⟩ =>
    show win1_5.index t (1 : Fin 2) * 128 ≤ (i 1).val ∧ (i 1).val < win1_5.index t (1 : Fin 2) * 128 + 128
    omega
theorem cover6 (i : S1x128.Idx) :
    ∃ t : Fin cfg1.N, (cfg1.win 6).flush t = true ∧ i ∈ ((cfg1.win 6).blk t).view.set := by
  have hN : cfg1.N = 25 := N_1
  have hi0 : (i 0).val < 1 := (i 0).isLt
  have hi1 : (i 1).val < 128 := (i 1).isLt
  obtain ⟨t, ht⟩ : ∃ t : Fin cfg1.N, t.val = 24 := ⟨⟨24, by rw [hN]; omega⟩, rfl⟩
  refine ⟨t, (flush1_6 t).mpr (by omega), ?_⟩
  rw [mem_blk6]
  obtain ⟨-, -, -, -, -, -, -, -, -, -, -, -, e0, e1⟩ := idx_facts1 t
  intro a
  match a with
  | ⟨0, _⟩ =>
    show win1_6.index t (0 : Fin 2) * 1 ≤ (i 0).val ∧ (i 0).val < win1_6.index t (0 : Fin 2) * 1 + 1
    omega
  | ⟨1, _⟩ =>
    show win1_6.index t (1 : Fin 2) * 128 ≤ (i 1).val ∧ (i 1).val < win1_6.index t (1 : Fin 2) * 128 + 128
    omega

end Agg

/-! ## The three output arrays after the region -/

/-- After the region the first output array holds the aggregated features. -/
theorem arr1_4 (c : Dev nD) : (dat1 (F := Ideal) V c).arrAt 4 cfg1.N
    = Cert.Spec.agg (V c main_arg1) (V c main_v7) (V c main_v6) :=
  (dat1 V c).arrAt_eq_of_cover 4 (Agg.aggA V c) (fun t _ => Agg.flushed4_eq V c t) Agg.cover4

/-- After the region the second output array holds the per-feature sums of the aggregated features. -/
theorem arr1_5 (c : Dev nD) : (dat1 (F := Ideal) V c).arrAt 5 cfg1.N
    = Cert.Spec.colSum (Cert.Spec.agg (V c main_arg1) (V c main_v7) (V c main_v6)) :=
  (dat1 V c).arrAt_eq_of_cover 5 (Cert.Spec.colSum (Agg.aggA V c)) (fun t hf => Agg.flushed5_eq V c t hf) Agg.cover5

/-- After the region the third output array holds the per-feature sums of their squares. -/
theorem arr1_6 (c : Dev nD) : (dat1 (F := Ideal) V c).arrAt 6 cfg1.N
    = Cert.Spec.colSumSq (Cert.Spec.agg (V c main_arg1) (V c main_v7) (V c main_v6)) :=
  (dat1 V c).arrAt_eq_of_cover 6 (Cert.Spec.colSumSq (Agg.aggA V c)) (fun t hf => Agg.flushed6_eq V c t hf) Agg.cover6

end Cert.KernelIdeal.Fr
end
-- ==== Proof.KI.Value2.lean ====
/-
  The last region's output array once it has run.

  Each of the ten grid points holds a tile of 1000 rows of the aggregated features, the two moment rows (the
  per-feature sum s and sum of squares q over all 10000 nodes), the scale and shift rows, the whole second
  weight (read as wt[k, c]) and its bias row.  It normalises the tile feature by feature — mean s/N, variance
  q/N − (s/N)², (x − mean) · (rsqrt(var + ε) · γ) + β — multiplies by the weight and adds the bias.  The tiles
  partition the 10000 rows, so the array ends holding the dense layer of the batch-normalised features, index
  by index.
-/
import proofs.«111429_g56848187130529_cont_sun_m_287_2_alg».proof.Proof.KI.Region2
import proofs.«111429_g56848187130529_cont_sun_m_287_2_alg».proof.Proof.KI.Value0
import proofs.«111429_g56848187130529_cont_sun_m_287_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## The normalised tile times the weight, at an entry -/

/-- The reciprocal of the node count, as the program names it, is 1/10000. -/
theorem invN : Named.named (F := Ideal) Cert.KernelIdeal.κ "inv_10000" (φ := .f32) 0x38D1B717#32 = ((1 / 10000 : ℝ) : EReal) :=
  IdealRules.named_const.ideal_named_scalar _ _ _ _ rfl

/-- The program's variance offset is the specification's ε: the extended real the same f32 word denotes. -/
theorem epsWord : (FloatOps.ofBits (F := Ideal) .f32 0x3727C5AC#32 : EReal) = Cert.Spec.epsBN := rfl

/-- A reciprocal square root at an index is the extended reals' one of the element. -/
theorem rsqrt_apply {s : Shape} {φ : FTy} (a : FVec Ideal s φ) (i : s.Idx) : rsqrt a i = Ideal.rsqrt (a i) := rfl

/-- One normalised feature: (x − s/N) · (rsqrt(q/N − (s/N)² + ε) · γ) + β, the moments and the scale and
    shift taken at the feature's column. -/
def bnEntry (x s q g be : EReal) : EReal :=
  (x - s * ((1 / 10000 : ℝ) : EReal))
    * (Ideal.rsqrt ((q * ((1 / 10000 : ℝ) : EReal)
          - (s * ((1 / 10000 : ℝ) : EReal)) * (s * ((1 / 10000 : ℝ) : EReal))) + Cert.Spec.epsBN) * g)
    + be

/-- What the body stores, at entry (p, c) of the tile: the normalised row p of the tile times column c of the
    weight, plus the bias at c. -/
theorem pay2_apply (s q g : Vec Ideal S1x128 .f32) (x : Vec Ideal S1000x128 .f32) (be : Vec Ideal S1x128 .f32)
    (w : Vec Ideal S128x128 .f32) (b : Vec Ideal S1x128 .f32) (p : Fin 1000) (c : Fin 128) :
    k2_pay1 (F := Ideal) s q g x be w b (ix2 p c)
      = (∑ k : Fin 128, bnEntry (x (ix2 p k)) (s (ix2 0 k)) (q (ix2 0 k)) (g (ix2 0 k)) (be (ix2 0 k)) * w (ix2 k c))
        + b (ix2 0 c) := by
  unfold k2_pay1
  simp only [shapeCast_self]
  refine (addf_apply _ _ _).trans ?_
  rw [biasRows_apply, tileProd_apply]
  refine congrArg (· + b (ix2 0 c)) (Finset.sum_congr rfl fun k _ => congrArg (· * w (ix2 k c)) ?_)
  simp only [addf_apply, mulf_apply, subf_apply, biasRows_apply, broadcast_apply, rsqrt_apply, invN, epsWord]
  rfl

/-! ## From the tiles to the array -/

/-- The block index of each window at each grid point: the feature tile's and the output's is the point's number
    along the rows and the only one along the columns; the four rows, the weight and the bias row are always
    block (0, 0). -/
theorem idx_bnlin : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The specification's normalisation at row r, feature k, is `bnEntry` of the five entries it reads. -/
theorem bnK_apply (X : FVec Ideal Cert.Spec.SND .f32) (S Q G BE : FVec Ideal Cert.Spec.S1D .f32) (r : Fin 10000) (k : Fin 128) :
    Cert.Spec.bnK X S Q G BE (ix2 r k)
      = bnEntry (X (ix2 r k)) (S (ix2 0 k)) (Q (ix2 0 k)) (G (ix2 0 k)) (BE (ix2 0 k)) := rfl

/-- A tile's stored entry (p, c) is the dense layer of the normalised whole array at array index `i`, once the
    feature tile holds row `i 0` at p, the four row blocks are the whole rows, the weight block the whole weight,
    the bias block the whole row, and c is `i`'s column. -/
theorem tile_bnlin (X : FVec Ideal Cert.Spec.SND .f32) (S Q G BE : FVec Ideal Cert.Spec.S1D .f32)
    (W : FVec Ideal Cert.Spec.SDD .f32) (B : FVec Ideal Cert.Spec.S1D .f32)
    (x : Vec Ideal S1000x128 .f32) (s q g be : Vec Ideal S1x128 .f32) (w : Vec Ideal S128x128 .f32) (b : Vec Ideal S1x128 .f32)
    (i : Cert.Spec.SND.Idx) (p : Fin 1000) (c : Fin 128)
    (hx : ∀ k : Fin 128, x (ix2 p k) = X (ix2 (i 0) k))
    (hs : ∀ k : Fin 128, s (ix2 0 k) = S (ix2 0 k))
    (hq : ∀ k : Fin 128, q (ix2 0 k) = Q (ix2 0 k))
    (hg : ∀ k : Fin 128, g (ix2 0 k) = G (ix2 0 k))
    (hbe : ∀ k : Fin 128, be (ix2 0 k) = BE (ix2 0 k))
    (hw : ∀ k : Fin 128, w (ix2 k c) = W (ix2 k (i 1)))
    (hb : b (ix2 0 c) = B (ix2 0 (i 1))) :
    k2_pay1 (F := Ideal) s q g x be w b (ix2 p c) = Cert.Spec.lin (Cert.Spec.bnK X S Q G BE) W B i := by
  rw [pay2_apply, hb]
  show _ = (∑ k : Fin 128, Cert.Spec.bnK X S Q G BE (ix2 (i 0) k) * W (ix2 k (i 1))) + B (ix2 0 (i 1))
  refine congrArg (· + B (ix2 0 (i 1))) (Finset.sum_congr rfl fun k _ => ?_)
  rw [hx k, hs k, hq k, hg k, hbe k, hw k]
  exact congrArg (· * W (ix2 k (i 1))) (bnK_apply X S Q G BE (i 0) k).symm

/-- The same at any index `J` of the tile, its two coordinates named. -/
theorem tile_bnlin_at (X : FVec Ideal Cert.Spec.SND .f32) (S Q G BE : FVec Ideal Cert.Spec.S1D .f32)
    (W : FVec Ideal Cert.Spec.SDD .f32) (B : FVec Ideal Cert.Spec.S1D .f32)
    (x : Vec Ideal S1000x128 .f32) (s q g be : Vec Ideal S1x128 .f32) (w : Vec Ideal S128x128 .f32) (b : Vec Ideal S1x128 .f32)
    (i : Cert.Spec.SND.Idx) (J : S1000x128.Idx)
    (hx : ∀ k : Fin 128, x (ix2 (J 0) k) = X (ix2 (i 0) k))
    (hs : ∀ k : Fin 128, s (ix2 0 k) = S (ix2 0 k))
    (hq : ∀ k : Fin 128, q (ix2 0 k) = Q (ix2 0 k))
    (hg : ∀ k : Fin 128, g (ix2 0 k) = G (ix2 0 k))
    (hbe : ∀ k : Fin 128, be (ix2 0 k) = BE (ix2 0 k))
    (hw : ∀ k : Fin 128, w (ix2 k (J 1)) = W (ix2 k (i 1)))
    (hb : b (ix2 0 (J 1)) = B (ix2 0 (i 1))) :
    k2_pay1 (F := Ideal) s q g x be w b J = Cert.Spec.lin (Cert.Spec.bnK X S Q G BE) W B i :=
  (congrArg (k2_pay1 (F := Ideal) s q g x be w b) (eq_ix2 J)).trans
    (tile_bnlin X S Q G BE W B x s q g be w b i (J 0) (J 1) hx hs hq hg hbe hw hb)

/-- What grid point `t` writes back is tile `t` of the dense layer of the normalised whole array. -/
theorem flushed2_eq (c : Dev nD) (t : Fin cfg2.N) :
    (dat2 (F := Ideal) V c).flushed 7 t = ((cfg2.win 7).blk t).view.read (Elt Ideal)
      (Cert.Spec.lin (Cert.Spec.bnK (V c main_v8_0) (V c main_v8_1) (V c main_v8_2) (V c main_v4) (V c main_v5))
        (V c main_v1) (V c main_v3)) := by
  show (cfg2.win 7).cut (grid2.coords t) ((dat2 (F := Ideal) V c).after 7 t) = _
  rw [after2_7]
  unfold out2_7
  rw [View.canon_unit_zero zeroOff2]
  simp only [View.ld_unit_zero (S := S1000x128) zeroOff2, View.ld_unit_zero (S := S128x128) zeroOff2,
    View.ld_unit_zero (S := S1x128) zeroOff2]
  obtain ⟨e00, e01, e10, e11, e20, e21, e30, e31, e40, e41, e50, e51, e60, e61, e70, e71⟩ := idx_bnlin t
  funext j
  show k2_pay1 (F := Ideal) (iblk2 V c 1 t) (iblk2 V c 2 t) (iblk2 V c 3 t) (iblk2 V c 0 t) (iblk2 V c 4 t)
        (iblk2 V c 5 t) (iblk2 V c 6 t) j
      = Cert.Spec.lin (Cert.Spec.bnK (V c main_v8_0) (V c main_v8_1) (V c main_v8_2) (V c main_v4) (V c main_v5))
          (V c main_v1) (V c main_v3) (((cfg2.win 7).blk t).view.emb j)
  refine tile_bnlin_at (V c main_v8_0) (V c main_v8_1) (V c main_v8_2) (V c main_v4) (V c main_v5) (V c main_v1) (V c main_v3)
    (iblk2 V c 0 t) (iblk2 V c 1 t) (iblk2 V c 2 t) (iblk2 V c 3 t) (iblk2 V c 4 t) (iblk2 V c 5 t) (iblk2 V c 6 t)
    (((cfg2.win 7).blk t).view.emb j) j (fun k => ?_) (fun k => ?_) (fun k => ?_) (fun k => ?_) (fun k => ?_) (fun k => ?_) ?_
  · -- row (tile t, p) of the feature tile is row 1000·t + p of the features
    show V c main_v8_0 (((cfg2.win 0).blk t).view.emb (ix2 (j 0) k))
        = V c main_v8_0 (ix2 ((((cfg2.win 7).blk t).view.emb j) 0) k)
    refine congrArg (V c main_v8_0) (funext fun a => Fin.ext ?_)
    match a with
    | ⟨0, _⟩ =>
      show win2_0.index t (0 : Fin 2) * 1000 + 1 * (j 0).val = win2_7.index t (0 : Fin 2) * 1000 + 1 * (j 0).val
      omega
    | ⟨1, _⟩ =>
      show win2_0.index t (1 : Fin 2) * 128 + 1 * k.val = k.val
      omega
  · -- the sum row's block is the whole row
    show V c main_v8_1 (((cfg2.win 1).blk t).view.emb (ix2 0 k)) = V c main_v8_1 (ix2 0 k)
    refine congrArg (V c main_v8_1) (funext fun a => Fin.ext ?_)
    match a with
    | ⟨0, _⟩ =>
      show win2_1.index t (0 : Fin 2) * 1 + 1 * 0 = 0
      omega
    | ⟨1, _⟩ =>
      show win2_1.index t (1 : Fin 2) * 128 + 1 * k.val = k.val
      omega
  · -- the sum-of-squares row's block is the whole row
    show V c main_v8_2 (((cfg2.win 2).blk t).view.emb (ix2 0 k)) = V c main_v8_2 (ix2 0 k)
    refine congrArg (V c main_v8_2) (funext fun a => Fin.ext ?_)
    match a with
    | ⟨0, _⟩ =>
      show win2_2.index t (0 : Fin 2) * 1 + 1 * 0 = 0
      omega
    | ⟨1, _⟩ =>
      show win2_2.index t (1 : Fin 2) * 128 + 1 * k.val = k.val
      omega
  · -- the scale row's block is the whole row
    show V c main_v4 (((cfg2.win 3).blk t).view.emb (ix2 0 k)) = V c main_v4 (ix2 0 k)
    refine congrArg (V c main_v4) (funext fun a => Fin.ext ?_)
    match a with
    | ⟨0, _⟩ =>
      show win2_3.index t (0 : Fin 2) * 1 + 1 * 0 = 0
      omega
    | ⟨1, _⟩ =>
      show win2_3.index t (1 : Fin 2) * 128 + 1 * k.val = k.val
      omega
  · -- the shift row's block is the whole row
    show V c main_v5 (((cfg2.win 4).blk t).view.emb (ix2 0 k)) = V c main_v5 (ix2 0 k)
    refine congrArg (V c main_v5) (funext fun a => Fin.ext ?_)
    match a with
    | ⟨0, _⟩ =>
      show win2_4.index t (0 : Fin 2) * 1 + 1 * 0 = 0
      omega
    | ⟨1, _⟩ =>
      show win2_4.index t (1 : Fin 2) * 128 + 1 * k.val = k.val
      omega
  · -- the weight block is the whole weight
    show V c main_v1 (((cfg2.win 5).blk t).view.emb (ix2 k (j 1)))
        = V c main_v1 (ix2 k ((((cfg2.win 7).blk t).view.emb j) 1))
    refine congrArg (V c main_v1) (funext fun a => Fin.ext ?_)
    match a with
    | ⟨0, _⟩ =>
      show win2_5.index t (0 : Fin 2) * 128 + 1 * k.val = k.val
      omega
    | ⟨1, _⟩ =>
      show win2_5.index t (1 : Fin 2) * 128 + 1 * (j 1).val = win2_7.index t (1 : Fin 2) * 128 + 1 * (j 1).val
      omega
  · -- the bias block is the whole row
    show V c main_v3 (((cfg2.win 6).blk t).view.emb (ix2 0 (j 1)))
        = V c main_v3 (ix2 0 ((((cfg2.win 7).blk t).view.emb j) 1))
    refine congrArg (V c main_v3) (funext fun a => Fin.ext ?_)
    match a with
    | ⟨0, _⟩ =>
      show win2_6.index t (0 : Fin 2) * 1 + 1 * 0 = 0
      omega
    | ⟨1, _⟩ =>
      show win2_6.index t (1 : Fin 2) * 128 + 1 * (j 1).val = win2_7.index t (1 : Fin 2) * 128 + 1 * (j 1).val
      omega

/-- An index of the array lies in point `t`'s tile iff each coordinate lies in the tile's range on its axis. -/
theorem mem_tile2 (t : Fin cfg2.N) (i : S10000x128.Idx) :
    i ∈ ((cfg2.win 7).blk t).view.set ↔ ∀ a : Fin 2, win2_7.index t a * S1000x128.size a ≤ (i a).val
      ∧ (i a).val < win2_7.index t a * S1000x128.size a + S1000x128.size a := by
  show i ∈ ((View.whole main_v9).slice (win2_7.rect t)).set ↔ _
  rw [View.set_slice_whole, Rect.mem_set_unit]
  exact Iff.rfl

/-- Every index of the array lies in the tile of the point numbered by its row divided by 1000. -/
theorem cover2 (i : S10000x128.Idx) :
    ∃ t : Fin cfg2.N, (cfg2.win 7).flush t = true ∧ i ∈ ((cfg2.win 7).blk t).view.set := by
  have hi0 : (i 0).val < 10000 := (i 0).isLt
  have hi1 : (i 1).val < 128 := (i 1).isLt
  have hN : grid2.N = 10 := N_2
  have ht : (i 0).val / 1000 < cfg2.N := by show (i 0).val / 1000 < grid2.N; omega
  obtain ⟨-, -, -, -, -, -, -, -, -, -, -, -, -, -, e70, e71⟩ := idx_bnlin ⟨(i 0).val / 1000, ht⟩
  refine ⟨⟨(i 0).val / 1000, ht⟩, flush2_7 _, ?_⟩
  rw [mem_tile2]
  intro a
  match a with
  | ⟨0, _⟩ =>
    show win2_7.index ⟨(i 0).val / 1000, ht⟩ (0 : Fin 2) * 1000 ≤ (i 0).val
      ∧ (i 0).val < win2_7.index ⟨(i 0).val / 1000, ht⟩ (0 : Fin 2) * 1000 + 1000
    have e : win2_7.index ⟨(i 0).val / 1000, ht⟩ (0 : Fin 2) = (i 0).val / 1000 := e70
    omega
  | ⟨1, _⟩ =>
    show win2_7.index ⟨(i 0).val / 1000, ht⟩ (1 : Fin 2) * 128 ≤ (i 1).val
      ∧ (i 1).val < win2_7.index ⟨(i 0).val / 1000, ht⟩ (1 : Fin 2) * 128 + 128
    omega

/-! ## The array -/

/-- After the region its output array is the dense layer — second weight read as wt[k, c], plus its bias row —
    of the features batch-normalised from the two moment rows with the scale and shift rows. -/
theorem arr2 (c : Dev nD) :
    (dat2 (F := Ideal) V c).arrAt 7 cfg2.N
      = Cert.Spec.lin (Cert.Spec.bnK (V c main_v8_0) (V c main_v8_1) (V c main_v8_2) (V c main_v4) (V c main_v5))
          (V c main_v1) (V c main_v3) :=
  (dat2 (F := Ideal) V c).arrAt_eq_of_cover 7
    (Cert.Spec.lin (Cert.Spec.bnK (V c main_v8_0) (V c main_v8_1) (V c main_v8_2) (V c main_v4) (V c main_v5))
      (V c main_v1) (V c main_v3))
    (fun t _ => flushed2_eq V c t) cover2

end Cert.KernelIdeal.Fr

end
-- ==== Proof.KI.HostVals.lean ====
/-
  What the host operations before the first region leave, at the ideal instance: the two weights transposed,
  the four length-128 vectors as [1, 128] rows and the length-1 self weight as a [1, 1] cell.
-/
import proofs.«111429_g56848187130529_cont_sun_m_287_2_alg».proof.Proof.Gen.KernelIdeal.Regions
import proofs.«111429_g56848187130529_cont_sun_m_287_2_alg».proof.Proof.Spec
import Idealize.ShloMosaic.Lib.StableHlo.Run
import Idealize.ShloMosaic.Lib.ValueLayout
import Idealize.ShloMosaic.Lib.Pipeline.Value

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- A [128, 128] array transposed is `Spec.tr` of it. -/
theorem transpose_eq_tr (w : FVec Ideal S128x128 .f32) :
    transpose S128x128 [1, 0] w transposes_S128x128_S128x128_1_0 = Cert.Spec.tr w := by
  funext i
  obtain ⟨k, j, rfl⟩ : ∃ (k : Fin 128) (j : Fin 128), i = ix2 k j := ⟨i 0, i 1, eq_ix2 i⟩
  exact transpose_ix2_apply w transposes_S128x128_S128x128_1_0 k j

/-- A length-128 vector reshaped to [1, 128] is `Spec.row` of it. -/
theorem reshape_eq_row (v : FVec Ideal S128 .f32) :
    (shapeCast S1x128 v shapeCasts_S128_S1x128 : FVec Ideal S1x128 .f32) = Cert.Spec.row v := by
  funext i
  obtain ⟨u, j, rfl⟩ : ∃ (u : Fin 1) (j : Fin 128), i = ix2 u j := ⟨i 0, i 1, eq_ix2 i⟩
  exact shapeCast_a_1a_apply v shapeCasts_S128_S1x128 u j

/-- A length-1 vector reshaped to [1, 1] is `Spec.cell` of it. -/
theorem reshape_eq_cell (e : FVec Ideal S1 .f32) :
    (shapeCast S1x1 e shapeCasts_S1_S1x1 : FVec Ideal S1x1 .f32) = Cert.Spec.cell e := by
  funext i
  obtain ⟨u, j, rfl⟩ : ∃ (u : Fin 1) (j : Fin 1), i = ix2 u j := ⟨i 0, i 1, eq_ix2 i⟩
  rw [shapeCast_a_1a_apply e shapeCasts_S1_S1x1 u j, Subsingleton.elim j 0]
  rfl

theorem V1_v0 (c : Dev nD) : (Gen.V1 m c main_v0 : FVec Ideal S128x128 .f32) = Cert.Spec.tr (m ((c : Thread nD τ).loc main_arg2)) := by
  dsimp only [Gen.V1, Gen.V0, Gen.hostOps0]; after_results; exact transpose_eq_tr _
theorem V1_v1 (c : Dev nD) : (Gen.V1 m c main_v1 : FVec Ideal S128x128 .f32) = Cert.Spec.tr (m ((c : Thread nD τ).loc main_arg4)) := by
  dsimp only [Gen.V1, Gen.V0, Gen.hostOps0]; after_results; exact transpose_eq_tr _
theorem V1_v2 (c : Dev nD) : (Gen.V1 m c main_v2 : FVec Ideal S1x128 .f32) = Cert.Spec.row (m ((c : Thread nD τ).loc main_arg3)) := by
  dsimp only [Gen.V1, Gen.V0, Gen.hostOps0]; after_results; exact reshape_eq_row _
theorem V1_v3 (c : Dev nD) : (Gen.V1 m c main_v3 : FVec Ideal S1x128 .f32) = Cert.Spec.row (m ((c : Thread nD τ).loc main_arg5)) := by
  dsimp only [Gen.V1, Gen.V0, Gen.hostOps0]; after_results; exact reshape_eq_row _
theorem V1_v4 (c : Dev nD) : (Gen.V1 m c main_v4 : FVec Ideal S1x128 .f32) = Cert.Spec.row (m ((c : Thread nD τ).loc main_arg6)) := by
  dsimp only [Gen.V1, Gen.V0, Gen.hostOps0]; after_results; exact reshape_eq_row _
theorem V1_v5 (c : Dev nD) : (Gen.V1 m c main_v5 : FVec Ideal S1x128 .f32) = Cert.Spec.row (m ((c : Thread nD τ).loc main_arg7)) := by
  dsimp only [Gen.V1, Gen.V0, Gen.hostOps0]; after_results; exact reshape_eq_row _
theorem V1_v6 (c : Dev nD) : (Gen.V1 m c main_v6 : FVec Ideal S1x1 .f32) = Cert.Spec.cell (m ((c : Thread nD τ).loc main_arg8)) := by
  dsimp only [Gen.V1, Gen.V0, Gen.hostOps0]; after_results; exact reshape_eq_cell _
/-- The host operations write no argument. -/
theorem V1_arg0 (c : Dev nD) : Gen.V1 m c main_arg0 = m ((c : Thread nD τ).loc main_arg0) := (Gen.V1_of m c main_arg0 (by decide)).trans rfl
theorem V1_arg1 (c : Dev nD) : Gen.V1 m c main_arg1 = m ((c : Thread nD τ).loc main_arg1) := (Gen.V1_of m c main_arg1 (by decide)).trans rfl

end Cert.KernelIdeal.Fr

end
-- ==== Proof.KI.KernelValue.lean ====
/-
  What the kernel's result buffer holds at the end, at the ideal instance, as one function of the launch
  arguments: region 2's array is the normalised second layer of region 1's three arrays, which are the
  aggregation of region 0's array (the first layer) with its per-feature sums and sums of squares; the weights,
  bias, scale and shift rows and the self weight are the host operations' transposes and reshapes of the arguments.
-/
import proofs.«111429_g56848187130529_cont_sun_m_287_2_alg».proof.Proof.KI.RunAll
import proofs.«111429_g56848187130529_cont_sun_m_287_2_alg».proof.Proof.KI.Frame
import proofs.«111429_g56848187130529_cont_sun_m_287_2_alg».proof.Proof.KI.Value0
import proofs.«111429_g56848187130529_cont_sun_m_287_2_alg».proof.Proof.KI.Value1
import proofs.«111429_g56848187130529_cont_sun_m_287_2_alg».proof.Proof.KI.Value2
import proofs.«111429_g56848187130529_cont_sun_m_287_2_alg».proof.Proof.KI.HostVals
import proofs.«111429_g56848187130529_cont_sun_m_287_2_alg».proof.Proof.Spec

noncomputable section

namespace Cert.KernelIdeal.Fr

open Cert.KernelIdeal Cert.KernelIdeal.Gen
open Idealize.ShloMosaic Idealize.ShloMosaic.TcCoe
open Idealize.SL Idealize.SL.Sem

variable (m : (ℓ : Loc nD τ sig) → Buf (Elt Ideal) ℓ)

/-- What region 0 is entered from, at the places its windows read. -/
theorem T1_arg0 (c : Dev nD) : T1 m c main_arg0 = (m ((c : Thread nD τ).loc main_arg0)) := V1_arg0 m c
theorem T1_v0 (c : Dev nD) : T1 m c main_v0 = Cert.Spec.tr (m ((c : Thread nD τ).loc main_arg2)) := V1_v0 m c
theorem T1_v2 (c : Dev nD) : T1 m c main_v2 = Cert.Spec.row (m ((c : Thread nD τ).loc main_arg3)) := V1_v2 m c

/-- The first layer's output after region 0. -/
theorem T2_v7 (c : Dev nD) : T2 m c main_v7 = Cert.Spec.lin (m ((c : Thread nD τ).loc main_arg0)) (Cert.Spec.tr (m ((c : Thread nD τ).loc main_arg2))) (Cert.Spec.row (m ((c : Thread nD τ).loc main_arg3))) := by
  refine (W2_v7 m c).trans ?_
  refine (arr0 (T1 m) c).trans ?_
  rw [T1_arg0, T1_v0, T1_v2]
theorem T2_arg1 (c : Dev nD) : T2 m c main_arg1 = (m ((c : Thread nD τ).loc main_arg1)) := (W2_of m c main_arg1 (by decide)).trans (V1_arg1 m c)
theorem T2_v6 (c : Dev nD) : T2 m c main_v6 = Cert.Spec.cell (m ((c : Thread nD τ).loc main_arg8)) := (W2_of m c main_v6 (by decide)).trans (V1_v6 m c)

/-- The aggregated features as a function of the arguments. -/
abbrev H2 (c : Dev nD) : FVec Ideal Cert.Spec.SND .f32 :=
  Cert.Spec.agg (m ((c : Thread nD τ).loc main_arg1)) (Cert.Spec.lin (m ((c : Thread nD τ).loc main_arg0)) (Cert.Spec.tr (m ((c : Thread nD τ).loc main_arg2))) (Cert.Spec.row (m ((c : Thread nD τ).loc main_arg3)))) (Cert.Spec.cell (m ((c : Thread nD τ).loc main_arg8)))

theorem T3_v8_0 (c : Dev nD) : T3 m c main_v8_0 = H2 m c := by
  refine (W3_v8_0 m c).trans ?_
  refine (arr1_4 (T2 m) c).trans ?_
  rw [T2_arg1, T2_v7, T2_v6]
theorem T3_v8_1 (c : Dev nD) : T3 m c main_v8_1 = Cert.Spec.colSum (H2 m c) := by
  refine (W3_v8_1 m c).trans ?_
  refine (arr1_5 (T2 m) c).trans ?_
  rw [T2_arg1, T2_v7, T2_v6]
theorem T3_v8_2 (c : Dev nD) : T3 m c main_v8_2 = Cert.Spec.colSumSq (H2 m c) := by
  refine (W3_v8_2 m c).trans ?_
  refine (arr1_6 (T2 m) c).trans ?_
  rw [T2_arg1, T2_v7, T2_v6]
theorem T3_v4 (c : Dev nD) : T3 m c main_v4 = Cert.Spec.row (m ((c : Thread nD τ).loc main_arg6)) :=
  (W3_of m c main_v4 (by decide) (by decide) (by decide)).trans ((W2_of m c main_v4 (by decide)).trans (V1_v4 m c))
theorem T3_v5 (c : Dev nD) : T3 m c main_v5 = Cert.Spec.row (m ((c : Thread nD τ).loc main_arg7)) :=
  (W3_of m c main_v5 (by decide) (by decide) (by decide)).trans ((W2_of m c main_v5 (by decide)).trans (V1_v5 m c))
theorem T3_v1 (c : Dev nD) : T3 m c main_v1 = Cert.Spec.tr (m ((c : Thread nD τ).loc main_arg4)) :=
  (W3_of m c main_v1 (by decide) (by decide) (by decide)).trans ((W2_of m c main_v1 (by decide)).trans (V1_v1 m c))
theorem T3_v3 (c : Dev nD) : T3 m c main_v3 = Cert.Spec.row (m ((c : Thread nD τ).loc main_arg5)) :=
  (W3_of m c main_v3 (by decide) (by decide) (by decide)).trans ((W2_of m c main_v3 (by decide)).trans (V1_v3 m c))

/-- THE KERNEL'S VALUE: the result buffer at the end is `Spec.outK` of the arguments. -/
theorem out_value (c : Dev nD) :
    W4 m c main_v9 = Cert.Spec.outK (m ((c : Thread nD τ).loc main_arg0)) (m ((c : Thread nD τ).loc main_arg1)) (Cert.Spec.tr (m ((c : Thread nD τ).loc main_arg2))) (Cert.Spec.row (m ((c : Thread nD τ).loc main_arg3)))
      (Cert.Spec.tr (m ((c : Thread nD τ).loc main_arg4))) (Cert.Spec.row (m ((c : Thread nD τ).loc main_arg5))) (Cert.Spec.row (m ((c : Thread nD τ).loc main_arg6))) (Cert.Spec.row (m ((c : Thread nD τ).loc main_arg7))) (Cert.Spec.cell (m ((c : Thread nD τ).loc main_arg8))) := by
  refine (W4_v9 m c).trans ?_
  refine (arr2 (T3 m) c).trans ?_
  rw [T3_v8_0, T3_v8_1, T3_v8_2, T3_v4, T3_v5, T3_v1, T3_v3]
  rfl

/-- THE KERNEL'S RUN WITH ITS VALUE: every weakly fair execution terminates with the result buffer at `Spec.outK` of
    the arguments and every argument as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v9) = Cert.Spec.outK (m ((c.tc : Thread nD τ).loc main_arg0)) (m ((c.tc : Thread nD τ).loc main_arg1)) (Cert.Spec.tr (m ((c.tc : Thread nD τ).loc main_arg2))) (Cert.Spec.row (m ((c.tc : Thread nD τ).loc main_arg3)))
        (Cert.Spec.tr (m ((c.tc : Thread nD τ).loc main_arg4))) (Cert.Spec.row (m ((c.tc : Thread nD τ).loc main_arg5))) (Cert.Spec.row (m ((c.tc : Thread nD τ).loc main_arg6))) (Cert.Spec.row (m ((c.tc : Thread nD τ).loc main_arg7))) (Cert.Spec.cell (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v9 (by decide))).trans (out_value m c),
     (h c _ (mem_uc main_arg0 (by decide))).trans (W4_untouched m c main_arg0 (by decide) (by decide) (by decide) (by decide) (by decide) (by decide)),
     (h c _ (mem_uc main_arg1 (by decide))).trans (W4_untouched m c main_arg1 (by decide) (by decide) (by decide) (by decide) (by decide) (by decide)),
     (h c _ (mem_uc main_arg2 (by decide))).trans (W4_untouched m c main_arg2 (by decide) (by decide) (by decide) (by decide) (by decide) (by decide)),
     (h c _ (mem_uc main_arg3 (by decide))).trans (W4_untouched m c main_arg3 (by decide) (by decide) (by decide) (by decide) (by decide) (by decide)),
     (h c _ (mem_uc main_arg4 (by decide))).trans (W4_untouched m c main_arg4 (by decide) (by decide) (by decide) (by decide) (by decide) (by decide)),
     (h c _ (mem_uc main_arg5 (by decide))).trans (W4_untouched m c main_arg5 (by decide) (by decide) (by decide) (by decide) (by decide) (by decide)),
     (h c _ (mem_uc main_arg6 (by decide))).trans (W4_untouched m c main_arg6 (by decide) (by decide) (by decide) (by decide) (by decide) (by decide)),
     (h c _ (mem_uc main_arg7 (by decide))).trans (W4_untouched m c main_arg7 (by decide) (by decide) (by decide) (by decide) (by decide) (by decide)),
     (h c _ (mem_uc main_arg8 (by decide))).trans (W4_untouched m c main_arg8 (by decide) (by decide) (by decide) (by decide) (by decide) (by decide))⟩)
    (run_all m ρ)

end Cert.KernelIdeal.Fr

end
-- ==== Proof.Ref.Ops.lean ====
/-
  The host program's run, as a straight line. Its @main calls one outlined function (the biased variance of the
  features), which in turn calls another (an elementwise choice between two arrays); a call executes the callee's
  operations on the caller's operands, so the whole program is ONE list of sixty-four host operations: the twenty-one
  before the call, the nineteen of the variance, the three of the choice, and the twenty-one after. Every weakly fair
  execution from any memory with zero counters terminates with every buffer at the fold of the operations' results
  over the launch contents.
-/
import proofs.«111429_g56848187130529_cont_sun_m_287_2_alg».proof.ReferenceIdeal
import proofs.«111429_g56848187130529_cont_sun_m_287_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's sixty-four operations, in execution order: a called function's operations stand where the call is,
    over that call's own buffers. -/
abbrev ops : List (HloOp τ sig (Elt F)) :=
  [ -- the first dense layer, h1 = h · W1ᵀ + b1
    unary main_arg2 main_v0 (transpose S128x128 [1, 0] · transposes_S128x128_S128x128_1_0),
    binary main_arg0 main_v0 main_v1 (fun l r => Host.dotGeneral dot_S10000x128_S128x128_S10000x128_1_0_0_1_n_n none l r),
    unary main_arg3 main_v2 (broadcastInDim S1x128 ![1] bcast_S128_S1x128_1),
    unary main_v2 main_v3 (broadcastInDim S10000x128 ![0, 1] bcast_S1x128_S10000x128_0_1),
    binary main_v1 main_v3 main_v4 addf,
    -- the aggregation, h2 = (adj · h1) / (adj · 1) + eps · h1
    binary main_arg1 main_v4 main_v5 (fun l r => Host.dotGeneral dot_S10000x10000_S10000x128_S10000x128_1_0_0_1_n_n none l r),
    nullary main_cst (constant S_ .f32 0x3F800000#32),
    unary main_cst main_v6 (broadcastInDim S10000x1 ![] bcast_S_S10000x1),
    binary main_arg1 main_v6 main_v7 (fun l r => Host.dotGeneral dot_S10000x10000_S10000x1_S10000x1_1_0_0_1_n_n none l r),
    unary main_v7 main_v8 (broadcastInDim S10000x128 ![0, 1] bcast_S10000x1_S10000x128_0_1),
    binary main_v5 main_v8 main_v9 Host.divf,
    unary main_arg8 main_v10 (broadcastInDim S1x1 ![1] bcast_S1_S1x1_1),
    unary main_v10 main_v11 (broadcastInDim S10000x128 ![0, 1] bcast_S1x1_S10000x128_0_1),
    binary main_v11 main_v4 main_v12 mulf,
    binary main_v9 main_v12 main_v13 addf,
    -- the batch mean of each feature
    nullary main_cst_0 (constant S_ .f32 0x00000000#32),
    binary main_v13 main_cst_0 main_v14 (fun x v => Host.reduceAdd x v reducesTo_S10000x128_S128_d0 h_S_),
    nullary main_cst_1 (constant S_ .f32 0x461C4000#32),
    unary main_cst_1 main_v15 (broadcastInDim S128 ![] bcast_S_S128),
    binary main_v14 main_v15 main_v16 Host.divf,
    nullary main_c (constantI S_ 32 0#32),
    -- the called function: the biased variance of each feature, over its own buffers
    TRef.nullary main_call0.cst (constant S_ .f32 0x00000000#32),
    TRef.binary (.of main_v13) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v13) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    -- the function it calls: the choice between the quotient and the filler
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2
      (fun p a b => select (broadcastInDim S128 ![] bcast_S_S128 p) a b),
    -- the normalisation, (h2 − mean) / sqrt(var + ε) · γ + β
    unary main_v16 main_v18 (broadcastInDim S1x128 ![1] bcast_S128_S1x128_1),
    unary main_v18 main_v19 (broadcastInDim S10000x128 ![0, 1] bcast_S1x128_S10000x128_0_1),
    binary main_v13 main_v19 main_v20 subf,
    nullary main_cst_2 (constant S_ .f32 0x3727C5AC#32),
    unary main_cst_2 main_v21 (broadcastInDim S128 ![] bcast_S_S128),
    binary main_v17 main_v21 main_v22 addf,
    unary main_v22 main_v23 Host.sqrt,
    unary main_v23 main_v24 (broadcastInDim S1x128 ![1] bcast_S128_S1x128_1),
    unary main_v24 main_v25 (broadcastInDim S10000x128 ![0, 1] bcast_S1x128_S10000x128_0_1),
    binary main_v20 main_v25 main_v26 Host.divf,
    unary main_arg6 main_v27 (broadcastInDim S1x128 ![1] bcast_S128_S1x128_1),
    unary main_v27 main_v28 (broadcastInDim S10000x128 ![0, 1] bcast_S1x128_S10000x128_0_1),
    binary main_v26 main_v28 main_v29 mulf,
    unary main_arg7 main_v30 (broadcastInDim S1x128 ![1] bcast_S128_S1x128_1),
    unary main_v30 main_v31 (broadcastInDim S10000x128 ![0, 1] bcast_S1x128_S10000x128_0_1),
    binary main_v29 main_v31 main_v32 addf,
    -- the second dense layer
    unary main_arg4 main_v33 (transpose S128x128 [1, 0] · transposes_S128x128_S128x128_1_0),
    binary main_v32 main_v33 main_v34 (fun l r => Host.dotGeneral dot_S10000x128_S128x128_S10000x128_1_0_0_1_n_n none l r),
    unary main_arg5 main_v35 (broadcastInDim S1x128 ![1] bcast_S128_S1x128_1),
    unary main_v35 main_v36 (broadcastInDim S10000x128 ![0, 1] bcast_S1x128_S10000x128_0_1),
    binary main_v34 main_v36 main_v37 addf ]

set_option maxRecDepth 4096 in
/-- @main is that straight line: with the two functions' bodies unfolded at their calls, both sides are one chain of
    steps once sequencing is re-associated. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub ..,
    binary_bufs_sub .., nullary_bufs_sub .., unary_bufs_sub .., binary_bufs_sub .., unary_bufs_sub ..,
    binary_bufs_sub .., unary_bufs_sub .., unary_bufs_sub .., binary_bufs_sub .., binary_bufs_sub ..,
    nullary_bufs_sub .., binary_bufs_sub .., nullary_bufs_sub .., unary_bufs_sub .., binary_bufs_sub ..,
    nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub ..,
    unary_bufs_sub .., unary_bufs_sub .., binary_bufs_sub .., nullary_bufs_sub .., unary_bufs_sub ..,
    binary_bufs_sub .., unary_bufs_sub .., unary_bufs_sub .., unary_bufs_sub .., binary_bufs_sub ..,
    unary_bufs_sub .., unary_bufs_sub .., binary_bufs_sub .., unary_bufs_sub .., unary_bufs_sub ..,
    binary_bufs_sub .., unary_bufs_sub .., binary_bufs_sub .., unary_bufs_sub .., unary_bufs_sub ..,
    binary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Read.lean ====
/-
  The host program's value, read at an index. The program composes, in order: a dense layer (the product with the
  transposed weight plus the bias down the rows); the mean aggregation over the adjacency, each row's sum of products
  divided by the row's degree (the adjacency times a column of ones), plus the self term scaled by eps; the batch mean
  of each feature (the column sum over the ten thousand nodes divided by ten thousand); the biased batch variance (the
  column sum of the squared deviations divided by ten thousand minus the real of the integer zero, kept by a choice whose
  condition, ten thousand above zero, holds); the normalisation by the square root of the variance plus epsilon, scaled
  and shifted; and a second dense layer. Each is read at an index as the sum or quotient it is, and together they are
  the specification's host-side composition.
-/
import proofs.«111429_g56848187130529_cont_sun_m_287_2_alg».proof.ReferenceIdeal
import proofs.«111429_g56848187130529_cont_sun_m_287_2_alg».proof.Proof.Gen.ReferenceIdeal
import proofs.«111429_g56848187130529_cont_sun_m_287_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ## The terms the program composes -/

/-- A dense layer: the product with the transposed weight, plus the bias broadcast down the rows. -/
def linT (x : FVec Ideal S10000x128 .f32) (w : FVec Ideal S128x128 .f32) (b : FVec Ideal S128 .f32) :
    FVec Ideal S10000x128 .f32 :=
  addf (Host.dotGeneral (F := Ideal) dot_S10000x128_S128x128_S10000x128_1_0_0_1_n_n none x
      (transpose S128x128 [1, 0] w transposes_S128x128_S128x128_1_0))
    (broadcastInDim S10000x128 ![0, 1] bcast_S1x128_S10000x128_0_1 (broadcastInDim S1x128 ![1] bcast_S128_S1x128_1 b))

/-- The degrees: the adjacency times a column of ones. -/
def degT (adj : FVec Ideal S10000x10000 .f32) : FVec Ideal S10000x1 .f32 :=
  Host.dotGeneral (F := Ideal) dot_S10000x10000_S10000x1_S10000x1_1_0_0_1_n_n none adj
    (broadcastInDim S10000x1 ![] bcast_S_S10000x1 (constant (F := Ideal) S_ .f32 0x3F800000#32))

/-- The aggregation: the adjacency times the features over the degree across each row, plus eps times the features. -/
def aggT (adj : FVec Ideal S10000x10000 .f32) (h1 : FVec Ideal S10000x128 .f32) (e : FVec Ideal S1 .f32) :
    FVec Ideal S10000x128 .f32 :=
  addf (Host.divf (F := Ideal) (Host.dotGeneral (F := Ideal) dot_S10000x10000_S10000x128_S10000x128_1_0_0_1_n_n none adj h1)
      (broadcastInDim S10000x128 ![0, 1] bcast_S10000x1_S10000x128_0_1 (degT adj)))
    (mulf (broadcastInDim S10000x128 ![0, 1] bcast_S1x1_S10000x128_0_1 (broadcastInDim S1x1 ![1] bcast_S1_S1x1_1 e)) h1)

/-- The column sums of a [10000, 128] array, from zero. -/
def sumT (x : FVec Ideal S10000x128 .f32) : FVec Ideal S128 .f32 :=
  Host.reduceAdd (F := Ideal) x (constant (F := Ideal) S_ .f32 0x00000000#32) reducesTo_S10000x128_S128_d0 h_S_

/-- The batch mean of each feature. -/
def meanT (x : FVec Ideal S10000x128 .f32) : FVec Ideal S128 .f32 :=
  Host.divf (F := Ideal) (sumT x) (broadcastInDim S128 ![] bcast_S_S128 (constant (F := Ideal) S_ .f32 0x461C4000#32))

/-- The deviations from the mean, the mean taken as a row and divided as a row. -/
def devT (x : FVec Ideal S10000x128 .f32) : FVec Ideal S10000x128 .f32 :=
  subf x (broadcastInDim S10000x128 ![0, 1] bcast_S1x128_S10000x128_0_1
    (Host.divf (F := Ideal) (broadcastInDim S1x128 ![1] bcast_S128_S1x128_1 (sumT x))
      (broadcastInDim S1x128 ![] bcast_S_S1x128 (constant (F := Ideal) S_ .f32 0x461C4000#32))))

/-- The divisor of the variance: ten thousand minus the real of the integer zero. -/
def cntT : FVec Ideal S_ .f32 :=
  subf (constant (F := Ideal) S_ .f32 0x461C4000#32) (sitofp .f32 (constantI S_ 32 0#32))

/-- The biased variance of each feature, under the choice the program wraps it in. -/
def varT (x : FVec Ideal S10000x128 .f32) : FVec Ideal S128 .f32 :=
  select (broadcastInDim S128 ![] bcast_S_S128 (cmpf .ogt cntT (constant (F := Ideal) S_ .f32 0x00000000#32)))
    (Host.divf (F := Ideal) (sumT (mulf (devT x) (devT x))) (broadcastInDim S128 ![] bcast_S_S128 cntT))
    (broadcastInDim S128 ![] bcast_S_S128 (id (constant (F := Ideal) S_ .f32 0x7FC00000#32)))

/-- The normalisation: deviations over the square root of variance plus epsilon, times the scale, plus the shift. -/
def bnT (x : FVec Ideal S10000x128 .f32) (g be : FVec Ideal S128 .f32) : FVec Ideal S10000x128 .f32 :=
  addf
    (mulf
      (Host.divf (F := Ideal)
        (subf x (broadcastInDim S10000x128 ![0, 1] bcast_S1x128_S10000x128_0_1
          (broadcastInDim S1x128 ![1] bcast_S128_S1x128_1 (meanT x))))
        (broadcastInDim S10000x128 ![0, 1] bcast_S1x128_S10000x128_0_1
          (broadcastInDim S1x128 ![1] bcast_S128_S1x128_1
            (Host.sqrt (F := Ideal) (addf (varT x)
              (broadcastInDim S128 ![] bcast_S_S128 (constant (F := Ideal) S_ .f32 0x3727C5AC#32)))))))
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 be))

/-- The whole program's value. -/
def outT (h : FVec Ideal S10000x128 .f32) (adj : FVec Ideal S10000x10000 .f32) (w1 : FVec Ideal S128x128 .f32)
    (b1 : FVec Ideal S128 .f32) (w2 : FVec Ideal S128x128 .f32) (b2 g be : FVec Ideal S128 .f32) (e : FVec Ideal S1 .f32) :
    FVec Ideal S10000x128 .f32 :=
  linT (bnT (aggT adj (linT h w1 b1) e) g be) w2 b2

/-! ## The three products at an index

Each contracts the left operand's second axis with the right operand's first: at a result index (r, c) and a
contraction position k the operands are read at (r, k) and (k, c). -/

theorem lhsA_0 (j : S10000x128.Idx) (k : dot_S10000x128_S128x128_S10000x128_1_0_0_1_n_n.contr.Idx) :
    (dot_S10000x128_S128x128_S10000x128_1_0_0_1_n_n.lhsIdx j k 0).val = (j 0).val := rfl
theorem lhsA_1 (j : S10000x128.Idx) (k : dot_S10000x128_S128x128_S10000x128_1_0_0_1_n_n.contr.Idx) :
    (dot_S10000x128_S128x128_S10000x128_1_0_0_1_n_n.lhsIdx j k 1).val = (k ⟨0, by decide⟩).val :=
  dot_S10000x128_S128x128_S10000x128_1_0_0_1_n_n.lhsIdx_val_of_single rfl j k
theorem rhsA_0 (j : S10000x128.Idx) (k : dot_S10000x128_S128x128_S10000x128_1_0_0_1_n_n.contr.Idx) :
    (dot_S10000x128_S128x128_S10000x128_1_0_0_1_n_n.rhsIdx j k 0).val = (k ⟨0, by decide⟩).val :=
  dot_S10000x128_S128x128_S10000x128_1_0_0_1_n_n.rhsIdx_val_of_single rfl j k
theorem rhsA_1 (j : S10000x128.Idx) (k : dot_S10000x128_S128x128_S10000x128_1_0_0_1_n_n.contr.Idx) :
    (dot_S10000x128_S128x128_S10000x128_1_0_0_1_n_n.rhsIdx j k 1).val = (j 1).val := rfl

/-- Features times a [128, 128] matrix. -/
theorem dotA_apply (x : FVec Ideal S10000x128 .f32) (w : FVec Ideal S128x128 .f32) (r : Fin 10000) (c : Fin 128) :
    Host.dotGeneral (F := Ideal) dot_S10000x128_S128x128_S10000x128_1_0_0_1_n_n none x w (ix2 r c)
      = ∑ k : Fin 128, x (ix2 r k) * w (ix2 k c) := by
  show FloatOps.dotGeneral dot_S10000x128_S128x128_S10000x128_1_0_0_1_n_n none .single x w (ix2 r c) = _
  rw [Ideal.dotGeneral_apply,
    ← Equiv.sum_comp (contrEquiv1 dot_S10000x128_S128x128_S10000x128_1_0_0_1_n_n 128 rfl rfl).symm]
  refine Finset.sum_congr rfl fun k _ => ?_
  have hl : dot_S10000x128_S128x128_S10000x128_1_0_0_1_n_n.lhsIdx (ix2 r c)
      ((contrEquiv1 dot_S10000x128_S128x128_S10000x128_1_0_0_1_n_n 128 rfl rfl).symm k) = ix2 r k :=
    funext fun a => Fin.ext (by
      match a with
      | ⟨0, _⟩ => exact lhsA_0 _ _
      | ⟨1, _⟩ => exact (lhsA_1 _ _).trans (contrEquiv1_symm_val _ 128 rfl rfl k))
  have hr : dot_S10000x128_S128x128_S10000x128_1_0_0_1_n_n.rhsIdx (ix2 r c)
      ((contrEquiv1 dot_S10000x128_S128x128_S10000x128_1_0_0_1_n_n 128 rfl rfl).symm k) = ix2 k c :=
    funext fun a => Fin.ext (by
      match a with
      | ⟨0, _⟩ => exact (rhsA_0 _ _).trans (contrEquiv1_symm_val _ 128 rfl rfl k)
      | ⟨1, _⟩ => exact rhsA_1 _ _)
  rw [hl, hr]

theorem lhsB_0 (j : S10000x128.Idx) (k : dot_S10000x10000_S10000x128_S10000x128_1_0_0_1_n_n.contr.Idx) :
    (dot_S10000x10000_S10000x128_S10000x128_1_0_0_1_n_n.lhsIdx j k 0).val = (j 0).val := rfl
theorem lhsB_1 (j : S10000x128.Idx) (k : dot_S10000x10000_S10000x128_S10000x128_1_0_0_1_n_n.contr.Idx) :
    (dot_S10000x10000_S10000x128_S10000x128_1_0_0_1_n_n.lhsIdx j k 1).val = (k ⟨0, by decide⟩).val :=
  dot_S10000x10000_S10000x128_S10000x128_1_0_0_1_n_n.lhsIdx_val_of_single rfl j k
theorem rhsB_0 (j : S10000x128.Idx) (k : dot_S10000x10000_S10000x128_S10000x128_1_0_0_1_n_n.contr.Idx) :
    (dot_S10000x10000_S10000x128_S10000x128_1_0_0_1_n_n.rhsIdx j k 0).val = (k ⟨0, by decide⟩).val :=
  dot_S10000x10000_S10000x128_S10000x128_1_0_0_1_n_n.rhsIdx_val_of_single rfl j k
theorem rhsB_1 (j : S10000x128.Idx) (k : dot_S10000x10000_S10000x128_S10000x128_1_0_0_1_n_n.contr.Idx) :
    (dot_S10000x10000_S10000x128_S10000x128_1_0_0_1_n_n.rhsIdx j k 1).val = (j 1).val := rfl

/-- The adjacency times the features. -/
theorem dotB_apply (adj : FVec Ideal S10000x10000 .f32) (h1 : FVec Ideal S10000x128 .f32) (r : Fin 10000) (c : Fin 128) :
    Host.dotGeneral (F := Ideal) dot_S10000x10000_S10000x128_S10000x128_1_0_0_1_n_n none adj h1 (ix2 r c)
      = ∑ k : Fin 10000, adj (ix2 r k) * h1 (ix2 k c) := by
  show FloatOps.dotGeneral dot_S10000x10000_S10000x128_S10000x128_1_0_0_1_n_n none .single adj h1 (ix2 r c) = _
  rw [Ideal.dotGeneral_apply,
    ← Equiv.sum_comp (contrEquiv1 dot_S10000x10000_S10000x128_S10000x128_1_0_0_1_n_n 10000 rfl rfl).symm]
  refine Finset.sum_congr rfl fun k _ => ?_
  have hl : dot_S10000x10000_S10000x128_S10000x128_1_0_0_1_n_n.lhsIdx (ix2 r c)
      ((contrEquiv1 dot_S10000x10000_S10000x128_S10000x128_1_0_0_1_n_n 10000 rfl rfl).symm k) = ix2 r k :=
    funext fun a => Fin.ext (by
      match a with
      | ⟨0, _⟩ => exact lhsB_0 _ _
      | ⟨1, _⟩ => exact (lhsB_1 _ _).trans (contrEquiv1_symm_val _ 10000 rfl rfl k))
  have hr : dot_S10000x10000_S10000x128_S10000x128_1_0_0_1_n_n.rhsIdx (ix2 r c)
      ((contrEquiv1 dot_S10000x10000_S10000x128_S10000x128_1_0_0_1_n_n 10000 rfl rfl).symm k) = ix2 k c :=
    funext fun a => Fin.ext (by
      match a with
      | ⟨0, _⟩ => exact (rhsB_0 _ _).trans (contrEquiv1_symm_val _ 10000 rfl rfl k)
      | ⟨1, _⟩ => exact rhsB_1 _ _)
  rw [hl, hr]

theorem lhsC_0 (j : S10000x1.Idx) (k : dot_S10000x10000_S10000x1_S10000x1_1_0_0_1_n_n.contr.Idx) :
    (dot_S10000x10000_S10000x1_S10000x1_1_0_0_1_n_n.lhsIdx j k 0).val = (j 0).val := rfl
theorem lhsC_1 (j : S10000x1.Idx) (k : dot_S10000x10000_S10000x1_S10000x1_1_0_0_1_n_n.contr.Idx) :
    (dot_S10000x10000_S10000x1_S10000x1_1_0_0_1_n_n.lhsIdx j k 1).val = (k ⟨0, by decide⟩).val :=
  dot_S10000x10000_S10000x1_S10000x1_1_0_0_1_n_n.lhsIdx_val_of_single rfl j k
theorem rhsC_0 (j : S10000x1.Idx) (k : dot_S10000x10000_S10000x1_S10000x1_1_0_0_1_n_n.contr.Idx) :
    (dot_S10000x10000_S10000x1_S10000x1_1_0_0_1_n_n.rhsIdx j k 0).val = (k ⟨0, by decide⟩).val :=
  dot_S10000x10000_S10000x1_S10000x1_1_0_0_1_n_n.rhsIdx_val_of_single rfl j k
theorem rhsC_1 (j : S10000x1.Idx) (k : dot_S10000x10000_S10000x1_S10000x1_1_0_0_1_n_n.contr.Idx) :
    (dot_S10000x10000_S10000x1_S10000x1_1_0_0_1_n_n.rhsIdx j k 1).val = (j 1).val := rfl

/-- The adjacency times a column. -/
theorem dotC_apply (adj : FVec Ideal S10000x10000 .f32) (v : FVec Ideal S10000x1 .f32) (r : Fin 10000) (z : Fin 1) :
    Host.dotGeneral (F := Ideal) dot_S10000x10000_S10000x1_S10000x1_1_0_0_1_n_n none adj v (ix2 r z)
      = ∑ k : Fin 10000, adj (ix2 r k) * v (ix2 k z) := by
  show FloatOps.dotGeneral dot_S10000x10000_S10000x1_S10000x1_1_0_0_1_n_n none .single adj v (ix2 r z) = _
  rw [Ideal.dotGeneral_apply,
    ← Equiv.sum_comp (contrEquiv1 dot_S10000x10000_S10000x1_S10000x1_1_0_0_1_n_n 10000 rfl rfl).symm]
  refine Finset.sum_congr rfl fun k _ => ?_
  have hl : dot_S10000x10000_S10000x1_S10000x1_1_0_0_1_n_n.lhsIdx (ix2 r z)
      ((contrEquiv1 dot_S10000x10000_S10000x1_S10000x1_1_0_0_1_n_n 10000 rfl rfl).symm k) = ix2 r k :=
    funext fun a => Fin.ext (by
      match a with
      | ⟨0, _⟩ => exact lhsC_0 _ _
      | ⟨1, _⟩ => exact (lhsC_1 _ _).trans (contrEquiv1_symm_val _ 10000 rfl rfl k))
  have hr : dot_S10000x10000_S10000x1_S10000x1_1_0_0_1_n_n.rhsIdx (ix2 r z)
      ((contrEquiv1 dot_S10000x10000_S10000x1_S10000x1_1_0_0_1_n_n 10000 rfl rfl).symm k) = ix2 k z :=
    funext fun a => Fin.ext (by
      match a with
      | ⟨0, _⟩ => exact (rhsC_0 _ _).trans (contrEquiv1_symm_val _ 10000 rfl rfl k)
      | ⟨1, _⟩ => exact rhsC_1 _ _)
  rw [hl, hr]

/-! ## The layout operations at an index -/

/-- The transposed weight at (k, c) is the weight at (c, k). -/
theorem tr_apply (w : FVec Ideal S128x128 .f32) (k c : Fin 128) :
    transpose S128x128 [1, 0] w transposes_S128x128_S128x128_1_0 (ix2 k c) = w (ix2 c k) :=
  transpose_apply [1, 0] w _ (ix2 k c) (ix2 c k) fun b => match b with | ⟨0, _⟩ => rfl | ⟨1, _⟩ => rfl

/-- A length-128 vector as a row. -/
theorem bcVecRow_apply (b : FVec Ideal S128 .f32) (z : Fin 1) (c : Fin 128) :
    broadcastInDim S1x128 ![1] bcast_S128_S1x128_1 b (ix2 z c) = b (ix1 c) :=
  broadcastInDim_apply ![1] _ b (ix2 z c) (ix1 c) fun a => match a with | ⟨0, _⟩ => rfl

/-- A row repeated down the ten thousand rows. -/
theorem bcRowAll_apply (v : FVec Ideal S1x128 .f32) (r : Fin 10000) (c : Fin 128) :
    broadcastInDim S10000x128 ![0, 1] bcast_S1x128_S10000x128_0_1 v (ix2 r c) = v (ix2 0 c) :=
  broadcastInDim_apply ![0, 1] _ v (ix2 r c) (ix2 0 c) fun a => match a with | ⟨0, _⟩ => rfl | ⟨1, _⟩ => rfl

/-- A column repeated across the features. -/
theorem bcColAll_apply (v : FVec Ideal S10000x1 .f32) (r : Fin 10000) (c : Fin 128) :
    broadcastInDim S10000x128 ![0, 1] bcast_S10000x1_S10000x128_0_1 v (ix2 r c) = v (ix2 r 0) :=
  broadcastInDim_apply ![0, 1] _ v (ix2 r c) (ix2 r 0) fun a => match a with | ⟨0, _⟩ => rfl | ⟨1, _⟩ => rfl

/-- A length-one vector as a cell. -/
theorem bcVecCell_apply (e : FVec Ideal S1 .f32) (z z' : Fin 1) :
    broadcastInDim S1x1 ![1] bcast_S1_S1x1_1 e (ix2 z z') = e (ix1 0) :=
  broadcastInDim_apply ![1] _ e (ix2 z z') (ix1 0) fun a => match a with | ⟨0, _⟩ => rfl

/-- A cell repeated everywhere. -/
theorem bcCellAll_apply (v : FVec Ideal S1x1 .f32) (r : Fin 10000) (c : Fin 128) :
    broadcastInDim S10000x128 ![0, 1] bcast_S1x1_S10000x128_0_1 v (ix2 r c) = v (ix2 0 0) :=
  broadcastInDim_apply ![0, 1] _ v (ix2 r c) (ix2 0 0) fun a => match a with | ⟨0, _⟩ => rfl | ⟨1, _⟩ => rfl

/-! ## The constants -/

/-- The word 0x461C4000 is ten thousand: exponent 140 − 127 = 13, significand 2²³ + 1851392, and
    10240000 · 2⁻¹⁰ = 10000. -/
theorem ofBits_tenThousand : Ideal.ofBits .f32 0x461C4000#32 = ((10000 : ℝ) : EReal) := by
  simp [Ideal.ofBits, Ideal.ieee, -EReal.coe_mul]; norm_num

/-- The variance's divisor is ten thousand: the integer zero is the real zero. -/
theorem cntT_apply (j : S_.Idx) : cntT j = ((10000 : ℝ) : EReal) := by
  show Ideal.ofBits .f32 0x461C4000#32 - (((0#32 : BitVec 32).toInt : ℝ) : EReal) = _
  rw [ofBits_tenThousand]
  simp

/-! ## The pieces against the specification -/

/-- The dense layer is the specification's, with the weight read transposed and the bias as a row. -/
theorem linT_eq (x : FVec Ideal S10000x128 .f32) (w : FVec Ideal S128x128 .f32) (b : FVec Ideal S128 .f32) :
    linT x w b = Cert.Spec.lin x (Cert.Spec.tr w) (Cert.Spec.row b) := by
  funext i
  obtain ⟨r, c, rfl⟩ : ∃ (r : Fin 10000) (c : Fin 128), i = ix2 r c := ⟨i 0, i 1, eq_ix2 i⟩
  unfold linT
  rw [addf_apply, dotA_apply, bcRowAll_apply, bcVecRow_apply]
  show _ = (∑ k : Fin 128, x (ix2 r k) * w (ix2 c k)) + b (ix1 c)
  exact congrArg (· + b (ix1 c)) (Finset.sum_congr rfl fun k _ => by rw [tr_apply])

/-- The degree column is the row sum of the adjacency: each product is with one. -/
theorem degT_apply (adj : FVec Ideal S10000x10000 .f32) (r : Fin 10000) (z : Fin 1) :
    degT adj (ix2 r z) = Cert.Spec.deg adj r := by
  unfold degT Cert.Spec.deg
  rw [dotC_apply]
  refine Finset.sum_congr rfl fun k _ => ?_
  rw [broadcastInDim_scalar_apply, constant_apply, Ideal.ofBits_one_f32, mul_one]

/-- The aggregation is the specification's, with eps as a cell. -/
theorem aggT_eq (adj : FVec Ideal S10000x10000 .f32) (h1 : FVec Ideal S10000x128 .f32) (e : FVec Ideal S1 .f32) :
    aggT adj h1 e = Cert.Spec.agg adj h1 (Cert.Spec.cell e) := by
  funext i
  obtain ⟨r, c, rfl⟩ : ∃ (r : Fin 10000) (c : Fin 128), i = ix2 r c := ⟨i 0, i 1, eq_ix2 i⟩
  unfold aggT
  rw [addf_apply, hostDivf_apply, dotB_apply, bcColAll_apply, degT_apply, mulf_apply, bcCellAll_apply, bcVecCell_apply]
  rfl

/-- Summing over the first axis puts the row in front of the feature. -/
theorem red_lift (hR : S10000x128.Reduces [0] S128) (c : Fin 128) (k : Fin 10000) : hR.lift (ix1 c) k = ix2 k c :=
  funext fun a => Fin.ext (match a with | ⟨0, _⟩ => rfl | ⟨1, _⟩ => rfl)

/-- The column sum at a feature. -/
theorem sumT_apply (x : FVec Ideal S10000x128 .f32) (c : Fin 128) : sumT x (ix1 c) = ∑ r : Fin 10000, x (ix2 r c) := by
  unfold sumT
  rw [hostReduceAdd_apply,
    Ideal.hostReduceAdd_single reducesTo_S10000x128_S128_d0 (by decide : S10000x128.Reduces [0] S128),
    constant_apply, Ideal.ofBits_zero_f32, zero_add]
  exact Finset.sum_congr rfl fun k _ => congrArg x (red_lift _ c k)

/-- The mean is the specification's. -/
theorem meanT_apply (x : FVec Ideal S10000x128 .f32) (c : Fin 128) : meanT x (ix1 c) = Cert.Spec.meanR x c := by
  unfold meanT Cert.Spec.meanR
  rw [hostDivf_apply, sumT_apply, broadcastInDim_scalar_apply, constant_apply, ofBits_tenThousand]

/-- The deviation at (r, c) is the entry minus the feature's mean. -/
theorem devT_apply (x : FVec Ideal S10000x128 .f32) (r : Fin 10000) (c : Fin 128) :
    devT x (ix2 r c) = x (ix2 r c) - Cert.Spec.meanR x c := by
  unfold devT Cert.Spec.meanR
  rw [subf_apply, bcRowAll_apply, hostDivf_apply, bcVecRow_apply, sumT_apply, broadcastInDim_scalar_apply, constant_apply,
    ofBits_tenThousand]

/-- Ten thousand is above zero, so the choice keeps the quotient. -/
theorem cmp_cnt : Ideal.cmp .ogt ((10000 : ℝ) : EReal) 0 = 1#1 := by
  show BitVec.ofBool (decide ((0 : EReal) < ((10000 : ℝ) : EReal))) = 1#1
  rw [decide_eq_true (EReal.coe_pos.mpr (by norm_num))]
  rfl

/-- The variance is the specification's. -/
theorem varT_apply (x : FVec Ideal S10000x128 .f32) (c : Fin 128) : varT x (ix1 c) = Cert.Spec.varR x c := by
  unfold varT
  rw [select_apply, broadcastInDim_scalar_apply, cmpf_apply, cntT_apply, constant_apply, Ideal.ofBits_zero_f32,
    Ideal.cmpf_def, cmp_cnt, select_one, hostDivf_apply, sumT_apply, broadcastInDim_scalar_apply, cntT_apply]
  unfold Cert.Spec.varR
  exact congrArg (Ideal.div · ((10000 : ℝ) : EReal))
    (Finset.sum_congr rfl fun r _ => by rw [mulf_apply, devT_apply])

/-- The normalisation is the specification's, with scale and shift as rows. -/
theorem bnT_eq (x : FVec Ideal S10000x128 .f32) (g be : FVec Ideal S128 .f32) :
    bnT x g be = Cert.Spec.bnR x (Cert.Spec.row g) (Cert.Spec.row be) := by
  funext i
  obtain ⟨r, c, rfl⟩ : ∃ (r : Fin 10000) (c : Fin 128), i = ix2 r c := ⟨i 0, i 1, eq_ix2 i⟩
  unfold bnT
  rw [addf_apply, mulf_apply, hostDivf_apply, subf_apply,
    bcRowAll_apply, bcRowAll_apply, bcRowAll_apply, bcRowAll_apply,
    bcVecRow_apply, bcVecRow_apply, bcVecRow_apply, bcVecRow_apply, meanT_apply]
  show Ideal.div (x (ix2 r c) - Cert.Spec.meanR x c)
        (Ideal.sqrt (varT x (ix1 c)
          + broadcastInDim S128 ![] bcast_S_S128 (constant (F := Ideal) S_ .f32 0x3727C5AC#32) (ix1 c)))
      * g (ix1 c) + be (ix1 c) = _
  rw [varT_apply, broadcastInDim_scalar_apply, constant_apply]
  rfl

/-- The program's value is the specification's host-side composition of the arguments. -/
theorem outT_eq (h : FVec Ideal S10000x128 .f32) (adj : FVec Ideal S10000x10000 .f32) (w1 : FVec Ideal S128x128 .f32)
    (b1 : FVec Ideal S128 .f32) (w2 : FVec Ideal S128x128 .f32) (b2 g be : FVec Ideal S128 .f32) (e : FVec Ideal S1 .f32) :
    outT h adj w1 b1 w2 b2 g be e
      = Cert.Spec.outR h adj (Cert.Spec.tr w1) (Cert.Spec.row b1) (Cert.Spec.tr w2) (Cert.Spec.row b2)
          (Cert.Spec.row g) (Cert.Spec.row be) (Cert.Spec.cell e) := by
  unfold outT Cert.Spec.outR
  rw [linT_eq, linT_eq, aggT_eq, bnT_eq]

end Cert.ReferenceIdeal.Hand

end
-- ==== Proof.Ref.Run.lean ====
/-
  The host program's run against the specification. The straight line's fold at the result buffer is the composed
  value of the nine arguments' launch contents, which, read index by index, is the specification's host-side
  composition; no operation writes an argument, so each keeps its launch contents.
-/
import proofs.«111429_g56848187130529_cont_sun_m_287_2_alg».proof.Proof.Ref.Ops
import proofs.«111429_g56848187130529_cont_sun_m_287_2_alg».proof.Proof.Ref.Read

noncomputable section

namespace Cert.ReferenceIdeal.Hand

open Cert.ReferenceIdeal Cert.ReferenceIdeal.Gen Idealize.ShloMosaic Idealize.ShloMosaic.TcCoe Idealize.ShloMosaic.ValueIdx
open Idealize.SL Idealize.SL.Sem Idealize.ShloMosaic.StableHlo

set_option maxRecDepth 8192 in
/-- The fold at the result buffer is the composed value of the arguments. -/
theorem out_eq (V : Valuation τ sig (Elt Ideal)) :
    after (ops (F := Ideal)) V (main_v37 : DevRef τ sig)
      = outT (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! No operation writes an argument. -/

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp
theorem arg8_eq (V : Valuation τ sig (Elt Ideal)) :
    after (ops (F := Ideal)) V (main_arg8 : DevRef τ sig) = V (main_arg8 : DevRef τ sig) := by
  after_results_simp

/-- From any memory with zero counters every weakly fair execution of the host program terminates with the result at
    the specification's host-side composition of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37)
        = Cert.Spec.outR (m ((c.tc : Thread nD τ).loc main_arg0)) (m ((c.tc : Thread nD τ).loc main_arg1))
            (Cert.Spec.tr (m ((c.tc : Thread nD τ).loc main_arg2))) (Cert.Spec.row (m ((c.tc : Thread nD τ).loc main_arg3)))
            (Cert.Spec.tr (m ((c.tc : Thread nD τ).loc main_arg4))) (Cert.Spec.row (m ((c.tc : Thread nD τ).loc main_arg5)))
            (Cert.Spec.row (m ((c.tc : Thread nD τ).loc main_arg6))) (Cert.Spec.row (m ((c.tc : Thread nD τ).loc main_arg7)))
            (Cert.Spec.cell (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨(h c main_v37).trans ((out_eq (launchContents m c)).trans (outT_eq _ _ _ _ _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _), (h c main_arg8).trans (arg8_eq _)⟩)
    (run_main m ρ)

end Cert.ReferenceIdeal.Hand

end
-- ==== Proof.SpecAlgebra.lean ====
/-
  The two compositions of the specification agree on real inputs with nonzero degrees.

  Both are the last dense layer applied to a batch normalisation of the same aggregated array x, so it is enough that the
  two normalisations agree. The kernel's form takes the mean as s · (1/N) and the variance as q · (1/N) − mean², from the
  moments s = Σ x and q = Σ x², and scales by rsqrt(var + ε) · γ; the reference's form takes the mean as s / N, the variance
  as the mean of the squared deviations, and divides by sqrt(var + ε) before scaling by γ.

  When every entry of x is a real number these agree: dividing by the real N is multiplying by 1/N; over the reals
  (Σ (x_r − m)²)/N = q/N − m² for m = s/N; that common variance is a sum of squares over a positive number, hence ≥ 0, and
  ε is a positive real, so v = var + ε > 0, where rsqrt v = (√v)⁻¹ and dividing by √v is multiplying by (√v)⁻¹; the rest is
  associativity of the product of extended reals, which asks nothing of γ and β.

  x itself is real-valued because the reals are closed under finite sums, products, and division by a nonzero real: the
  first dense layer of real inputs is real, every degree is a nonzero real, and so the aggregation is real.
-/
import proofs.«111429_g56848187130529_cont_sun_m_287_2_alg».proof.Proof.Spec

noncomputable section

open scoped BigOperators

namespace Cert.Spec

open Idealize.ShloMosaic Idealize.ShloMosaic.ValueIdx

/-! ## The reals inside the extended reals are closed under the operations the layer uses -/

theorem real_add {a b : EReal} (ha : ∃ r : ℝ, a = (r : EReal)) (hb : ∃ r : ℝ, b = (r : EReal)) : ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

/-- A finite sum of reals, taken in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem real_sum {ι : Type} (s : Finset ι) (f : ι → EReal) (hf : ∀ i ∈ s, ∃ r : ℝ, f i = (r : EReal)) :
    ∃ r : ℝ, (∑ i ∈ s, f i) = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A real divided by a nonzero real is the real quotient. -/
theorem real_div {a b : EReal} (ha : ∃ r : ℝ, a = (r : EReal)) (hb : ∃ r : ℝ, b = (r : EReal)) (hb0 : b ≠ 0) :
    ∃ r : ℝ, Ideal.div a b = (r : EReal) := by
  obtain ⟨r, rfl⟩ := ha
  obtain ⟨s, rfl⟩ := hb
  have hs : s ≠ 0 := fun h => hb0 (by rw [h, EReal.coe_zero])
  rw [Ideal.div_coe hs]
  exact ⟨r * (1 / s), (EReal.coe_mul _ _).symm⟩

/-! ## The aggregated array is real-valued -/

theorem lin_real {x : FVec Ideal SND .f32} {wt : FVec Ideal SDD .f32} {b : FVec Ideal S1D .f32}
    (hx : ∀ i, ∃ r : ℝ, x i = (r : EReal)) (hw : ∀ i, ∃ r : ℝ, wt i = (r : EReal)) (hb : ∀ i, ∃ r : ℝ, b i = (r : EReal)) :
    ∀ i, ∃ r : ℝ, lin x wt b i = (r : EReal) := by
  intro i
  unfold lin
  exact real_add (real_sum _ _ fun k _ => real_mul (hx _) (hw _)) (hb _)

theorem deg_real {adj : FVec Ideal SNN .f32} (hadj : ∀ i, ∃ r : ℝ, adj i = (r : EReal)) (r : Fin 10000) :
    ∃ d : ℝ, deg adj r = (d : EReal) := by
  unfold deg
  exact real_sum _ _ fun k _ => hadj _

theorem agg_real {adj : FVec Ideal SNN .f32} {h1 : FVec Ideal SND .f32} {e : FVec Ideal S11 .f32}
    (hadj : ∀ i, ∃ r : ℝ, adj i = (r : EReal)) (hh1 : ∀ i, ∃ r : ℝ, h1 i = (r : EReal)) (he : ∀ i, ∃ r : ℝ, e i = (r : EReal))
    (hdeg : ∀ r : Fin 10000, deg adj r ≠ 0) : ∀ i, ∃ r : ℝ, agg adj h1 e i = (r : EReal) := by
  intro i
  unfold agg
  exact real_add (real_div (real_sum _ _ fun k _ => real_mul (hadj _) (hh1 _)) (deg_real hadj _) (hdeg _))
    (real_mul (he _) (hh1 _))

/-! ## The batch-norm epsilon is a positive real -/

/-- The word 0x3727C5AC has sign 0, exponent field 110 and fraction 2606508: (2²³ + 2606508) · 2^(110 − 127 − 23). -/
theorem epsBN_val : epsBN = (((10995116 : ℝ) * (2 : ℝ) ^ (-40 : ℤ) : ℝ) : EReal) := by
  unfold epsBN
  simp [Ideal.ofBits, Ideal.ieee, -EReal.coe_mul]

theorem epsBN_pos : ∃ ε : ℝ, 0 < ε ∧ epsBN = (ε : EReal) :=
  ⟨(10995116 : ℝ) * (2 : ℝ) ^ (-40 : ℤ), by positivity, epsBN_val⟩

/-! ## The variance identity over the reals -/

/-- The mean of the squared deviations from the mean is the mean of the squares minus the squared mean (N = 10000). -/
theorem var_identity (f : Fin 10000 → ℝ) :
    (∑ r : Fin 10000, (f r - (∑ r : Fin 10000, f r) * (1 / 10000)) * (f r - (∑ r : Fin 10000, f r) * (1 / 10000))) * (1 / 10000)
      = (∑ r : Fin 10000, f r * f r) * (1 / 10000)
          - ((∑ r : Fin 10000, f r) * (1 / 10000)) * ((∑ r : Fin 10000, f r) * (1 / 10000)) := by
  obtain ⟨S, hS⟩ : ∃ S : ℝ, (∑ r : Fin 10000, f r) = S := ⟨_, rfl⟩
  rw [hS]
  have h1 : ∀ r : Fin 10000, (f r - S * (1 / 10000)) * (f r - S * (1 / 10000))
      = f r * f r - (2 * (S * (1 / 10000))) * f r + (S * (1 / 10000)) * (S * (1 / 10000)) := fun r => by ring
  rw [Finset.sum_congr rfl fun r _ => h1 r, Finset.sum_add_distrib, Finset.sum_sub_distrib, ← Finset.mul_sum, hS,
    Finset.sum_const, Finset.card_univ, Fintype.card_fin, nsmul_eq_mul]
  push_cast
  ring

/-! ## The two normalisations read at an index -/

theorem bnK_apply (x : FVec Ideal SND .f32) (s q g be : FVec Ideal S1D .f32) (p : Fin 10000) (c : Fin 128) :
    bnK x s q g be (ix2 p c)
      = (x (ix2 p c) - s (ix2 0 c) * ((1 / 10000 : ℝ) : EReal))
          * (Ideal.rsqrt ((q (ix2 0 c) * ((1 / 10000 : ℝ) : EReal)
                - (s (ix2 0 c) * ((1 / 10000 : ℝ) : EReal)) * (s (ix2 0 c) * ((1 / 10000 : ℝ) : EReal))) + epsBN)
              * g (ix2 0 c))
          + be (ix2 0 c) := rfl

theorem bnR_apply (x : FVec Ideal SND .f32) (g be : FVec Ideal S1D .f32) (p : Fin 10000) (c : Fin 128) :
    bnR x g be (ix2 p c)
      = Ideal.div (x (ix2 p c) - meanR x c) (Ideal.sqrt (varR x c + epsBN)) * g (ix2 0 c) + be (ix2 0 c) := rfl

theorem colSum_apply (x : FVec Ideal SND .f32) (c : Fin 128) : colSum x (ix2 0 c) = ∑ r : Fin 10000, x (ix2 r c) := rfl

theorem colSumSq_apply (x : FVec Ideal SND .f32) (c : Fin 128) :
    colSumSq x (ix2 0 c) = ∑ r : Fin 10000, x (ix2 r c) * x (ix2 r c) := rfl

/-! ## The two normalisations agree on a real-valued array -/

theorem bn_point (x : FVec Ideal SND .f32) (g be : FVec Ideal S1D .f32) (X : SND.Idx → ℝ) (hX : ∀ i, x i = (X i : EReal))
    (p : Fin 10000) (c : Fin 128) :
    bnK x (colSum x) (colSumSq x) g be (ix2 p c) = bnR x g be (ix2 p c) := by
  obtain ⟨ε, hε, hεe⟩ := epsBN_pos
  have hN : (10000 : ℝ) ≠ 0 := by norm_num
  -- the two moments and the reference's mean and variance, as reals
  have hs : (∑ r : Fin 10000, x (ix2 r c)) = ((∑ r : Fin 10000, X (ix2 r c) : ℝ) : EReal) := by
    rw [← coe_sum]; exact Finset.sum_congr rfl fun r _ => hX _
  have hq : (∑ r : Fin 10000, x (ix2 r c) * x (ix2 r c)) = ((∑ r : Fin 10000, X (ix2 r c) * X (ix2 r c) : ℝ) : EReal) := by
    rw [← coe_sum]; exact Finset.sum_congr rfl fun r _ => by rw [hX, ← EReal.coe_mul]
  have hm : meanR x c = (((∑ r : Fin 10000, X (ix2 r c)) * (1 / 10000) : ℝ) : EReal) := by
    unfold meanR; rw [hs, Ideal.div_coe hN, ← EReal.coe_mul]
  have hv : varR x c = (((∑ r : Fin 10000, X (ix2 r c) * X (ix2 r c)) * (1 / 10000)
        - ((∑ r : Fin 10000, X (ix2 r c)) * (1 / 10000)) * ((∑ r : Fin 10000, X (ix2 r c)) * (1 / 10000)) : ℝ) : EReal) := by
    unfold varR
    rw [hm]
    have hd : (∑ r : Fin 10000, (x (ix2 r c) - (((∑ r : Fin 10000, X (ix2 r c)) * (1 / 10000) : ℝ) : EReal))
          * (x (ix2 r c) - (((∑ r : Fin 10000, X (ix2 r c)) * (1 / 10000) : ℝ) : EReal)))
        = ((∑ r : Fin 10000, (X (ix2 r c) - (∑ r : Fin 10000, X (ix2 r c)) * (1 / 10000))
              * (X (ix2 r c) - (∑ r : Fin 10000, X (ix2 r c)) * (1 / 10000)) : ℝ) : EReal) := by
      rw [← coe_sum]; exact Finset.sum_congr rfl fun r _ => by rw [hX, ← EReal.coe_sub, ← EReal.coe_mul]
    rw [hd, Ideal.div_coe hN, ← EReal.coe_mul, var_identity fun r => X (ix2 r c)]
  -- the common variance is nonnegative, so v = var + ε is a positive real
  have hvar : 0 ≤ (∑ r : Fin 10000, X (ix2 r c) * X (ix2 r c)) * (1 / 10000)
        - ((∑ r : Fin 10000, X (ix2 r c)) * (1 / 10000)) * ((∑ r : Fin 10000, X (ix2 r c)) * (1 / 10000)) := by
    rw [← var_identity fun r => X (ix2 r c)]
    exact mul_nonneg (Finset.sum_nonneg fun r _ => mul_self_nonneg _) (by norm_num)
  obtain ⟨V, hV⟩ : ∃ V : ℝ, V = (∑ r : Fin 10000, X (ix2 r c) * X (ix2 r c)) * (1 / 10000)
        - ((∑ r : Fin 10000, X (ix2 r c)) * (1 / 10000)) * ((∑ r : Fin 10000, X (ix2 r c)) * (1 / 10000)) + ε := ⟨_, rfl⟩
  have hVpos : 0 < V := by rw [hV]; linarith
  have hsq : Real.sqrt V ≠ 0 := (Real.sqrt_pos.mpr hVpos).ne'
  -- the argument of the kernel's rsqrt and of the reference's sqrt are both the real v
  have hk : ((((∑ r : Fin 10000, X (ix2 r c) * X (ix2 r c) : ℝ) : EReal) * ((1 / 10000 : ℝ) : EReal)
        - (((∑ r : Fin 10000, X (ix2 r c) : ℝ) : EReal) * ((1 / 10000 : ℝ) : EReal))
            * (((∑ r : Fin 10000, X (ix2 r c) : ℝ) : EReal) * ((1 / 10000 : ℝ) : EReal))) + (ε : EReal)) = (V : EReal) := by
    rw [hV]; simp only [EReal.coe_add, EReal.coe_sub, EReal.coe_mul]
  have hr : ((((∑ r : Fin 10000, X (ix2 r c) * X (ix2 r c)) * (1 / 10000)
        - ((∑ r : Fin 10000, X (ix2 r c)) * (1 / 10000)) * ((∑ r : Fin 10000, X (ix2 r c)) * (1 / 10000)) : ℝ) : EReal)
          + (ε : EReal)) = (V : EReal) := by
    rw [hV, EReal.coe_add]
  rw [bnK_apply, bnR_apply, colSum_apply, colSumSq_apply, hs, hq, hm, hv, hεe, hk, hr, ← EReal.coe_mul,
    Ideal.rsqrt_coe, if_neg (not_lt.mpr hVpos.le), if_neg hVpos.ne', Ideal.sqrt_coe, if_neg (not_lt.mpr hVpos.le),
    Ideal.div_coe hsq, one_div (Real.sqrt V), mul_assoc]

theorem bnK_eq_bnR (x : FVec Ideal SND .f32) (g be : FVec Ideal S1D .f32) (hx : ∀ i, ∃ r : ℝ, x i = (r : EReal)) :
    bnK x (colSum x) (colSumSq x) g be = bnR x g be := by
  choose X hX using hx
  funext i
  rw [eq_ix2 i]
  exact bn_point x g be X hX (i 0) (i 1)

/-! ## The statement -/

theorem outK_eq_outR (h : FVec Ideal SND .f32) (adj : FVec Ideal SNN .f32) (w1t : FVec Ideal SDD .f32) (b1r : FVec Ideal S1D .f32)
    (w2t : FVec Ideal SDD .f32) (b2r g be : FVec Ideal S1D .f32) (e : FVec Ideal S11 .f32)
    (hh : ∀ i, ∃ x : ℝ, h i = (x : EReal)) (hadj : ∀ i, ∃ x : ℝ, adj i = (x : EReal)) (hw : ∀ i, ∃ x : ℝ, w1t i = (x : EReal))
    (hb : ∀ i, ∃ x : ℝ, b1r i = (x : EReal)) (he : ∀ i, ∃ x : ℝ, e i = (x : EReal)) (hdeg : ∀ r : Fin 10000, deg adj r ≠ 0) :
    outK h adj w1t b1r w2t b2r g be e = outR h adj w1t b1r w2t b2r g be e := by
  unfold outK outR
  rw [bnK_eq_bnR (agg adj (lin h w1t b1r) e) g be (agg_real hadj (lin_real hh hw hb) he hdeg)]

end Cert.Spec

end
-- ==== Proof.PreFacts.lean ====
/-
  What the printed precondition says of the inputs, as plain facts about extended reals.

  The precondition is a conjunction of ten bits. Nine of them say, for one input each, that every entry has
  absolute value below +∞; an extended real whose absolute value max x (−x) is below +∞ is neither infinity, so it is a
  real number. The tenth says that every row sum of the adjacency differs from zero; the row sum is taken from the zero
  word, 0 + Σ_k a1[r, k], which is the degree of node r.
-/
import proofs.«111429_g56848187130529_cont_sun_m_287_2_alg».proof.Pre_finite_inputs
import proofs.«111429_g56848187130529_cont_sun_m_287_2_alg».proof.Proof.Gen.Pre_finite_inputs
import proofs.«111429_g56848187130529_cont_sun_m_287_2_alg».proof.Proof.Spec
import Idealize.ShloMosaic.Lib.ReduceAll
import Idealize.ShloMosaic.Lib.IdealHost
import Idealize.ShloMosaic.Lib.ValueLayout
import Idealize.ShloMosaic.PureOps.Ideal.Laws

noncomputable section

open scoped BigOperators

namespace Cert.PreFacts

open Idealize.ShloMosaic Idealize.ShloMosaic.ValueIdx
open Cert.Pre_finite_inputs

/-- The rank-0 shape has one index. -/
instance : Subsingleton S_.Idx := ⟨fun a b => funext fun d => d.elim0⟩

/-- The word with exponent field all ones and fraction zero denotes +∞. -/
theorem ofBits_inf : Ideal.ofBits .f32 0x7F800000#32 = (⊤ : EReal) := by
  simp [Ideal.ofBits, Ideal.ieee]

/-- An extended real whose absolute value max x (−x) lies strictly below +∞ is a real: at either infinity the maximum is +∞. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The comparison "not equal" answering 1 says the two extended reals differ. -/
theorem ne_of_cmp_une (x y : EReal) (h : Ideal.cmp .une x y = 1#1) : x ≠ y := by
  intro hxy
  subst hxy
  simp [Ideal.cmp] at h

/-- One conjunct: if "|v| < +∞" holds at every index (the and-reduction over all axes is 1), every entry of v is a real. -/
theorem real_of_all {s : Shape} (v : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf v) (broadcastInDim s ![] hb (constant (F := Ideal) S_ .f32 0x7F800000#32)))
          (constantI S_ 1 1#1) hr hu ix0 = 1#1) :
    ∀ i, ∃ r : ℝ, v i = (r : EReal) := by
  intro i
  have h1 := Host.reduce_andi_all _ _ hr hu ix0 e i
  rw [cmpf_apply, broadcastInDim_scalar_apply, constant_apply, ofBits_inf] at h1
  exact real_of_abs_lt_top (v i) h1

/-- The tenth conjunct: if every row sum of a1 (taken from the zero word) differs from zero, every degree is nonzero. -/
theorem deg_ne_zero_of_all (a1 : FVec Ideal S10000x10000 .f32) (hb : S_.BroadcastsInDim S10000 (![] : Fin 0 → Fin S10000.rank))
    (hR : S10000x10000.ReducesTo [1] S10000) (hr : S10000.ReducesTo [0] S_) (hu : 0 < S_.numel)
    (e : Host.reduce IntOp.andi
          (cmpf .une (Host.reduceAdd a1 (constant (F := Ideal) S_ .f32 0x00000000#32) hR hu)
            (broadcastInDim S10000 ![] hb (constant (F := Ideal) S_ .f32 0x00000000#32)))
          (constantI S_ 1 1#1) hr hu ix0 = 1#1) :
    ∀ r : Fin 10000, Cert.Spec.deg a1 r ≠ 0 := by
  intro r
  have hR' : S10000x10000.Reduces [1] S10000 := by decide
  have h1 := Host.reduce_andi_all _ _ hr hu ix0 e (ix1 r)
  rw [cmpf_apply, hostReduceAdd_apply, broadcastInDim_scalar_apply, constant_apply, constant_apply, Ideal.ofBits_zero_f32,
    Ideal.hostReduceAdd_single hR hR', zero_add] at h1
  have hl : ∀ k : Fin 10000, hR'.lift (ix1 r) k = ix2 r k := by
    intro k; funext a
    match a with
    | ⟨0, _⟩ => exact Fin.ext rfl
    | ⟨1, _⟩ => exact Fin.ext rfl
  have hs : (∑ k : Fin 10000, a1 (hR'.lift (ix1 r) k)) = Cert.Spec.deg a1 r := by
    unfold Cert.Spec.deg
    exact Finset.sum_congr rfl fun k _ => by rw [hl k]
  rw [Ideal.cmpf_def] at h1
  exact fun h0 => ne_of_cmp_une _ _ h1 (hs.trans h0)

theorem of_pre [Cert.Pre_finite_inputs.Facts]
    (a0 : FVec Ideal S10000x128 .f32) (a1 : FVec Ideal S10000x10000 .f32) (a2 : FVec Ideal S128x128 .f32) (a3 : FVec Ideal S128 .f32)
    (a4 : FVec Ideal S128x128 .f32) (a5 a6 a7 : FVec Ideal S128 .f32) (a8 : FVec Ideal S1 .f32)
    (h : Cert.Pre_finite_inputs.fn (F := Ideal) a0 a1 a2 a3 a4 a5 a6 a7 a8 = (fun _ => 1#1)) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a8 i = (x : EReal))
      ∧ (∀ r : Fin 10000, Cert.Spec.deg a1 r ≠ 0) := by
  have h0 := congrFun h ix0
  dsimp only [fn, fn_part1, fn_part2, andi] at h0
  simp only [IntOp.andi_eq_one] at h0
  obtain ⟨⟨⟨⟨⟨⟨⟨⟨⟨c0, c1⟩, c2⟩, c3⟩, _c4⟩, _c5⟩, _c6⟩, _c7⟩, c8⟩, c9⟩ := h0
  exact ⟨real_of_all a0 _ _ _ c0, real_of_all a1 _ _ _ c1, real_of_all a2 _ _ _ c2, real_of_all a3 _ _ _ c3,
    real_of_all a8 _ _ _ c8, deg_ne_zero_of_all a1 _ _ _ _ c9⟩

end Cert.PreFacts

end
-- ==== Proof.lean ====
/-
  The proof of `Cert.Claim`. The kernel is a graph layer over 10000 nodes and 128 features in three regions:
  a dense layer h1 = h·W1ᵀ + b1; the mean aggregation h2 = (adj·h1)/deg + eps·h1 (deg a node's row sum of the
  adjacency) with the per-feature sum and sum of squares of h2 accumulated tile by tile; and batch normalisation
  from those two moments followed by a second dense layer. The reference computes the same with the textbook
  variance, the mean of the squared deviations.

  The statement carries one added precondition beside finiteness: every row of the adjacency has a nonzero sum —
  outside it the reference itself divides by zero. Under it every aggregated feature is a real number, the two
  variance formulas E[x²] − E[x]² and E[(x − E x)²] agree over the reals, the variance plus the positive epsilon is
  positive, so rsqrt is the reciprocal of the square root, and (x − mean)·(rsqrt v·γ) = ((x − mean)/√v)·γ by
  associativity alone (γ, β and the second layer's weights need no finiteness).

  The three frames: the kernel's, at both instances, from the run of its three regions read at the argument
  buffers; the reference's from its run with the result dropped. `preserves`: the ledger's two entries name the
  same constant, 1/10000. `algebraic`: both runs end at one function of the arguments.
-/
import proofs.«111429_g56848187130529_cont_sun_m_287_2_alg».proof.Defs
import proofs.«111429_g56848187130529_cont_sun_m_287_2_alg».proof.Proof.Gen.Kernel
import proofs.«111429_g56848187130529_cont_sun_m_287_2_alg».proof.Proof.Gen.KernelIdeal
import proofs.«111429_g56848187130529_cont_sun_m_287_2_alg».proof.Proof.Gen.ReferenceIdeal
import proofs.«111429_g56848187130529_cont_sun_m_287_2_alg».proof.Proof.Gen.Pre_finite_inputs
import proofs.«111429_g56848187130529_cont_sun_m_287_2_alg».proof.Proof.K.Frame
import proofs.«111429_g56848187130529_cont_sun_m_287_2_alg».proof.Proof.KI.Frame
import proofs.«111429_g56848187130529_cont_sun_m_287_2_alg».proof.Proof.KI.KernelValue
import proofs.«111429_g56848187130529_cont_sun_m_287_2_alg».proof.Proof.Ref.Run
import proofs.«111429_g56848187130529_cont_sun_m_287_2_alg».proof.Proof.SpecAlgebra
import proofs.«111429_g56848187130529_cont_sun_m_287_2_alg».proof.Proof.PreFacts
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Hand.run m ρ)

/-- The ledger's two entries: the certificate's table gives "inv_10000" the value 1/10000, twice. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- Both runs end at one function of the arguments: the kernel's result is `Spec.outK`, the reference's `Spec.outR`,
    and under the precondition (finite inputs, no zero-sum row of the adjacency) the two are equal. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.Spec.tr (m ((c.tc : Thread Cert.KernelIdeal.nD Cert.KernelIdeal.τ).loc Cert.KernelIdeal.main_arg2))) (Cert.Spec.row (m ((c.tc : Thread Cert.KernelIdeal.nD Cert.KernelIdeal.τ).loc Cert.KernelIdeal.main_arg3)))
        (Cert.Spec.tr (m ((c.tc : Thread Cert.KernelIdeal.nD Cert.KernelIdeal.τ).loc Cert.KernelIdeal.main_arg4))) (Cert.Spec.row (m ((c.tc : Thread Cert.KernelIdeal.nD Cert.KernelIdeal.τ).loc Cert.KernelIdeal.main_arg5))) (Cert.Spec.row (m ((c.tc : Thread Cert.KernelIdeal.nD Cert.KernelIdeal.τ).loc Cert.KernelIdeal.main_arg6))) (Cert.Spec.row (m ((c.tc : Thread Cert.KernelIdeal.nD Cert.KernelIdeal.τ).loc Cert.KernelIdeal.main_arg7))) (Cert.Spec.cell (m ((c.tc : Thread Cert.KernelIdeal.nD Cert.KernelIdeal.τ).loc Cert.KernelIdeal.main_arg8))),
    Cert.KernelIdeal.Fr.run_value m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h8, hdeg⟩ := Cert.PreFacts.of_pre _ _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Spec.outK_eq_outR _ _ _ _ _ _ _ _ _ h0 h1 (fun i => h2 _) (fun i => h3 _) (fun i => h8 _) hdeg).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
